-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x64 : Shape := ⟨2, ![512, 64]⟩
abbrev S64 : Shape := ⟨1, ![64]⟩
abbrev S64x64 : Shape := ⟨2, ![64, 64]⟩
abbrev S64x512 : Shape := ⟨2, ![64, 512]⟩
abbrev S512 : Shape := ⟨1, ![512]⟩
abbrev S64x1 : Shape := ⟨2, ![64, 1]⟩
abbrev S1 : Shape := ⟨1, ![1]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S64x1 .f32) (main_arg12 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S512x64 .f32) (main_arg8 : FVec F S64 .f32) (main_arg9 : FVec F S64x64 .f32) (main_arg10 : FVec F S64 .f32) (main_arg11 : FVec F S64x1 .f32) (main_arg12 : FVec F S1 .f32) (main_v33 : IVec S_ 1) : IVec S_ 1 :=
  let main_v34 : FVec F S512x64 .f32 := Host.absf main_arg7
  let main_cst_12 : FVec F S_ .f32 := constant S_ .f32 0x7F800000#32
  let main_v35 : FVec F S512x64 .f32 := broadcastInDim S512x64 ![] bcast_S_S512x64 main_cst_12
  let main_v36 : IVec S512x64 1 := cmpf .olt main_v34 main_v35
  let main_c_13 : IVec S_ 1 := constantI S_ 1 1#1
  let main_v37 : IVec S_ 1 := (fun x v => Host.reduce IntOp.andi x v reducesTo_S512x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S64 .f32) (main_arg5 : FVec F S64x512 .f32) (main_arg6 : FVec F S512 .f32) (main_arg7 : FVec F S512x64 .f32) (main_arg8 : FVec F S64 .f32) (main_arg9 : FVec F S64x64 .f32) (main_arg10 : FVec F S64 .f32) (main_arg11 : FVec F S64x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x512 .f32 := Host.absf main_arg5
  let main_cst_8 : FVec F S_ .f32 := constant S_ .f32 0x7F800000#32
  let main_v25 : FVec F S64x512 .f32 := broadcastInDim S64x512 ![] bcast_S_S64x512 main_cst_8
  let main_v26 : IVec S64x512 1 := cmpf .olt main_v24 main_v25
  let main_c_9 : IVec S_ 1 := constantI S_ 1 1#1
  let main_v27 : IVec S_ 1 := (fun x v => Host.reduce IntOp.andi x v reducesTo_S64x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32768x512 .f32) (main_arg1 : FVec F S512x64 .f32) (main_arg2 : FVec F S64 .f32) (main_arg3 : FVec F S64x64 .f32) (main_arg4 : FVec F S64 .f32) (main_arg5 : FVec F S64x512 .f32) (main_arg6 : FVec F S512 .f32) (main_arg7 : FVec F S512x64 .f32) (main_arg8 : FVec F S64 .f32) (main_arg9 : FVec F S64x64 .f32) (main_arg10 : FVec F S64 .f32) (main_arg11 : FVec F S64x1 .f32) (main_arg12 : FVec F S1 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_v13 main_v16
-- ==== Kernel.lean ====
abbrev S32768x512 : Shape := ⟨2, ![32768, 512]⟩
abbrev S512x64 : Shape := ⟨2, ![512, 64]⟩
abbrev S64 : Shape := ⟨1, ![64]⟩
abbrev S64x64 : Shape := ⟨2, ![64, 64]⟩
abbrev S64x512 : Shape := ⟨2, ![64, 512]⟩
abbrev S512 : Shape := ⟨1, ![512]⟩
abbrev S64x1 : Shape := ⟨2, ![64, 1]⟩
abbrev S1 : Shape := ⟨1, ![1]⟩
abbrev S1x512 : Shape := ⟨2, ![1, 512]⟩
abbrev S1x64 : Shape := ⟨2, ![1, 64]⟩
abbrev S1x1 : Shape := ⟨2, ![1, 1]⟩
abbrev S32768x1 : Shape := ⟨2, ![32768, 1]⟩
abbrev S2x8x128 : Shape := ⟨3, ![2, 8, 128]⟩
abbrev S1024x512 : Shape := ⟨2, ![1024, 512]⟩
abbrev S1024x1 : Shape := ⟨2, ![1024, 1]⟩
abbrev S1x8x128 : Shape := ⟨3, ![1, 8, 128]⟩
abbrev S8x128 : Shape := ⟨2, ![8, 128]⟩
abbrev S1024x64 : Shape := ⟨2, ![1024, 64]⟩
abbrev S1024 : Shape := ⟨1, ![1024]⟩
abbrev S2x1x1 : Shape := ⟨3, ![2, 1, 1]⟩
abbrev S2 : Shape := ⟨1, ![2]⟩
abbrev S_ : Shape := ⟨0, ![]⟩

abbrev nBuf : Space → Nat
  | .hbm => 52
  | .vmem => 37
  | .smem => 0
  | _ => 0

abbrev bufTy : (tb : Table) → Fin (tcTables nBuf tb) → BufTy
  | .hbm, ⟨0, _⟩ => ⟨S32768x512, .f32⟩
  | .hbm, ⟨1, _⟩ => ⟨S512x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x512, .f32⟩
  | .hbm, ⟨6, _⟩ => ⟨S512, .f32⟩
  | .hbm, ⟨7, _⟩ => ⟨S512x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x512, .f32⟩
  | .hbm, ⟨14, _⟩ => ⟨S1x64, .f32⟩
  | .hbm, ⟨15, _⟩ => ⟨S64x64, .f32⟩
  | .hbm, ⟨16, _⟩ => ⟨S1x64, .f32⟩
  | .hbm, ⟨17, _⟩ => ⟨S1x64, .f32⟩
  | .hbm, ⟨18, _⟩ => ⟨S64x64, .f32⟩
  | .hbm, ⟨19, _⟩ => ⟨S512x64, .f32⟩
  | .hbm, ⟨20, _⟩ => ⟨S64x64, .f32⟩
  | .hbm, ⟨21, _⟩ => ⟨S512x64, .f32⟩
  | .hbm, ⟨22, _⟩ => ⟨S1x64, .f32⟩
  | .hbm, ⟨23, _⟩ => ⟨S512x64, .bf16⟩
  | .hbm, ⟨24, _⟩ => ⟨S64x64, .bf16⟩
  | .hbm, ⟨25, _⟩ => ⟨S64x512, .bf16⟩
  | .hbm, ⟨26, _⟩ => ⟨S64x64, .bf16⟩
  | .hbm, ⟨27, _⟩ => ⟨S64x512, .f32⟩
  | .hbm, ⟨28, _⟩ => ⟨S64x512, .bf16⟩
  | .hbm, ⟨29, _⟩ => ⟨S64x64, .f32⟩
  | .hbm, ⟨30, _⟩ => ⟨S64x64, .bf16⟩
  | .hbm, ⟨31, _⟩ => ⟨S64x64, .f32⟩
  | .hbm, ⟨32, _⟩ => ⟨S64x64, .bf16⟩
  | .hbm, ⟨33, _⟩ => ⟨S64x64, .bf16⟩
  | .hbm, ⟨34, _⟩ => ⟨S64x64, .bf16⟩
  | .hbm, ⟨35, _⟩ => ⟨S64x64, .bf16⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S1x512, .f32⟩
  | .hbm, ⟨40, _⟩ => ⟨S1x64, .f32⟩
  | .hbm, ⟨41, _⟩ => ⟨S1x1, .f32⟩
  | .hbm, ⟨42, _⟩ => ⟨S32768x512, .bf16⟩
  | .hbm, ⟨43, _⟩ => ⟨S32768x512, .bf16⟩
  | .hbm, ⟨44, _⟩ => ⟨S32768x1, .f32⟩
  | .hbm, ⟨45, _⟩ => ⟨S2x8x128, .f32⟩
  | .hbm, ⟨46, _⟩ => ⟨S2x1x1, .f32⟩
  | .hbm, ⟨47, _⟩ => ⟨S2, .f32⟩
  | .hbm, ⟨48, _⟩ => ⟨S_, .f32⟩
  | .hbm, ⟨49, _⟩ => ⟨S_, .f32⟩
  | .hbm, ⟨50, _⟩ => ⟨S1x1, .f32⟩
  | .hbm, ⟨51, _⟩ => ⟨S32768x512, .f32⟩
  | .local _ .vmem, ⟨0, _⟩ => ⟨S1024x512, .f32⟩
  | .local _ .vmem, ⟨1, _⟩ => ⟨S1024x512, .f32⟩
  | .local _ .vmem, ⟨2, _⟩ => ⟨S512x64, .bf16⟩
  | .local _ .vmem, ⟨3, _⟩ => ⟨S1x64, .f32⟩
  | .local _ .vmem, ⟨4, _⟩ => ⟨S64x64, .bf16⟩
  | .local _ .vmem, ⟨5, _⟩ => ⟨S1x64, .f32⟩
  | .local _ .vmem, ⟨6, _⟩ => ⟨S64x512, .bf16⟩
  | .local _ .vmem, ⟨7, _⟩ => ⟨S1x512, .f32⟩
  | .local _ .vmem, ⟨8, _⟩ => ⟨S64x64, .bf16⟩
  | .local _ .vmem, ⟨9, _⟩ => ⟨S1x64, .f32⟩
  | .local _ .vmem, ⟨10, _⟩ => ⟨S64x64, .bf16⟩
  | .local _ .vmem, ⟨11, _⟩ => ⟨S1x64, .f32⟩
  | .local _ .vmem, ⟨12, _⟩ => ⟨S1x64, .f32⟩
  | .local _ .vmem, ⟨13, _⟩ => ⟨S1x1, .f32⟩
  | .local _ .vmem, ⟨14, _⟩ => ⟨S64x512, .bf16⟩
  | .local _ .vmem, ⟨15, _⟩ => ⟨S64x64, .bf16⟩
  | .local _ .vmem, ⟨16, _⟩ => ⟨S64x64, .bf16⟩
  | .local _ .vmem, ⟨17, _⟩ => ⟨S64x64, .bf16⟩
  | .local _ .vmem, ⟨18, _⟩ => ⟨S64x64, .bf16⟩
  | .local _ .vmem, ⟨19, _⟩ => ⟨S1x64, .f32⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x1, .f32⟩
  | .local _ .vmem, ⟨25, _⟩ => ⟨S1024x1, .f32⟩
  | .local _ .vmem, ⟨26, _⟩ => ⟨S1x8x128, .f32⟩
  | .local _ .vmem, ⟨27, _⟩ => ⟨S1x8x128, .f32⟩
  | .local _ .vmem, ⟨28, _⟩ => ⟨S1024x512, .bf16⟩
  | .local _ .vmem, ⟨29, _⟩ => ⟨S1024x512, .bf16⟩
  | .local _ .vmem, ⟨30, _⟩ => ⟨S1024x512, .bf16⟩
  | .local _ .vmem, ⟨31, _⟩ => ⟨S1024x512, .bf16⟩
  | .local _ .vmem, ⟨32, _⟩ => ⟨S1024x1, .f32⟩
  | .local _ .vmem, ⟨33, _⟩ => ⟨S1024x1, .f32⟩
  | .local _ .vmem, ⟨34, _⟩ => ⟨S1x1, .f32⟩
  | .local _ .vmem, ⟨35, _⟩ => ⟨S1024x512, .f32⟩
  | .local _ .vmem, ⟨36, _⟩ => ⟨S1024x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev main_v29_2 : Ref sig .tc := ⟨.hbm, 44, rfl⟩
abbrev main_v29_3 : Ref sig .tc := ⟨.hbm, 45, rfl⟩
abbrev main_v30 : Ref sig .tc := ⟨.hbm, 46, rfl⟩
abbrev main_v31 : Ref sig .tc := ⟨.hbm, 47, rfl⟩
abbrev main_cst : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_stg20_0 : Ref sig .tc := ⟨.vmem, 22, rfl⟩
abbrev cc0_stg20_1 : Ref sig .tc := ⟨.vmem, 23, rfl⟩
abbrev cc0_stg21_0 : Ref sig .tc := ⟨.vmem, 24, rfl⟩
abbrev cc0_stg21_1 : Ref sig .tc := ⟨.vmem, 25, rfl⟩
abbrev cc0_stg22_0 : Ref sig .tc := ⟨.vmem, 26, rfl⟩
abbrev cc0_stg22_1 : Ref sig .tc := ⟨.vmem, 27, rfl⟩
abbrev cc1_stg0_0 : Ref sig .tc := ⟨.vmem, 28, rfl⟩
abbrev cc1_stg0_1 : Ref sig .tc := ⟨.vmem, 29, rfl⟩
abbrev cc1_stg1_0 : Ref sig .tc := ⟨.vmem, 30, rfl⟩
abbrev cc1_stg1_1 : Ref sig .tc := ⟨.vmem, 31, rfl⟩
abbrev cc1_stg2_0 : Ref sig .tc := ⟨.vmem, 32, rfl⟩
abbrev cc1_stg2_1 : Ref sig .tc := ⟨.vmem, 33, rfl⟩
abbrev cc1_stg3_0 : Ref sig .tc := ⟨.vmem, 34, rfl⟩
abbrev cc1_stg4_0 : Ref sig .tc := ⟨.vmem, 35, rfl⟩
abbrev cc1_stg4_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21
abbrev cc0_sem20_0 : DmaSem sig := 22
abbrev cc0_sem20_1 : DmaSem sig := 23
abbrev cc0_sem21_0 : DmaSem sig := 24
abbrev cc0_sem21_1 : DmaSem sig := 25
abbrev cc0_sem22_0 : DmaSem sig := 26
abbrev cc0_sem22_1 : DmaSem sig := 27
abbrev cc1_sem0_0 : DmaSem sig := 28
abbrev cc1_sem0_1 : DmaSem sig := 29
abbrev cc1_sem1_0 : DmaSem sig := 30
abbrev cc1_sem1_1 : DmaSem sig := 31
abbrev cc1_sem2_0 : DmaSem sig := 32
abbrev cc1_sem2_1 : DmaSem sig := 33
abbrev cc1_sem3_0 : DmaSem sig := 34
abbrev cc1_sem4_0 : DmaSem sig := 35
abbrev cc1_sem4_1 : DmaSem sig := 36

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S64x64 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S64x64 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S64x64 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S64x64 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1024x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1024x1 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x8x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S512_S1x512 : S512.ShapeCasts S1x512
  shapeCasts_S64_S1x64 : S64.ShapeCasts S1x64
  transposes_S64x64_S64x64_1_0 : S64x64.Transposes [1, 0] S64x64
  transposes_S64x512_S512x64_1_0 : S64x512.Transposes [1, 0] S512x64
  bitsLt_bf16_f32 : FTy.bits .bf16 < FTy.bits .f32
  transposes_S512x64_S64x512_1_0 : S512x64.Transposes [1, 0] S64x512
  shapeCasts_S64x1_S1x64 : S64x1.ShapeCasts S1x64
  shapeCasts_S1_S1x1 : S1.ShapeCasts S1x1
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1024x512_S1024x512_0_0 : ∀ a, (![0, 0] : Fin 2 → Nat) a + S1024x512.size a ≤ S1024x512.size a
  h_S1024x512 : 0 < S1024x512.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x64_S1024x64 : S1x64.Broadcasts S1024x64
  broadcasts_S1x512_S1024x512 : S1x512.Broadcasts S1024x512
  reduces_S1024x64_S1024 : S1024x64.Reduces [1] S1024
  shapeCasts_S1024_S1024x1 : S1024.ShapeCasts S1024x1
  broadcasts_S1x1_S1024x1 : S1x1.Broadcasts S1024x1
  reduces_S1024x512_S1024 : S1024x512.Reduces [1] S1024
  packedbf16_S1024x512_S1024x512_0_0 : (Rect.unit (s := S1024x512) ![0, 0] S1024x512.size inb_S1024x512_S1024x512_0_0).PackedRows (EltTy.packing .bf16)
  inb_S1024x1_S1024x1_0_0 : ∀ a, (![0, 0] : Fin 2 → Nat) a + S1024x1.size a ≤ S1024x1.size a
  h_S1024x1 : 0 < S1024x1.numel
  reduces_S1024x1_S1 : S1024x1.Reduces [0] S1
  broadcasts_S1x1_S8x128 : S1x1.Broadcasts S8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  shapeCasts_S_S1x1 : S_.ShapeCasts S1x1
  shapeCasts_S1024x512_S1024x512 : S1024x512.ShapeCasts S1024x512
  shapeCasts_S1024x1_S1024x1 : S1024x1.ShapeCasts S1024x1
  broadcasts_S1024x1_S1024x512 : S1024x1.Broadcasts S1024x512
  dot_S64x512_S512x64_S64x64_1_0_0_1_n_n_wf : DotDims.WF S64x512 S512x64 S64x64 [1] [0] [0] [1] [] []
  dot_S1x512_S512x64_S1x64_1_0_0_1_n_n_wf : DotDims.WF S1x512 S512x64 S1x64 [1] [0] [0] [1] [] []
  dot_S1024x512_S512x64_S1024x64_1_0_0_1_n_n_wf : DotDims.WF S1024x512 S512x64 S1024x64 [1] [0] [0] [1] [] []
  dot_S1024x64_S64x64_S1024x64_1_0_0_1_n_n_wf : DotDims.WF S1024x64 S64x64 S1024x64 [1] [0] [0] [1] [] []
  dot_S1024x64_S64x512_S1024x512_1_0_0_1_n_n_wf : DotDims.WF S1024x64 S64x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .bf16 = 32 ∨ (Rect.block (s := S512x64) S512x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x512.size a ≤ S64x512.size a
  hwx0_5 : ∀ i : grid0.Coords, EltTy.bits .bf16 = 32 ∨ (Rect.block (s := S64x512) S64x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .bf16 = 32 ∨ (Rect.block (s := S64x64) S64x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .bf16 = 32 ∨ (Rect.block (s := S64x64) S64x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x512.size a ≤ S64x512.size a
  hwx0_13 : ∀ i : grid0.Coords, EltTy.bits .bf16 = 32 ∨ (Rect.block (s := S64x512) S64x512.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64x64.size a ≤ S64x64.size a
  hwx0_14 : ∀ i : grid0.Coords, EltTy.bits .bf16 = 32 ∨ (Rect.block (s := S64x64) S64x64.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x64.size a ≤ S64x64.size a
  hwx0_15 : ∀ i : grid0.Coords, EltTy.bits .bf16 = 32 ∨ (Rect.block (s := S64x64) S64x64.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S64x64.size a ≤ S64x64.size a
  hwx0_16 : ∀ i : grid0.Coords, EltTy.bits .bf16 = 32 ∨ (Rect.block (s := S64x64) S64x64.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S64x64.size a ≤ S64x64.size a
  hwx0_17 : ∀ i : grid0.Coords, EltTy.bits .bf16 = 32 ∨ (Rect.block (s := S64x64) S64x64.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x64.size a ≤ S1x64.size a
  hwx0_18 : ∀ i : grid0.Coords, EltTy.bits .f32 = 32 ∨ (Rect.block (s := S1x64) S1x64.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1024x512.size a ≤ S32768x512.size a
  hwx0_19 : ∀ i : grid0.Coords, EltTy.bits .bf16 = 32 ∨ (Rect.block (s := S32768x512) S1024x512.size (cc0_transform_19 i) (hinb0_19 i)).WholeWords (EltTy.packing .bf16)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1024x512.size a ≤ S32768x512.size a
  hwx0_20 : ∀ i : grid0.Coords, EltTy.bits .bf16 = 32 ∨ (Rect.block (s := S32768x512) S1024x512.size (cc0_transform_20 i) (hinb0_20 i)).WholeWords (EltTy.packing .bf16)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S1024x1.size a ≤ S32768x1.size a
  hwx0_21 : ∀ i : grid0.Coords, EltTy.bits .f32 = 32 ∨ (Rect.block (s := S32768x1) S1024x1.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1x8x128.size a ≤ S2x8x128.size a
  hwx0_22 : ∀ i : grid0.Coords, EltTy.bits .f32 = 32 ∨ (Rect.block (s := S2x8x128) S1x8x128.size (cc0_transform_22 i) (hinb0_22 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S32768x512.size a
  hwx1_0 : ∀ i : grid1.Coords, EltTy.bits .bf16 = 32 ∨ (Rect.block (s := S32768x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S32768x512.size a
  hwx1_1 : ∀ i : grid1.Coords, EltTy.bits .bf16 = 32 ∨ (Rect.block (s := S32768x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S32768x1.size a
  hwx1_2 : ∀ i : grid1.Coords, EltTy.bits .f32 = 32 ∨ (Rect.block (s := S32768x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S32768x512.size a
  hwx1_4 : ∀ i : grid1.Coords, EltTy.bits .f32 = 32 ∨ (Rect.block (s := S32768x512) S1024x512.size (cc1_transform_4 i) (hinb1_4 i)).WholeWords (EltTy.packing .f32)

variable [Facts₀]

def dot_S64x512_S512x64_S64x64_1_0_0_1_n_n : DotDims S64x512 S512x64 S64x64 where
  lhsContracting := [1]
  rhsContracting := [0]
  lhsNonContracting := [0]
  rhsNonContracting := [1]
  lhsBatch := []
  rhsBatch := []
  wf := dot_S64x512_S512x64_S64x64_1_0_0_1_n_n_wf
def dot_S1x512_S512x64_S1x64_1_0_0_1_n_n : DotDims S1x512 S512x64 S1x64 where
  lhsContracting := [1]
  rhsContracting := [0]
  lhsNonContracting := [0]
  rhsNonContracting := [1]
  lhsBatch := []
  rhsBatch := []
  wf := dot_S1x512_S512x64_S1x64_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S64x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v27) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v23) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v28) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S64x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v17) S64x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v19) S64x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v21) S64x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v22) S64x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v9) S1x64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v29_0) S1024x512.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v29_1) S1024x512.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v29_2) S1024x1.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v29_3) S1x8x128.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

abbrev win1_0 : Pipeline.Window sig grid1 :=
  Pipeline.Window.ofSpec (Memref.whole main_v29_0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29_1) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29_2) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32768x512 : Shape := ⟨2, ![32768, 512]⟩
abbrev S512x64 : Shape := ⟨2, ![512, 64]⟩
abbrev S64 : Shape := ⟨1, ![64]⟩
abbrev S64x64 : Shape := ⟨2, ![64, 64]⟩
abbrev S64x512 : Shape := ⟨2, ![64, 512]⟩
abbrev S512 : Shape := ⟨1, ![512]⟩
abbrev S64x1 : Shape := ⟨2, ![64, 1]⟩
abbrev S1 : Shape := ⟨1, ![1]⟩
abbrev S32768x64 : Shape := ⟨2, ![32768, 64]⟩
abbrev S1x64 : Shape := ⟨2, ![1, 64]⟩
abbrev S_ : Shape := ⟨0, ![]⟩
abbrev S1x512 : Shape := ⟨2, ![1, 512]⟩
abbrev S32768x1 : Shape := ⟨2, ![32768, 1]⟩
abbrev S1x1 : Shape := ⟨2, ![1, 1]⟩
abbrev S32768 : Shape := ⟨1, ![32768]⟩

abbrev nBuf : Space → Nat
  | .hbm => 145
  | .vmem => 0
  | .smem => 0
  | _ => 0

abbrev hbmTy0_0 (i : Nat) : BufTy := match i % 128 with
  | 0 => ⟨S32768x512, .f32⟩
  | 1 => ⟨S512x64, .f32⟩
  | 2 => ⟨S64, .f32⟩
  | 3 => ⟨S64x64, .f32⟩
  | 4 => ⟨S64, .f32⟩
  | 5 => ⟨S64x512, .f32⟩
  | 6 => ⟨S512, .f32⟩
  | 7 => ⟨S512x64, .f32⟩
  | 8 => ⟨S64, .f32⟩
  | 9 => ⟨S64x64, .f32⟩
  | 10 => ⟨S64, .f32⟩
  | 11 => ⟨S64x1, .f32⟩
  | 12 => ⟨S1, .f32⟩
  | 13 => ⟨S32768x64, .f32⟩
  | 14 => ⟨S1x64, .f32⟩
  | 15 => ⟨S32768x64, .f32⟩
  | 16 => ⟨S32768x64, .f32⟩
  | 17 => ⟨S_, .f32⟩
  | 18 => ⟨S32768x64, .f32⟩
  | 19 => ⟨S32768x64, .f32⟩
  | 20 => ⟨S_, .f32⟩
  | 21 => ⟨S32768x64, .f32⟩
  | 22 => ⟨S32768x64, .i1⟩
  | 23 => ⟨S_, .f32⟩
  | 24 => ⟨S32768x64, .f32⟩
  | 25 => ⟨S32768x64, .f32⟩
  | 26 => ⟨S1x64, .f32⟩
  | 27 => ⟨S32768x64, .f32⟩
  | 28 => ⟨S32768x64, .f32⟩
  | 29 => ⟨S_, .f32⟩
  | 30 => ⟨S32768x64, .f32⟩
  | 31 => ⟨S32768x64, .f32⟩
  | 32 => ⟨S_, .f32⟩
  | 33 => ⟨S32768x64, .f32⟩
  | 34 => ⟨S32768x64, .i1⟩
  | 35 => ⟨S_, .f32⟩
  | 36 => ⟨S32768x64, .f32⟩
  | 37 => ⟨S32768x512, .f32⟩
  | 38 => ⟨S1x512, .f32⟩
  | 39 => ⟨S32768x512, .f32⟩
  | 40 => ⟨S32768x512, .f32⟩
  | 41 => ⟨S32768x64, .f32⟩
  | 42 => ⟨S1x64, .f32⟩
  | 43 => ⟨S32768x64, .f32⟩
  | 44 => ⟨S32768x64, .f32⟩
  | 45 => ⟨S_, .f32⟩
  | 46 => ⟨S32768x64, .f32⟩
  | 47 => ⟨S32768x64, .f32⟩
  | 48 => ⟨S_, .f32⟩
  | 49 => ⟨S32768x64, .f32⟩
  | 50 => ⟨S32768x64, .i1⟩
  | 51 => ⟨S_, .f32⟩
  | 52 => ⟨S32768x64, .f32⟩
  | 53 => ⟨S32768x64, .f32⟩
  | 54 => ⟨S1x64, .f32⟩
  | 55 => ⟨S32768x64, .f32⟩
  | 56 => ⟨S32768x64, .f32⟩
  | 57 => ⟨S_, .f32⟩
  | 58 => ⟨S32768x64, .f32⟩
  | 59 => ⟨S32768x64, .f32⟩
  | 60 => ⟨S_, .f32⟩
  | 61 => ⟨S32768x64, .f32⟩
  | 62 => ⟨S32768x64, .i1⟩
  | 63 => ⟨S_, .f32⟩
  | 64 => ⟨S32768x64, .f32⟩
  | 65 => ⟨S32768x1, .f32⟩
  | 66 => ⟨S1x1, .f32⟩
  | 67 => ⟨S32768x1, .f32⟩
  | 68 => ⟨S32768x1, .f32⟩
  | 69 => ⟨S32768, .f32⟩
  | 70 => ⟨S32768x512, .f32⟩
  | 71 => ⟨S_, .f32⟩
  | 72 => ⟨S32768, .f32⟩
  | 73 => ⟨S_, .f32⟩
  | 74 => ⟨S32768, .f32⟩
  | 75 => ⟨S32768, .f32⟩
  | 76 => ⟨S32768, .f32⟩
  | 77 => ⟨S_, .f32⟩
  | 78 => ⟨S_, .f32⟩
  | 79 => ⟨S_, .f32⟩
  | 80 => ⟨S32768, .f32⟩
  | 81 => ⟨S_, .f32⟩
  | 82 => ⟨S32768, .f32⟩
  | 83 => ⟨S32768, .f32⟩
  | 84 => ⟨S32768x512, .f32⟩
  | 85 => ⟨S32768x512, .f32⟩
  | 86 => ⟨S32768x512, .f32⟩
  | 87 => ⟨S32768x512, .f32⟩
  | 88 => ⟨S32768x1, .f32⟩
  | 89 => ⟨S32768x64, .f32⟩
  | 90 => ⟨S_, .f32⟩
  | 91 => ⟨S32768x64, .f32⟩
  | 92 => ⟨S32768x64, .f32⟩
  | 93 => ⟨S32768x64, .f32⟩
  | 94 => ⟨S_, .f32⟩
  | 95 => ⟨S32768x64, .f32⟩
  | 96 => ⟨S32768x64, .f32⟩
  | 97 => ⟨S32768x512, .f32⟩
  | 98 => ⟨S32768x512, .f32⟩
  | 99 => ⟨S32768x64, .f32⟩
  | 100 => ⟨S_, .f32⟩
  | 101 => ⟨S32768x64, .f32⟩
  | 102 => ⟨S32768x64, .f32⟩
  | 103 => ⟨S32768x64, .f32⟩
  | 104 => ⟨S_, .f32⟩
  | 105 => ⟨S32768x64, .f32⟩
  | 106 => ⟨S32768x64, .f32⟩
  | 107 => ⟨S32768x512, .f32⟩
  | 108 => ⟨S32768x64, .f32⟩
  | 109 => ⟨S1x64, .f32⟩
  | 110 => ⟨S32768x64, .f32⟩
  | 111 => ⟨S32768x64, .f32⟩
  | 112 => ⟨S_, .f32⟩
  | 113 => ⟨S32768x64, .f32⟩
  | 114 => ⟨S32768x64, .f32⟩
  | 115 => ⟨S32768x64, .f32⟩
  | 116 => ⟨S1x64, .f32⟩
  | 117 => ⟨S32768x64, .f32⟩
  | 118 => ⟨S32768x64, .f32⟩
  | 119 => ⟨S_, .f32⟩
  | 120 => ⟨S32768x64, .f32⟩
  | 121 => ⟨S32768x64, .f32⟩
  | 122 => ⟨S32768x512, .f32⟩
  | 123 => ⟨S1x512, .f32⟩
  | 124 => ⟨S32768x512, .f32⟩
  | 125 => ⟨S32768x512, .f32⟩
  | 126 => ⟨S32768x512, .f32⟩
  | 127 => ⟨S_, .f32⟩
  | _ => ⟨S32768x512, .f32⟩

abbrev hbmTy0_1 (i : Nat) : BufTy := match i % 128 with
  | 0 => ⟨S32768, .f32⟩
  | 1 => ⟨S32768x512, .f32⟩
  | 2 => ⟨S_, .f32⟩
  | 3 => ⟨S_, .f32⟩
  | 4 => ⟨S_, .f32⟩
  | 5 => ⟨S32768, .f32⟩
  | 6 => ⟨S32768, .f32⟩
  | 7 => ⟨S32768, .f32⟩
  | 8 => ⟨S_, .f32⟩
  | 9 => ⟨S32768, .f32⟩
  | 10 => ⟨S32768, .f32⟩
  | 11 => ⟨S32768, .f32⟩
  | 12 => ⟨S32768, .f32⟩
  | 13 => ⟨S32768x1, .f32⟩
  | 14 => ⟨S32768x512, .f32⟩
  | 15 => ⟨S32768x512, .f32⟩
  | 16 => ⟨S32768x512, .f32⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_cst : Ref sig .tc := ⟨.hbm, 29, rfl⟩
abbrev main_call1_v0 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call2_cst : Ref sig .tc := ⟨.hbm, 45, rfl⟩
abbrev main_call2_v0 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_v26 : Ref sig .tc := ⟨.hbm, 50, rfl⟩
abbrev main_cst_4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_call3_cst : Ref sig .tc := ⟨.hbm, 57, rfl⟩
abbrev main_call3_v0 : Ref sig .tc := ⟨.hbm, 58, rfl⟩
abbrev main_v32 : Ref sig .tc := ⟨.hbm, 59, rfl⟩
abbrev main_cst_5 : Ref sig .tc := ⟨.hbm, 60, rfl⟩
abbrev main_v33 : Ref sig .tc := ⟨.hbm, 61, rfl⟩
abbrev main_v34 : Ref sig .tc := ⟨.hbm, 62, rfl⟩
abbrev main_cst_6 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_9 : Ref sig .tc := ⟨.hbm, 77, rfl⟩
abbrev main_v46 : Ref sig .tc := ⟨.hbm, 78, rfl⟩
abbrev main_cst_10 : Ref sig .tc := ⟨.hbm, 79, rfl⟩
abbrev main_v47 : Ref sig .tc := ⟨.hbm, 80, rfl⟩
abbrev main_cst_11 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_12 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_13 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_14 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_15 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_call4_cst : Ref sig .tc := ⟨.hbm, 112, rfl⟩
abbrev main_call4_v0 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_call5_cst : Ref sig .tc := ⟨.hbm, 119, rfl⟩
abbrev main_call5_v0 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_16 : Ref sig .tc := ⟨.hbm, 127, rfl⟩
abbrev main_v85 : Ref sig .tc := ⟨.hbm, 128, rfl⟩
abbrev main_v86 : Ref sig .tc := ⟨.hbm, 129, rfl⟩
abbrev main_cst_17 : Ref sig .tc := ⟨.hbm, 130, rfl⟩
abbrev main_v87 : Ref sig .tc := ⟨.hbm, 131, rfl⟩
abbrev main_cst_18 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_call6_cst : Ref sig .tc := ⟨.hbm, 136, rfl⟩
abbrev main_call6_v0 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  bcast_S_S32768x64 : S_.BroadcastsInDim S32768x64 (![] : Fin 0 → Fin S32768x64.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  shapeCasts_S32768x1_S32768 : S32768x1.ShapeCasts S32768
  reducesTo_S32768x512_S32768_d1 : S32768x512.ReducesTo [1] S32768
  h_S_ : 0 < S_.numel
  bcast_S_S32768 : S_.BroadcastsInDim S32768 (![] : Fin 0 → Fin S32768.rank)
  reducesTo_S32768_S_d0 : S32768.ReducesTo [0] S_
  bcast_S32768_S32768x512_0 : S32768.BroadcastsInDim S32768x512 (![0] : Fin 1 → Fin S32768x512.rank)
  bcast_S32768_S32768x1_0 : S32768.BroadcastsInDim S32768x1 (![0] : Fin 1 → Fin S32768x1.rank)
  reducesTo_S32768x512_S_d0_1 : S32768x512.ReducesTo [0, 1] S_
  bcast_S32768x1_S32768x512_0_1 : S32768x1.BroadcastsInDim S32768x512 (![0, 1] : Fin 2 → Fin S32768x512.rank)
  dot_S32768x512_S512x64_S32768x64_1_0_0_1_n_n_wf : DotDims.WF S32768x512 S512x64 S32768x64 [1] [0] [0] [1] [] []
  dot_S32768x64_S64x64_S32768x64_1_0_0_1_n_n_wf : DotDims.WF S32768x64 S64x64 S32768x64 [1] [0] [0] [1] [] []
  dot_S32768x64_S64x512_S32768x512_1_0_0_1_n_n_wf : DotDims.WF S32768x64 S64x512 S32768x512 [1] [0] [0] [1] [] []
  dot_S32768x64_S64x1_S32768x1_1_0_0_1_n_n_wf : DotDims.WF S32768x64 S64x1 S32768x1 [1] [0] [0] [1] [] []
  dot_S32768x1_S64x1_S32768x64_1_1_0_0_n_n_wf : DotDims.WF S32768x1 S64x1 S32768x64 [1] [1] [0] [0] [] []
  dot_S32768x64_S64x64_S32768x64_1_1_0_0_n_n_wf : DotDims.WF S32768x64 S64x64 S32768x64 [1] [1] [0] [0] [] []
  dot_S32768x64_S512x64_S32768x512_1_1_0_0_n_n_wf : DotDims.WF S32768x64 S512x64 S32768x512 [1] [1] [0] [0] [] []
  dot_S32768x512_S64x512_S32768x64_1_1_0_0_n_n_wf : DotDims.WF S32768x512 S64x512 S32768x64 [1] [1] [0] [0] [] []

variable [Facts₀]

def dot_S32768x512_S512x64_S32768x64_1_0_0_1_n_n : DotDims S32768x512 S512x64 S32768x64 where
  lhsContracting := [1]
  rhsContracting := [0]
  lhsNonContracting := [0]
  rhsNonContracting := [1]
  lhsBatch := []
  rhsBatch := []
  wf := dot_S32768x512_S512x64_S32768x64_1_0_0_1_n_n_wf
def dot_S32768x64_S64x64_S32768x64_1_0_0_1_n_n : DotDims S32768x64 S64x64 S32768x64 where
  lhsContracting := [1]
  rhsContracting := [0]
  lhsNonContracting := [0]
  rhsNonContracting := [1]
  lhsBatch := []
  rhsBatch := []
  wf := dot_S32768x64_S64x64_S32768x64_1_0_0_1_n_n_wf
def dot_S32768x64_S64x512_S32768x512_1_0_0_1_n_n : DotDims S32768x64 S64x512 S32768x512 where
  lhsContracting := [1]
  rhsContracting := [0]
  lhsNonContracting := [0]
  rhsNonContracting := [1]
  lhsBatch := []
  rhsBatch := []
  wf := dot_S32768x64_S64x512_S32768x512_1_0_0_1_n_n_wf
def dot_S32768x64_S64x1_S32768x1_1_0_0_1_n_n : DotDims S32768x64 S64x1 S32768x1 where
  lhsContracting := [1]
  rhsContracting := [0]
  lhsNonContracting := [0]
  rhsNonContracting := [1]
  lhsBatch := []
  rhsBatch := []
  wf := dot_S32768x64_S64x1_S32768x1_1_0_0_1_n_n_wf
def dot_S32768x1_S64x1_S32768x64_1_1_0_0_n_n : DotDims S32768x1 S64x1 S32768x64 where
  lhsContracting := [1]
  rhsContracting := [1]
  lhsNonContracting := [0]
  rhsNonContracting := [0]
  lhsBatch := []
  rhsBatch := []
  wf := dot_S32768x1_S64x1_S32768x64_1_1_0_0_n_n_wf
def dot_S32768x64_S64x64_S32768x64_1_1_0_0_n_n : DotDims S32768x64 S64x64 S32768x64 where
  lhsContracting := [1]
  rhsContracting := [1]
  lhsNonContracting := [0]
  rhsNonContracting := [0]
  lhsBatch := []
  rhsBatch := []
  wf := dot_S32768x64_S64x64_S32768x64_1_1_0_0_n_n_wf
def dot_S32768x64_S512x64_S32768x512_1_1_0_0_n_n : DotDims S32768x64 S512x64 S32768x512 where
  lhsContracting := [1]
  rhsContracting := [1]
  lhsNonContracting := [0]
  rhsNonContracting := [0]
  lhsBatch := []
  rhsBatch := []
  wf := dot_S32768x64_S512x64_S32768x512_1_1_0_0_n_n_wf
def dot_S32768x512_S64x512_S32768x64_1_1_0_0_n_n : DotDims S32768x512 S64x512 S32768x64 where
  lhsContracting := [1]
  rhsContracting := [1]
  lhsNonContracting := [0]
  rhsNonContracting := [0]
  lhsBatch := []
  rhsBatch := []
  wf := dot_S32768x512_S64x512_S32768x64_1_1_0_0_n_n_wf

class Facts : Prop extends Facts₀ where

variable [Facts]
-- ==== Proof.Model.lean ====
/-
  The mathematics of this certificate, with no program in sight.

  Both programs compute, row by row of a batch of 32768 rows,
    z   = relu(relu(x·W1 + b1)·W2 + b2)·W3 + b3                      (the dynamics network, 512 → 64 → 64 → 512)
    V   = relu(relu(z·V1 + c1)·V2 + c2)·V3 + c3 + e·‖z‖²             (the Lyapunov candidate)
    gv  = ∂V/∂x                                                     (back-propagated by hand through the five layers;
                                                                     a relu passes a cotangent where its argument is positive)
    num = relu(‖gv‖² + a·V),   den = Σ over ALL rows of ‖gv‖²,
    out = z − (num / den)·gv.
  The reference back-propagates through z·V1 and then ·W3ᵀ; the kernel has folded the two linear hops around z into
  products of weights computed once: W3·V1, b3·V1 + c1, W3·W3ᵀ, b3·W3ᵀ, and the factor 2e in place of e + e. Over the
  REALS these are the same numbers (distributivity and the exchange of two finite sums); on the extended reals
  distributivity fails at the infinities, which is why the statement is made for inputs that are real numbers.
  The kernel sums the denominator tile by tile (2 halves × 16 tiles × 1024 rows); that is a regrouping of one sum.
  The last step differs in form: the kernel multiplies by 1/den, the reference divides by den. For den ≠ 0 these
  agree; for den = 0 every gv is 0 (a sum of squares of reals), and anything times 0 is 0 on the extended reals, so both
  results are z whatever the two quotients are.

  Everything up to the quotient is defined ONCE, over any type with +, ·, a linear order and finite sums, and read at ℝ
  and at the extended reals; the coercion ℝ → EReal commutes with every definition.
-/
import Mathlib.Data.EReal.Basic
import Mathlib.Data.EReal.Operations
import Mathlib.Algebra.BigOperators.Group.Finset.Basic
import Mathlib.Algebra.BigOperators.Ring.Finset
import Mathlib.Algebra.Order.BigOperators.Ring.Finset
import Mathlib.Logic.Equiv.Fin.Basic
import Mathlib.Data.Fintype.BigOperators
import Idealize.ShloMosaic.PureOps.Ideal

noncomputable section

namespace Cert.Lyap

open Idealize.ShloMosaic

/-- The thirteen inputs, index by index, and the three float literals the programs spell (e = 0.001, e2 = 0.002, a = 0.9). -/
structure Inp (α : Type) where
  x  : Fin 32768 → Fin 512 → α
  W1 : Fin 512 → Fin 64 → α
  b1 : Fin 64 → α
  W2 : Fin 64 → Fin 64 → α
  b2 : Fin 64 → α
  W3 : Fin 64 → Fin 512 → α
  b3 : Fin 512 → α
  V1 : Fin 512 → Fin 64 → α
  c1 : Fin 64 → α
  V2 : Fin 64 → Fin 64 → α
  c2 : Fin 64 → α
  V3 : Fin 64 → α
  c3 : α
  e  : α
  e2 : α
  a  : α

/-- Row (c·16 + i)·1024 + rr of the batch: row rr of tile i of half c. -/
def row (c : Fin 2) (i : Fin 16) (rr : Fin 1024) : Fin 32768 :=
  ⟨(c.val * 16 + i.val) * 1024 + rr.val, by have := c.isLt; have := i.isLt; have := rr.isLt; omega⟩

section Generic

variable {α : Type} [AddCommMonoid α] [Mul α] [LinearOrder α] (I : Inp α)

/-! ### The dynamics network (shared) -/
def a1 (r : Fin 32768) (k : Fin 64) : α := (∑ d : Fin 512, I.x r d * I.W1 d k) + I.b1 k
def h1 (r : Fin 32768) (k : Fin 64) : α := max (a1 I r k) 0
def a2 (r : Fin 32768) (k : Fin 64) : α := (∑ j : Fin 64, h1 I r j * I.W2 j k) + I.b2 k
def h2 (r : Fin 32768) (k : Fin 64) : α := max (a2 I r k) 0
def z (r : Fin 32768) (d : Fin 512) : α := (∑ k : Fin 64, h2 I r k * I.W3 k d) + I.b3 d
def ssq (r : Fin 32768) : α := ∑ d : Fin 512, z I r d * z I r d

/-! ### The reference: the Lyapunov network on z, and its gradient back through z -/
def p1R (r : Fin 32768) (j : Fin 64) : α := (∑ d : Fin 512, z I r d * I.V1 d j) + I.c1 j
def g1R (r : Fin 32768) (j : Fin 64) : α := max (p1R I r j) 0
def p2R (r : Fin 32768) (j : Fin 64) : α := (∑ i : Fin 64, g1R I r i * I.V2 i j) + I.c2 j
def g2R (r : Fin 32768) (j : Fin 64) : α := max (p2R I r j) 0
def vmR (r : Fin 32768) : α := (∑ j : Fin 64, g2R I r j * I.V3 j) + I.c3
def lyapR (r : Fin 32768) : α := vmR I r + I.e * ssq I r
def q2R (r : Fin 32768) (j : Fin 64) : α := if 0 < p2R I r j then I.V3 j else 0
def q1R (r : Fin 32768) (i : Fin 64) : α := if 0 < p1R I r i then ∑ j : Fin 64, q2R I r j * I.V2 i j else 0
def gzR (r : Fin 32768) (d : Fin 512) : α := (z I r d * I.e + I.e * z I r d) + ∑ i : Fin 64, q1R I r i * I.V1 d i
def gh2R (r : Fin 32768) (k : Fin 64) : α := if 0 < a2 I r k then ∑ d : Fin 512, gzR I r d * I.W3 k d else 0
def gh1R (r : Fin 32768) (j : Fin 64) : α := if 0 < a1 I r j then ∑ k : Fin 64, gh2R I r k * I.W2 j k else 0
def gvR (r : Fin 32768) (d : Fin 512) : α := ∑ j : Fin 64, gh1R I r j * I.W1 d j
def dotR (r : Fin 32768) : α := ∑ d : Fin 512, gvR I r d * gvR I r d
def denR : α := ∑ r : Fin 32768, ∑ d : Fin 512, gvR I r d * gvR I r d
def numR (r : Fin 32768) : α := max (dotR I r + I.a * lyapR I r) 0

/-! ### The kernel: the two linear hops around z folded into weight products -/
def W3V1 (k j : Fin 64) : α := ∑ d : Fin 512, I.W3 k d * I.V1 d j
def bfK (j : Fin 64) : α := (∑ d : Fin 512, I.b3 d * I.V1 d j) + I.c1 j
def W3W3T (k' k : Fin 64) : α := ∑ d : Fin 512, I.W3 k' d * I.W3 k d
def b3W3T (k : Fin 64) : α := ∑ d : Fin 512, I.b3 d * I.W3 k d
def p1K (r : Fin 32768) (j : Fin 64) : α := (∑ k : Fin 64, h2 I r k * W3V1 I k j) + bfK I j
def g1K (r : Fin 32768) (j : Fin 64) : α := max (p1K I r j) 0
def p2K (r : Fin 32768) (j : Fin 64) : α := (∑ i : Fin 64, g1K I r i * I.V2 i j) + I.c2 j
def g2K (r : Fin 32768) (j : Fin 64) : α := max (p2K I r j) 0
def vmK (r : Fin 32768) : α := (∑ j : Fin 64, g2K I r j * I.V3 j) + I.c3
def lyapK (r : Fin 32768) : α := vmK I r + I.e * ssq I r
def q2K (r : Fin 32768) (j : Fin 64) : α := if 0 < g2K I r j then I.V3 j else 0
def q1K (r : Fin 32768) (i : Fin 64) : α := if 0 < g1K I r i then ∑ j : Fin 64, q2K I r j * I.V2 i j else 0
def gh2K (r : Fin 32768) (k : Fin 64) : α :=
  if 0 < h2 I r k then
    (∑ i : Fin 64, q1K I r i * W3V1 I k i) + I.e2 * ((∑ k' : Fin 64, h2 I r k' * W3W3T I k' k) + b3W3T I k)
  else 0
def gh1K (r : Fin 32768) (j : Fin 64) : α := if 0 < h1 I r j then ∑ k : Fin 64, gh2K I r k * I.W2 j k else 0
def gvK (r : Fin 32768) (d : Fin 512) : α := ∑ j : Fin 64, gh1K I r j * I.W1 d j
def dotK (r : Fin 32768) : α := ∑ d : Fin 512, gvK I r d * gvK I r d
def numK (r : Fin 32768) : α := max (dotK I r + I.a * lyapK I r) 0
/-- The kernel's denominator: per half, per tile, the tile's 1024 row sums. -/
def denK : α := ∑ c : Fin 2, ∑ i : Fin 16, ∑ rr : Fin 1024, dotK I (row c i rr)

end Generic

/-! ### The two results, on the extended reals -/

/-- The reference's result: z − (num / den)·gv. -/
def outR (I : Inp EReal) (r : Fin 32768) (d : Fin 512) : EReal :=
  z I r d - Ideal.div (numR I r) (denR I) * gvR I r d

/-- The kernel's result: z − (num · (1 / den))·gv. -/
def outK (I : Inp EReal) (r : Fin 32768) (d : Fin 512) : EReal :=
  z I r d - (numK I r * Ideal.div 1 (denK I)) * gvK I r d

/-- Real inputs read as extended reals. -/
def Inp.cast (I : Inp ℝ) : Inp EReal where
  x r d := (I.x r d : EReal)
  W1 d k := (I.W1 d k : EReal)
  b1 k := (I.b1 k : EReal)
  W2 j k := (I.W2 j k : EReal)
  b2 k := (I.b2 k : EReal)
  W3 k d := (I.W3 k d : EReal)
  b3 d := (I.b3 d : EReal)
  V1 d j := (I.V1 d j : EReal)
  c1 j := (I.c1 j : EReal)
  V2 i j := (I.V2 i j : EReal)
  c2 j := (I.c2 j : EReal)
  V3 j := (I.V3 j : EReal)
  c3 := (I.c3 : EReal)
  e := (I.e : EReal)
  e2 := (I.e2 : EReal)
  a := (I.a : EReal)

/-! ### The coercion ℝ → EReal commutes with every definition -/

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) :=
  EReal.coe_strictMono.monotone.map_max

theorem coe_ite (p : Prop) [Decidable p] (x y : ℝ) :
    ((if p then x else y : ℝ) : EReal) = if p then (x : EReal) else (y : EReal) := by
  split_ifs <;> rfl

section Cast

variable (I : Inp ℝ)

theorem cast_x (r : Fin 32768) (d : Fin 512) : I.cast.x r d = (I.x r d : EReal) := rfl
theorem cast_W1 (d : Fin 512) (k : Fin 64) : I.cast.W1 d k = (I.W1 d k : EReal) := rfl
theorem cast_b1 (k : Fin 64) : I.cast.b1 k = (I.b1 k : EReal) := rfl
theorem cast_W2 (j k : Fin 64) : I.cast.W2 j k = (I.W2 j k : EReal) := rfl
theorem cast_b2 (k : Fin 64) : I.cast.b2 k = (I.b2 k : EReal) := rfl
theorem cast_W3 (k : Fin 64) (d : Fin 512) : I.cast.W3 k d = (I.W3 k d : EReal) := rfl
theorem cast_b3 (d : Fin 512) : I.cast.b3 d = (I.b3 d : EReal) := rfl
theorem cast_V1 (d : Fin 512) (j : Fin 64) : I.cast.V1 d j = (I.V1 d j : EReal) := rfl
theorem cast_c1 (j : Fin 64) : I.cast.c1 j = (I.c1 j : EReal) := rfl
theorem cast_V2 (i j : Fin 64) : I.cast.V2 i j = (I.V2 i j : EReal) := rfl
theorem cast_c2 (j : Fin 64) : I.cast.c2 j = (I.c2 j : EReal) := rfl
theorem cast_V3 (j : Fin 64) : I.cast.V3 j = (I.V3 j : EReal) := rfl
theorem cast_c3 : I.cast.c3 = (I.c3 : EReal) := rfl
theorem cast_e : I.cast.e = (I.e : EReal) := rfl
theorem cast_e2 : I.cast.e2 = (I.e2 : EReal) := rfl
theorem cast_a : I.cast.a = (I.a : EReal) := rfl

theorem a1_cast (r : Fin 32768) (k : Fin 64) : a1 I.cast r k = ((a1 I r k : ℝ) : EReal) := by
  simp only [a1, cast_x, cast_W1, cast_b1, EReal.coe_add, coe_sum, EReal.coe_mul]

theorem h1_cast (r : Fin 32768) (k : Fin 64) : h1 I.cast r k = ((h1 I r k : ℝ) : EReal) := by
  simp only [h1, a1_cast, coe_max, EReal.coe_zero]

theorem a2_cast (r : Fin 32768) (k : Fin 64) : a2 I.cast r k = ((a2 I r k : ℝ) : EReal) := by
  simp only [a2, h1_cast, cast_W2, cast_b2, EReal.coe_add, coe_sum, EReal.coe_mul]

theorem h2_cast (r : Fin 32768) (k : Fin 64) : h2 I.cast r k = ((h2 I r k : ℝ) : EReal) := by
  simp only [h2, a2_cast, coe_max, EReal.coe_zero]

theorem z_cast (r : Fin 32768) (d : Fin 512) : z I.cast r d = ((z I r d : ℝ) : EReal) := by
  simp only [z, h2_cast, cast_W3, cast_b3, EReal.coe_add, coe_sum, EReal.coe_mul]

theorem ssq_cast (r : Fin 32768) : ssq I.cast r = ((ssq I r : ℝ) : EReal) := by
  simp only [ssq, z_cast, coe_sum, EReal.coe_mul]

theorem p1R_cast (r : Fin 32768) (j : Fin 64) : p1R I.cast r j = ((p1R I r j : ℝ) : EReal) := by
  simp only [p1R, z_cast, cast_V1, cast_c1, EReal.coe_add, coe_sum, EReal.coe_mul]

theorem g1R_cast (r : Fin 32768) (j : Fin 64) : g1R I.cast r j = ((g1R I r j : ℝ) : EReal) := by
  simp only [g1R, p1R_cast, coe_max, EReal.coe_zero]

theorem p2R_cast (r : Fin 32768) (j : Fin 64) : p2R I.cast r j = ((p2R I r j : ℝ) : EReal) := by
  simp only [p2R, g1R_cast, cast_V2, cast_c2, EReal.coe_add, coe_sum, EReal.coe_mul]

theorem g2R_cast (r : Fin 32768) (j : Fin 64) : g2R I.cast r j = ((g2R I r j : ℝ) : EReal) := by
  simp only [g2R, p2R_cast, coe_max, EReal.coe_zero]

theorem vmR_cast (r : Fin 32768) : vmR I.cast r = ((vmR I r : ℝ) : EReal) := by
  simp only [vmR, g2R_cast, cast_V3, cast_c3, EReal.coe_add, coe_sum, EReal.coe_mul]

theorem lyapR_cast (r : Fin 32768) : lyapR I.cast r = ((lyapR I r : ℝ) : EReal) := by
  simp only [lyapR, vmR_cast, ssq_cast, cast_e, EReal.coe_add, EReal.coe_mul]

theorem q2R_cast (r : Fin 32768) (j : Fin 64) : q2R I.cast r j = ((q2R I r j : ℝ) : EReal) := by
  simp only [q2R, p2R_cast, cast_V3, EReal.coe_pos, coe_ite, EReal.coe_zero]

theorem q1R_cast (r : Fin 32768) (i : Fin 64) : q1R I.cast r i = ((q1R I r i : ℝ) : EReal) := by
  simp only [q1R, p1R_cast, q2R_cast, cast_V2, EReal.coe_pos, coe_ite, EReal.coe_zero, coe_sum,
    EReal.coe_mul]

theorem gzR_cast (r : Fin 32768) (d : Fin 512) : gzR I.cast r d = ((gzR I r d : ℝ) : EReal) := by
  simp only [gzR, z_cast, q1R_cast, cast_e, cast_V1, EReal.coe_add, coe_sum, EReal.coe_mul]

theorem gh2R_cast (r : Fin 32768) (k : Fin 64) : gh2R I.cast r k = ((gh2R I r k : ℝ) : EReal) := by
  simp only [gh2R, a2_cast, gzR_cast, cast_W3, EReal.coe_pos, coe_ite, EReal.coe_zero, coe_sum,
    EReal.coe_mul]

theorem gh1R_cast (r : Fin 32768) (j : Fin 64) : gh1R I.cast r j = ((gh1R I r j : ℝ) : EReal) := by
  simp only [gh1R, a1_cast, gh2R_cast, cast_W2, EReal.coe_pos, coe_ite, EReal.coe_zero, coe_sum,
    EReal.coe_mul]

theorem gvR_cast (r : Fin 32768) (d : Fin 512) : gvR I.cast r d = ((gvR I r d : ℝ) : EReal) := by
  simp only [gvR, gh1R_cast, cast_W1, coe_sum, EReal.coe_mul]

theorem dotR_cast (r : Fin 32768) : dotR I.cast r = ((dotR I r : ℝ) : EReal) := by
  simp only [dotR, gvR_cast, coe_sum, EReal.coe_mul]

theorem denR_cast : denR I.cast = ((denR I : ℝ) : EReal) := by
  simp only [denR, gvR_cast, coe_sum, EReal.coe_mul]

theorem numR_cast (r : Fin 32768) : numR I.cast r = ((numR I r : ℝ) : EReal) := by
  simp only [numR, dotR_cast, lyapR_cast, cast_a, coe_max, EReal.coe_zero, EReal.coe_add,
    EReal.coe_mul]

theorem W3V1_cast (k j : Fin 64) : W3V1 I.cast k j = ((W3V1 I k j : ℝ) : EReal) := by
  simp only [W3V1, cast_W3, cast_V1, coe_sum, EReal.coe_mul]

theorem bfK_cast (j : Fin 64) : bfK I.cast j = ((bfK I j : ℝ) : EReal) := by
  simp only [bfK, cast_b3, cast_V1, cast_c1, EReal.coe_add, coe_sum, EReal.coe_mul]

theorem W3W3T_cast (k' k : Fin 64) : W3W3T I.cast k' k = ((W3W3T I k' k : ℝ) : EReal) := by
  simp only [W3W3T, cast_W3, coe_sum, EReal.coe_mul]

theorem b3W3T_cast (k : Fin 64) : b3W3T I.cast k = ((b3W3T I k : ℝ) : EReal) := by
  simp only [b3W3T, cast_b3, cast_W3, coe_sum, EReal.coe_mul]

theorem p1K_cast (r : Fin 32768) (j : Fin 64) : p1K I.cast r j = ((p1K I r j : ℝ) : EReal) := by
  simp only [p1K, h2_cast, W3V1_cast, bfK_cast, EReal.coe_add, coe_sum, EReal.coe_mul]

theorem g1K_cast (r : Fin 32768) (j : Fin 64) : g1K I.cast r j = ((g1K I r j : ℝ) : EReal) := by
  simp only [g1K, p1K_cast, coe_max, EReal.coe_zero]

theorem p2K_cast (r : Fin 32768) (j : Fin 64) : p2K I.cast r j = ((p2K I r j : ℝ) : EReal) := by
  simp only [p2K, g1K_cast, cast_V2, cast_c2, EReal.coe_add, coe_sum, EReal.coe_mul]

theorem g2K_cast (r : Fin 32768) (j : Fin 64) : g2K I.cast r j = ((g2K I r j : ℝ) : EReal) := by
  simp only [g2K, p2K_cast, coe_max, EReal.coe_zero]

theorem vmK_cast (r : Fin 32768) : vmK I.cast r = ((vmK I r : ℝ) : EReal) := by
  simp only [vmK, g2K_cast, cast_V3, cast_c3, EReal.coe_add, coe_sum, EReal.coe_mul]

theorem lyapK_cast (r : Fin 32768) : lyapK I.cast r = ((lyapK I r : ℝ) : EReal) := by
  simp only [lyapK, vmK_cast, ssq_cast, cast_e, EReal.coe_add, EReal.coe_mul]

theorem q2K_cast (r : Fin 32768) (j : Fin 64) : q2K I.cast r j = ((q2K I r j : ℝ) : EReal) := by
  simp only [q2K, g2K_cast, cast_V3, EReal.coe_pos, coe_ite, EReal.coe_zero]

theorem q1K_cast (r : Fin 32768) (i : Fin 64) : q1K I.cast r i = ((q1K I r i : ℝ) : EReal) := by
  simp only [q1K, g1K_cast, q2K_cast, cast_V2, EReal.coe_pos, coe_ite, EReal.coe_zero, coe_sum,
    EReal.coe_mul]

theorem gh2K_cast (r : Fin 32768) (k : Fin 64) : gh2K I.cast r k = ((gh2K I r k : ℝ) : EReal) := by
  simp only [gh2K, h2_cast, q1K_cast, W3V1_cast, W3W3T_cast, b3W3T_cast, cast_e2, EReal.coe_pos,
    coe_ite, EReal.coe_zero, EReal.coe_add, coe_sum, EReal.coe_mul]

theorem gh1K_cast (r : Fin 32768) (j : Fin 64) : gh1K I.cast r j = ((gh1K I r j : ℝ) : EReal) := by
  simp only [gh1K, h1_cast, gh2K_cast, cast_W2, EReal.coe_pos, coe_ite, EReal.coe_zero, coe_sum,
    EReal.coe_mul]

theorem gvK_cast (r : Fin 32768) (d : Fin 512) : gvK I.cast r d = ((gvK I r d : ℝ) : EReal) := by
  simp only [gvK, gh1K_cast, cast_W1, coe_sum, EReal.coe_mul]

theorem dotK_cast (r : Fin 32768) : dotK I.cast r = ((dotK I r : ℝ) : EReal) := by
  simp only [dotK, gvK_cast, coe_sum, EReal.coe_mul]

theorem numK_cast (r : Fin 32768) : numK I.cast r = ((numK I r : ℝ) : EReal) := by
  simp only [numK, dotK_cast, lyapK_cast, cast_a, coe_max, EReal.coe_zero, EReal.coe_add,
    EReal.coe_mul]

theorem denK_cast : denK I.cast = ((denK I : ℝ) : EReal) := by
  simp only [denK, dotK_cast, coe_sum]

end Cast

/-! ### Over the reals the folded weight products give the same numbers -/

/-- A linear hop followed by a contraction: distributivity and the exchange of two finite sums. -/
theorem fold_hop {m n : ℕ} (h : Fin m → ℝ) (W : Fin m → Fin n → ℝ) (b V : Fin n → ℝ) :
    ∑ d, ((∑ k, h k * W k d) + b d) * V d = (∑ k, h k * ∑ d, W k d * V d) + ∑ d, b d * V d := by
  simp only [add_mul, Finset.sum_add_distrib, Finset.sum_mul, Finset.mul_sum]
  rw [Finset.sum_comm]
  simp only [mul_assoc]

theorem pos_max_zero_iff (x : ℝ) : 0 < max x 0 ↔ 0 < x := by
  rw [lt_max_iff]
  exact ⟨fun h => h.resolve_right (lt_irrefl 0), Or.inl⟩

section Real

variable (I : Inp ℝ)

theorem p1K_eq : p1K I = p1R I := by
  funext r j
  unfold p1K p1R bfK W3V1 z
  rw [fold_hop, add_assoc]

theorem g1K_eq : g1K I = g1R I := by
  funext r j
  unfold g1K g1R
  rw [p1K_eq]

theorem p2K_eq : p2K I = p2R I := by
  funext r j
  unfold p2K p2R
  rw [g1K_eq]

theorem g2K_eq : g2K I = g2R I := by
  funext r j
  unfold g2K g2R
  rw [p2K_eq]

theorem vmK_eq : vmK I = vmR I := by
  funext r
  unfold vmK vmR
  rw [g2K_eq]

theorem lyapK_eq : lyapK I = lyapR I := by
  funext r
  unfold lyapK lyapR
  rw [vmK_eq]

theorem q2K_eq : q2K I = q2R I := by
  funext r j
  unfold q2K q2R
  rw [g2K_eq]
  unfold g2R
  simp only [pos_max_zero_iff]

theorem q1K_eq : q1K I = q1R I := by
  funext r i
  unfold q1K q1R
  rw [g1K_eq, q2K_eq]
  unfold g1R
  simp only [pos_max_zero_iff]

/-- The cotangent of z contracted with a row of W3: the factor e + e becomes e2 = 2e, and the two hops fold. -/
theorem gz_contract (he2 : I.e2 = 2 * I.e) (r : Fin 32768) (k : Fin 64) :
    ∑ d, gzR I r d * I.W3 k d
      = (∑ i, q1R I r i * W3V1 I k i)
        + I.e2 * ((∑ k', h2 I r k' * W3W3T I k' k) + b3W3T I k) := by
  have hpt : ∀ d, gzR I r d * I.W3 k d
      = I.e2 * (z I r d * I.W3 k d) + ∑ i, q1R I r i * (I.W3 k d * I.V1 d i) := by
    intro d
    unfold gzR
    rw [add_mul, Finset.sum_mul, he2]
    congr 1
    · ring
    · exact Finset.sum_congr rfl (fun i _ => by ring)
  have hz : ∑ d, z I r d * I.W3 k d
      = (∑ k', h2 I r k' * W3W3T I k' k) + b3W3T I k := by
    unfold z W3W3T b3W3T
    rw [fold_hop]
  simp only [hpt, Finset.sum_add_distrib]
  rw [← Finset.mul_sum, hz, Finset.sum_comm, add_comm]
  unfold W3V1
  simp only [Finset.mul_sum]

theorem gh2K_eq (he2 : I.e2 = 2 * I.e) : gh2K I = gh2R I := by
  funext r k
  unfold gh2K gh2R
  rw [gz_contract I he2, q1K_eq]
  unfold h2
  simp only [pos_max_zero_iff]

theorem gh1K_eq (he2 : I.e2 = 2 * I.e) : gh1K I = gh1R I := by
  funext r j
  unfold gh1K gh1R
  rw [gh2K_eq I he2]
  unfold h1
  simp only [pos_max_zero_iff]

theorem gvK_eq (he2 : I.e2 = 2 * I.e) : gvK I = gvR I := by
  funext r d
  unfold gvK gvR
  rw [gh1K_eq I he2]

theorem dotK_eq (he2 : I.e2 = 2 * I.e) : dotK I = dotR I := by
  funext r
  unfold dotK dotR
  rw [gvK_eq I he2]

theorem numK_eq (he2 : I.e2 = 2 * I.e) : numK I = numR I := by
  funext r
  unfold numK numR
  rw [dotK_eq I he2, lyapK_eq]

end Real

/-! ### The tiles of the batch are a regrouping of its rows -/

theorem row_bijective :
    Function.Bijective (fun p : Fin 2 × Fin 16 × Fin 1024 => row p.1 p.2.1 p.2.2) := by
  constructor
  · rintro ⟨c, i, rr⟩ ⟨c', i', rr'⟩ h
    have hv : (c.val * 16 + i.val) * 1024 + rr.val = (c'.val * 16 + i'.val) * 1024 + rr'.val :=
      congrArg Fin.val h
    have h1 := c.isLt; have h2 := i.isLt; have h3 := rr.isLt
    have h1' := c'.isLt; have h2' := i'.isLt; have h3' := rr'.isLt
    have e1 : c = c' := Fin.ext (by omega)
    have e2 : i = i' := Fin.ext (by omega)
    have e3 : rr = rr' := Fin.ext (by omega)
    rw [e1, e2, e3]
  · intro r
    have hr := r.isLt
    refine ⟨(⟨r.val / 16384, by omega⟩, ⟨r.val / 1024 % 16, by omega⟩, ⟨r.val % 1024, by omega⟩), ?_⟩
    apply Fin.ext
    show (r.val / 16384 * 16 + r.val / 1024 % 16) * 1024 + r.val % 1024 = r.val
    omega

theorem sum_tiles (f : Fin 32768 → ℝ) :
    ∑ c : Fin 2, ∑ i : Fin 16, ∑ rr : Fin 1024, f (row c i rr) = ∑ r, f r := by
  rw [← row_bijective.sum_comp f]
  simp only [Fintype.sum_prod_type]

theorem denK_eq (I : Inp ℝ) (he2 : I.e2 = 2 * I.e) : denK I = denR I := by
  unfold denK denR
  rw [sum_tiles (fun r => dotK I r), dotK_eq I he2]
  rfl

/-- A sum of squares of reals that vanishes has every term zero. -/
theorem gvR_eq_zero_of_denR (I : Inp ℝ) (h : denR I = 0) (r : Fin 32768) (d : Fin 512) :
    gvR I r d = 0 := by
  unfold denR at h
  have h1 : ∀ r ∈ (Finset.univ : Finset (Fin 32768)), ∑ d : Fin 512, gvR I r d * gvR I r d = 0 :=
    (Finset.sum_eq_zero_iff_of_nonneg
      (fun r _ => Finset.sum_nonneg (fun d _ => mul_self_nonneg (gvR I r d)))).1 h
  exact (Finset.sum_mul_self_eq_zero_iff Finset.univ (fun d => gvR I r d)).1
    (h1 r (Finset.mem_univ r)) d (Finset.mem_univ d)

/-- THE LAW: for real inputs, and the literal 0.002 twice the literal 0.001, the two results agree everywhere. -/
theorem outK_eq_outR (I : Inp ℝ) (he2 : I.e2 = 2 * I.e) (r : Fin 32768) (d : Fin 512) :
    outK I.cast r d = outR I.cast r d := by
  unfold outK outR
  rw [numK_cast, denK_cast, gvK_cast, numR_cast, denR_cast, gvR_cast,
    numK_eq I he2, denK_eq I he2, gvK_eq I he2]
  by_cases hD : denR I = 0
  · rw [gvR_eq_zero_of_denR I hD r d, EReal.coe_zero, mul_zero, mul_zero]
  · rw [Ideal.div_coe hD, Ideal.div_coe hD, one_mul]

/-- Inputs all of whose entries are real numbers are the cast of real inputs. -/
theorem exists_cast (J : Inp EReal)
    (hx : ∀ r d, ∃ v : ℝ, J.x r d = v) (hW1 : ∀ d k, ∃ v : ℝ, J.W1 d k = v) (hb1 : ∀ k, ∃ v : ℝ, J.b1 k = v)
    (hW2 : ∀ j k, ∃ v : ℝ, J.W2 j k = v) (hb2 : ∀ k, ∃ v : ℝ, J.b2 k = v)
    (hW3 : ∀ k d, ∃ v : ℝ, J.W3 k d = v) (hb3 : ∀ d, ∃ v : ℝ, J.b3 d = v)
    (hV1 : ∀ d j, ∃ v : ℝ, J.V1 d j = v) (hc1 : ∀ j, ∃ v : ℝ, J.c1 j = v)
    (hV2 : ∀ i j, ∃ v : ℝ, J.V2 i j = v) (hc2 : ∀ j, ∃ v : ℝ, J.c2 j = v)
    (hV3 : ∀ j, ∃ v : ℝ, J.V3 j = v) (hc3 : ∃ v : ℝ, J.c3 = v)
    (he : ∃ v : ℝ, J.e = v) (he2 : ∃ v : ℝ, J.e2 = v) (ha : ∃ v : ℝ, J.a = v) :
    ∃ I : Inp ℝ, J = I.cast := by
  choose x hx using hx
  choose W1 hW1 using hW1
  choose b1 hb1 using hb1
  choose W2 hW2 using hW2
  choose b2 hb2 using hb2
  choose W3 hW3 using hW3
  choose b3 hb3 using hb3
  choose V1 hV1 using hV1
  choose c1 hc1 using hc1
  choose V2 hV2 using hV2
  choose c2 hc2 using hc2
  choose V3 hV3 using hV3
  obtain ⟨c3, hc3⟩ := hc3
  obtain ⟨e, he⟩ := he
  obtain ⟨e2, he2⟩ := he2
  obtain ⟨a, ha⟩ := ha
  refine ⟨⟨x, W1, b1, W2, b2, W3, b3, V1, c1, V2, c2, V3, c3, e, e2, a⟩, ?_⟩
  cases J
  simp only [Inp.cast, Inp.mk.injEq]
  simp only at hx hW1 hb1 hW2 hb2 hW3 hb3 hV1 hc1 hV2 hc2 hV3 hc3 he he2 ha
  refine ⟨?_, ?_, ?_, ?_, ?_, ?_, ?_, ?_, ?_, ?_, ?_, ?_, hc3, he, he2, ha⟩
  · funext r d; exact hx r d
  · funext d k; exact hW1 d k
  · funext k; exact hb1 k
  · funext j k; exact hW2 j k
  · funext k; exact hb2 k
  · funext k d; exact hW3 k d
  · funext d; exact hb3 d
  · funext d j; exact hV1 d j
  · funext j; exact hc1 j
  · funext i j; exact hV2 i j
  · funext j; exact hc2 j
  · funext j; exact hV3 j

end Cert.Lyap

end
-- ==== Proof.Consts.lean ====
/-
  The float literals the two programs spell, as the real numbers their bit patterns denote.
  0.001 is 8589935 · 2⁻³³, 0.002 is the same mantissa one binade up (8589935 · 2⁻³²), so it is exactly twice 0.001;
  0.9 is 15099494 · 2⁻²⁴. Zero and one are the library's.
-/
import Idealize.ShloMosaic.PureOps.Ideal

noncomputable section

namespace Cert.Lyap.Consts

open Idealize.ShloMosaic

/-- The real number the pattern of 0.001 denotes. -/
def eR : ℝ := 8589935 / 8589934592
/-- The real number the pattern of 0.002 denotes. -/
def e2R : ℝ := 8589935 / 4294967296
/-- The real number the pattern of 0.9 denotes. -/
def aR : ℝ := 15099494 / 16777216

theorem ofBits_e : Ideal.ofBits .f32 0x3A83126F#32 = ((eR : ℝ) : EReal) := by
  unfold eR
  simp [Ideal.ofBits, Ideal.ieee, -EReal.coe_mul]; norm_num

theorem ofBits_e2 : Ideal.ofBits .f32 0x3B03126F#32 = ((e2R : ℝ) : EReal) := by
  unfold e2R
  simp [Ideal.ofBits, Ideal.ieee, -EReal.coe_mul]; norm_num

theorem ofBits_a : Ideal.ofBits .f32 0x3F666666#32 = ((aR : ℝ) : EReal) := by
  unfold aR
  simp [Ideal.ofBits, Ideal.ieee, -EReal.coe_mul]; norm_num

theorem ofBits_one : Ideal.ofBits .f32 0x3F800000#32 = 1 := by
  simp [Ideal.ofBits, Ideal.ieee, -EReal.coe_mul]; norm_num

theorem ofBits_zero : Ideal.ofBits .f32 0x00000000#32 = 0 := by
  simp [Ideal.ofBits, Ideal.ieee]

/-- 0.002 is twice 0.001, exactly. -/
theorem e2R_eq : e2R = 2 * eR := by unfold e2R eR; norm_num

end Cert.Lyap.Consts

end
-- ==== Proof.Inputs.lean ====
/-
  The thirteen argument arrays packaged as the model's inputs, and the law of Model.lean restated for arrays whose
  entries are real numbers: the kernel's result function and the reference's are then one function.
-/
import proofs.«403450_j27376121545312_3_alg».proof.Proof.Model
import proofs.«403450_j27376121545312_3_alg».proof.Proof.Consts
import Idealize.ShloMosaic.Lib.ValueIdx

noncomputable section

namespace Cert.Lyap

open Idealize.ShloMosaic Idealize.ShloMosaic.ValueIdx

/-- The argument arrays, read index by index: V3 is a column ([64,1]), c3 a single number ([1]); the three literals at
    the values their patterns denote. -/
def inpOf (x : (⟨2, ![32768, 512]⟩ : Shape).Idx → EReal) (W1 : (⟨2, ![512, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (W3 : (⟨2, ![64, 512]⟩ : Shape).Idx → EReal)
    (b3 : (⟨1, ![512]⟩ : Shape).Idx → EReal) (V1 : (⟨2, ![512, 64]⟩ : Shape).Idx → EReal)
    (c1 : (⟨1, ![64]⟩ : Shape).Idx → EReal) (V2 : (⟨2, ![64, 64]⟩ : Shape).Idx → EReal)
    (c2 : (⟨1, ![64]⟩ : Shape).Idx → EReal) (V3 : (⟨2, ![64, 1]⟩ : Shape).Idx → EReal)
    (c3 : (⟨1, ![1]⟩ : Shape).Idx → EReal) : Inp EReal where
  x r d := x (ix2 r d)
  W1 d k := W1 (ix2 d k)
  b1 k := b1 (ix1 k)
  W2 j k := W2 (ix2 j k)
  b2 k := b2 (ix1 k)
  W3 k d := W3 (ix2 k d)
  b3 d := b3 (ix1 d)
  V1 d j := V1 (ix2 d j)
  c1 j := c1 (ix1 j)
  V2 i j := V2 (ix2 i j)
  c2 j := c2 (ix1 j)
  V3 j := V3 (ix2 j 0)
  c3 := c3 (ix1 0)
  e := Ideal.ofBits .f32 0x3A83126F#32
  e2 := Ideal.ofBits .f32 0x3B03126F#32
  a := Ideal.ofBits .f32 0x3F666666#32

/-- An array is real when every entry is a real number. -/
def RealArr {s : Shape} (v : s.Idx → EReal) : Prop := ∀ i, ∃ r : ℝ, v i = r

/-- For real argument arrays the kernel's result and the reference's agree at every index. -/
theorem outK_eq_outR_of_real
    (x : (⟨2, ![32768, 512]⟩ : Shape).Idx → EReal) (W1 : (⟨2, ![512, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (W3 : (⟨2, ![64, 512]⟩ : Shape).Idx → EReal)
    (b3 : (⟨1, ![512]⟩ : Shape).Idx → EReal) (V1 : (⟨2, ![512, 64]⟩ : Shape).Idx → EReal)
    (c1 : (⟨1, ![64]⟩ : Shape).Idx → EReal) (V2 : (⟨2, ![64, 64]⟩ : Shape).Idx → EReal)
    (c2 : (⟨1, ![64]⟩ : Shape).Idx → EReal) (V3 : (⟨2, ![64, 1]⟩ : Shape).Idx → EReal)
    (c3 : (⟨1, ![1]⟩ : Shape).Idx → EReal)
    (hx : RealArr x) (hW1 : RealArr W1) (hb1 : RealArr b1) (hW2 : RealArr W2) (hb2 : RealArr b2) (hW3 : RealArr W3)
    (hb3 : RealArr b3) (hV1 : RealArr V1) (hc1 : RealArr c1) (hV2 : RealArr V2) (hc2 : RealArr c2) (hV3 : RealArr V3)
    (hc3 : RealArr c3) (r : Fin 32768) (d : Fin 512) :
    outK (inpOf x W1 b1 W2 b2 W3 b3 V1 c1 V2 c2 V3 c3) r d = outR (inpOf x W1 b1 W2 b2 W3 b3 V1 c1 V2 c2 V3 c3) r d := by
  obtain ⟨I, hI⟩ := exists_cast (inpOf x W1 b1 W2 b2 W3 b3 V1 c1 V2 c2 V3 c3)
    (fun r d => hx _) (fun d k => hW1 _) (fun k => hb1 _) (fun j k => hW2 _) (fun k => hb2 _) (fun k d => hW3 _)
    (fun d => hb3 _) (fun d j => hV1 _) (fun j => hc1 _) (fun i j => hV2 _) (fun j => hc2 _) (fun j => hV3 _) (hc3 _)
    ⟨_, Consts.ofBits_e⟩ ⟨_, Consts.ofBits_e2⟩ ⟨_, Consts.ofBits_a⟩
  rw [hI]
  refine outK_eq_outR I ?_ r d
  have he : ((I.e : ℝ) : EReal) = ((Consts.eR : ℝ) : EReal) := by
    have := congrArg Inp.e hI
    exact this.symm.trans Consts.ofBits_e
  have he2 : ((I.e2 : ℝ) : EReal) = ((Consts.e2R : ℝ) : EReal) := by
    have := congrArg Inp.e2 hI
    exact this.symm.trans Consts.ofBits_e2
  rw [EReal.coe_eq_coe_iff.mp he, EReal.coe_eq_coe_iff.mp he2]
  exact Consts.e2R_eq

end Cert.Lyap

end
-- ==== Proof.Finite.lean ====
/-
  The precondition read back: when the printed predicate "every entry of every argument has absolute value below +∞"
  is all ones, every entry of every argument array is a real number (an extended real whose absolute value is below ⊤ is
  neither ⊤ nor ⊥). The predicate is a conjunction of thirteen all-reductions; each conjunct is one array's.
-/
import proofs.«403450_j27376121545312_3_alg».proof.Pre_finite_inputs
import proofs.«403450_j27376121545312_3_alg».proof.Proof.Inputs
import Idealize.ShloMosaic.Lib.ReduceAll
import Idealize.ShloMosaic.Lib.StableHlo.Predicate
import Idealize.ShloMosaic.Lib.ValueIdx

noncomputable section

namespace Cert.Proof.Finite

open Idealize.ShloMosaic Cert.Lyap

open Cert.Pre_finite_inputs in
local instance : Subsingleton S_.Idx := ⟨fun a b => funext fun d => d.elim0⟩

/-- The pattern 0x7F800000 (sign 0, exponent all ones, fraction 0) denotes +∞. -/
theorem ofBits_inf : Ideal.ofBits .f32 0x7F800000#32 = (⊤ : EReal) := by
  simp [Ideal.ofBits, Ideal.ieee]

/-- An extended real whose absolute value is below ⊤ is a real number: ⊥ and ⊤ both have absolute value ⊤. -/
theorem real_of_abs_lt_top (x : EReal) (h : max x (-x) < ⊤) : ∃ r : ℝ, x = r := by
  induction x using EReal.rec with
  | bot => simp at h
  | coe r => exact ⟨r, rfl⟩
  | top => simp at h

/-- An array whose mask "|entry| < +∞", reduced by "and" over all its axes, is 1 has only real entries. -/
theorem realArr_of_all {s : Shape} (hb : Cert.Pre_finite_inputs.S_.BroadcastsInDim s (![] : Fin 0 → Fin s.rank))
    {axes : List (Fin s.rank)} (hr : s.ReducesTo axes Cert.Pre_finite_inputs.S_)
    (h0 : 0 < Cert.Pre_finite_inputs.S_.numel) (a : FVec Ideal s .f32) (j : Cert.Pre_finite_inputs.S_.Idx)
    (h : Host.reduce IntOp.andi
          (cmpf .olt (Host.absf a)
            (broadcastInDim s ![] hb (constant (F := Ideal) Cert.Pre_finite_inputs.S_ .f32 0x7F800000#32)))
          (constantI Cert.Pre_finite_inputs.S_ 1 1#1) hr h0 j = 1#1) :
    RealArr (s := s) a := by
  intro i
  have hi := Host.reduce_andi_all _ _ hr h0 j h i
  have hc : Ideal.cmp .olt (max (a i) (-(a i))) (Ideal.ofBits .f32 0x7F800000#32) = 1#1 := hi
  rw [ofBits_inf] at hc
  have hlt : max (a i) (-(a i)) < ⊤ := by
    simpa [Ideal.cmp, StableHlo.Predicate.ofBool_eq_one_iff] using hc
  exact real_of_abs_lt_top (a i) hlt

/-- All ones of the printed predicate gives thirteen real arrays. -/
theorem real_of_fn [Cert.Pre_finite_inputs.Facts] (a0 : FVec Ideal Cert.Pre_finite_inputs.S32768x512 .f32) (a1 : FVec Ideal Cert.Pre_finite_inputs.S512x64 .f32) (a2 : FVec Ideal Cert.Pre_finite_inputs.S64 .f32) (a3 : FVec Ideal Cert.Pre_finite_inputs.S64x64 .f32) (a4 : FVec Ideal Cert.Pre_finite_inputs.S64 .f32) (a5 : FVec Ideal Cert.Pre_finite_inputs.S64x512 .f32) (a6 : FVec Ideal Cert.Pre_finite_inputs.S512 .f32) (a7 : FVec Ideal Cert.Pre_finite_inputs.S512x64 .f32) (a8 : FVec Ideal Cert.Pre_finite_inputs.S64 .f32) (a9 : FVec Ideal Cert.Pre_finite_inputs.S64x64 .f32) (a10 : FVec Ideal Cert.Pre_finite_inputs.S64 .f32) (a11 : FVec Ideal Cert.Pre_finite_inputs.S64x1 .f32) (a12 : FVec Ideal Cert.Pre_finite_inputs.S1 .f32)
    (h : Cert.Pre_finite_inputs.fn (F := Ideal) a0 a1 a2 a3 a4 a5 a6 a7 a8 a9 a10 a11 a12 = (fun _ => 1#1)) :
    RealArr (s := Cert.Pre_finite_inputs.S32768x512) a0
      ∧ RealArr (s := Cert.Pre_finite_inputs.S512x64) a1
      ∧ RealArr (s := Cert.Pre_finite_inputs.S64) a2
      ∧ RealArr (s := Cert.Pre_finite_inputs.S64x64) a3
      ∧ RealArr (s := Cert.Pre_finite_inputs.S64) a4
      ∧ RealArr (s := Cert.Pre_finite_inputs.S64x512) a5
      ∧ RealArr (s := Cert.Pre_finite_inputs.S512) a6
      ∧ RealArr (s := Cert.Pre_finite_inputs.S512x64) a7
      ∧ RealArr (s := Cert.Pre_finite_inputs.S64) a8
      ∧ RealArr (s := Cert.Pre_finite_inputs.S64x64) a9
      ∧ RealArr (s := Cert.Pre_finite_inputs.S64) a10
      ∧ RealArr (s := Cert.Pre_finite_inputs.S64x1) a11
      ∧ RealArr (s := Cert.Pre_finite_inputs.S1) a12 := by
  have h0 := congrFun h ValueIdx.ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨⟨⟨c0, c1⟩, c2⟩, c3⟩, c4⟩, c5⟩, c6⟩, c7⟩, c8⟩, c9⟩, c10⟩, c11⟩, c12⟩ := h0
  exact ⟨realArr_of_all _ _ _ a0 _ c0, realArr_of_all _ _ _ a1 _ c1, realArr_of_all _ _ _ a2 _ c2,
    realArr_of_all _ _ _ a3 _ c3, realArr_of_all _ _ _ a4 _ c4, realArr_of_all _ _ _ a5 _ c5,
    realArr_of_all _ _ _ a6 _ c6, realArr_of_all _ _ _ a7 _ c7, realArr_of_all _ _ _ a8 _ c8,
    realArr_of_all _ _ _ a9 _ c9, realArr_of_all _ _ _ a10 _ c10, realArr_of_all _ _ _ a11 _ c11,
    realArr_of_all _ _ _ a12 _ c12⟩

end Cert.Proof.Finite

end
-- ==== Proof.RefValue.lean ====
/-
  The reference's result array, index by index, is the model's outR of the argument arrays: the reference's stages read
  one at a time at an index — a contraction as the sum over the contracted axis, a host sum as its initial value plus the
  sum, a broadcast as its operand's entry, a select on "pre-activation > 0" as the model's 'if' — are the model's
  quantities in order: the forward pass, the Lyapunov network, the cotangent walked back through the five layers, the
  forward pass again for z, the row sums and the total of ‖gv‖², the quotient and the final combine.
-/
import proofs.«403450_j27376121545312_3_alg».proof.Proof.Gen.ReferenceIdeal.Run
import proofs.«403450_j27376121545312_3_alg».proof.Proof.Gen.ReferenceIdeal.Read
import proofs.«403450_j27376121545312_3_alg».proof.Proof.Inputs
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Cert.Lyap
open Idealize.ShloMosaic Idealize.ShloMosaic.ValueIdx

variable (x0 : (⟨S32768x512, .f32⟩ : BufTy).Contents (Elt Ideal)) (x1 : (⟨S512x64, .f32⟩ : BufTy).Contents (Elt Ideal)) (x2 : (⟨S64, .f32⟩ : BufTy).Contents (Elt Ideal)) (x3 : (⟨S64x64, .f32⟩ : BufTy).Contents (Elt Ideal)) (x4 : (⟨S64, .f32⟩ : BufTy).Contents (Elt Ideal)) (x5 : (⟨S64x512, .f32⟩ : BufTy).Contents (Elt Ideal)) (x6 : (⟨S512, .f32⟩ : BufTy).Contents (Elt Ideal)) (x7 : (⟨S512x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x1, .f32⟩ : BufTy).Contents (Elt Ideal)) (x12 : (⟨S1, .f32⟩ : BufTy).Contents (Elt Ideal))

/-! ### Indices, literals, and the comparison with zero -/

/-- A rank-2 index is the pair of its coordinates. -/
theorem ext2 {n0 n1 : Nat} {j : (⟨2, ![n0, n1]⟩ : Shape).Idx} {a : Fin n0} {b : Fin n1}
    (h0 : j 0 = a) (h1 : j 1 = b) : j = ix2 a b := by
  subst h0; subst h1; exact eq_ix2 j

/-- A rank-1 index is its coordinate. -/
theorem ext1 {n : Nat} {j : (⟨1, ![n]⟩ : Shape).Idx} {a : Fin n} (h0 : j 0 = a) : j = ix1 a := by
  subst h0; exact eq_ix1 j

/-- Two sums with equal parts. -/
theorem add_congr' {a b c d : EReal} (h1 : a = c) (h2 : b = d) : a + b = c + d := by rw [h1, h2]

/-- The pattern of +0.0 denotes 0. -/
theorem fzero : FloatOps.ofBits (F := Ideal) .f32 0x00000000#32 = (0 : EReal) := Consts.ofBits_zero

/-- The pattern of 1.0 denotes 1. -/
theorem fone : FloatOps.ofBits (F := Ideal) .f32 0x3F800000#32 = (1 : EReal) := Consts.ofBits_one

/-- A select on "a > b" is the 'if' on b < a, whichever way that order is decided. -/
theorem select_gt {α : Type} (a b : EReal) (x y : α) : ∀ inst : Decidable (b < a),
    Scalar.select (FloatOps.cmpf (F := Ideal) (φ := .f32) .ogt a b) x y = @ite α (b < a) inst x y := by
  have hc1 : b < a → FloatOps.cmpf (F := Ideal) (φ := .f32) .ogt a b = 1#1 := fun h => by
    show BitVec.ofBool (decide (b < a)) = 1#1
    rw [decide_eq_true h]; rfl
  have hc0 : ¬ b < a → FloatOps.cmpf (F := Ideal) (φ := .f32) .ogt a b = 0#1 := fun h => by
    show BitVec.ofBool (decide (b < a)) = 0#1
    rw [decide_eq_false h]; rfl
  intro inst
  by_cases h : b < a
  · rw [hc1 h, select_one, if_pos h]
  · rw [hc0 h, select_zero, if_neg h]

/-! ### The dynamics network -/

/-- The first pre-activation: x·W1 + b1. -/
theorem v3_at (r : Fin 32768) (k : Fin 64) :
    val_main_v3 (F := Ideal) x0 x1 x2 (ix2 r k) = a1 (inpOf x0 x1 x2 x3 x4 x5 x6 x7 x8 x9 x10 x11 x12) r k := by
  rw [val_main_v3_apply, Ideal.addf_def, val_main_v0_apply, val_main_v2_apply, val_main_v1_apply]
  unfold a1
  refine add_congr' (Finset.sum_congr rfl fun d _ => ?_) ?_
  · exact congrArg₂ (· * ·) (congrArg x0 (ext2 rfl rfl)) (congrArg x1 (ext2 rfl rfl))
  · exact congrArg x2 (ext1 rfl)

/-- The first hidden layer: the larger of the pre-activation and 0. -/
theorem v4_at (r : Fin 32768) (k : Fin 64) :
    val_main_v4 (F := Ideal) x0 x1 x2 (ix2 r k) = h1 (inpOf x0 x1 x2 x3 x4 x5 x6 x7 x8 x9 x10 x11 x12) r k := by
  rw [val_main_v4_apply, Ideal.maximumf_def, val_main_call0_v0_apply, val_main_call0_cst_apply, fzero,
    v3_at x0 x1 x2 x3 x4 x5 x6 x7 x8 x9 x10 x11 x12]
  rfl

/-- The second pre-activation: h1·W2 + b2. -/
theorem v11_at (r : Fin 32768) (k : Fin 64) :
    val_main_v11 (F := Ideal) x0 x1 x2 x3 x4 (ix2 r k) = a2 (inpOf x0 x1 x2 x3 x4 x5 x6 x7 x8 x9 x10 x11 x12) r k := by
  rw [val_main_v11_apply, Ideal.addf_def, val_main_v8_apply, val_main_v10_apply, val_main_v9_apply]
  unfold a2
  refine add_congr' (Finset.sum_congr rfl fun j _ => ?_) ?_
  · rw [show lidx_main_v8 (ix2 r k) j = ix2 r j from ext2 rfl rfl,
      show ridx_main_v8 (ix2 r k) j = ix2 j k from ext2 rfl rfl, v4_at x0 x1 x2 x3 x4 x5 x6 x7 x8 x9 x10 x11 x12]
    rfl
  · exact congrArg x4 (ext1 rfl)

/-- The second hidden layer. -/
theorem v12_at (r : Fin 32768) (k : Fin 64) :
    val_main_v12 (F := Ideal) x0 x1 x2 x3 x4 (ix2 r k) = h2 (inpOf x0 x1 x2 x3 x4 x5 x6 x7 x8 x9 x10 x11 x12) r k := by
  rw [val_main_v12_apply, Ideal.maximumf_def, val_main_call1_v0_apply, val_main_call1_cst_apply, fzero,
    v11_at x0 x1 x2 x3 x4 x5 x6 x7 x8 x9 x10 x11 x12]
  rfl

/-- The dynamics network's output z = h2·W3 + b3. -/
theorem v19_at (r : Fin 32768) (d : Fin 512) :
    val_main_v19 (F := Ideal) x0 x1 x2 x3 x4 x5 x6 (ix2 r d) = z (inpOf x0 x1 x2 x3 x4 x5 x6 x7 x8 x9 x10 x11 x12) r d := by
  rw [val_main_v19_apply, Ideal.addf_def, val_main_v16_apply, val_main_v18_apply, val_main_v17_apply]
  unfold z
  refine add_congr' (Finset.sum_congr rfl fun k _ => ?_) ?_
  · rw [show lidx_main_v16 (ix2 r d) k = ix2 r k from ext2 rfl rfl,
      show ridx_main_v16 (ix2 r d) k = ix2 k d from ext2 rfl rfl, v12_at x0 x1 x2 x3 x4 x5 x6 x7 x8 x9 x10 x11 x12]
    rfl
  · exact congrArg x6 (ext1 rfl)

/-! ### The Lyapunov network on z -/

/-- The Lyapunov network's first pre-activation: z·V1 + c1. -/
theorem v23_at (r : Fin 32768) (j : Fin 64) :
    val_main_v23 (F := Ideal) x0 x1 x2 x3 x4 x5 x6 x7 x8 (ix2 r j) = p1R (inpOf x0 x1 x2 x3 x4 x5 x6 x7 x8 x9 x10 x11 x12) r j := by
  rw [val_main_v23_apply, Ideal.addf_def, val_main_v20_apply, val_main_v22_apply, val_main_v21_apply]
  unfold p1R
  refine add_congr' (Finset.sum_congr rfl fun d _ => ?_) ?_
  · rw [show lidx_main_v20 (ix2 r j) d = ix2 r d from ext2 rfl rfl,
      show ridx_main_v20 (ix2 r j) d = ix2 d j from ext2 rfl rfl, v19_at x0 x1 x2 x3 x4 x5 x6 x7 x8 x9 x10 x11 x12]
    rfl
  · exact congrArg x8 (ext1 rfl)

/-- Its first hidden layer. -/
theorem v24_at (r : Fin 32768) (j : Fin 64) :
    val_main_v24 (F := Ideal) x0 x1 x2 x3 x4 x5 x6 x7 x8 (ix2 r j) = g1R (inpOf x0 x1 x2 x3 x4 x5 x6 x7 x8 x9 x10 x11 x12) r j := by
  rw [val_main_v24_apply, Ideal.maximumf_def, val_main_call2_v0_apply, val_main_call2_cst_apply, fzero,
    v23_at x0 x1 x2 x3 x4 x5 x6 x7 x8 x9 x10 x11 x12]
  rfl

/-- Its second pre-activation: g1·V2 + c2. -/
theorem v31_at (r : Fin 32768) (j : Fin 64) :
    val_main_v31 (F := Ideal) x0 x1 x2 x3 x4 x5 x6 x7 x8 x9 x10 (ix2 r j) = p2R (inpOf x0 x1 x2 x3 x4 x5 x6 x7 x8 x9 x10 x11 x12) r j := by
  rw [val_main_v31_apply, Ideal.addf_def, val_main_v28_apply, val_main_v30_apply, val_main_v29_apply]
  unfold p2R
  refine add_congr' (Finset.sum_congr rfl fun i _ => ?_) ?_
  · rw [show lidx_main_v28 (ix2 r j) i = ix2 r i from ext2 rfl rfl,
      show ridx_main_v28 (ix2 r j) i = ix2 i j from ext2 rfl rfl, v24_at x0 x1 x2 x3 x4 x5 x6 x7 x8 x9 x10 x11 x12]
    rfl
  · exact congrArg x10 (ext1 rfl)

/-- Its second hidden layer. -/
theorem v32_at (r : Fin 32768) (j : Fin 64) :
    val_main_v32 (F := Ideal) x0 x1 x2 x3 x4 x5 x6 x7 x8 x9 x10 (ix2 r j) = g2R (inpOf x0 x1 x2 x3 x4 x5 x6 x7 x8 x9 x10 x11 x12) r j := by
  rw [val_main_v32_apply, Ideal.maximumf_def, val_main_call3_v0_apply, val_main_call3_cst_apply, fzero,
    v31_at x0 x1 x2 x3 x4 x5 x6 x7 x8 x9 x10 x11 x12]
  rfl

/-- The network's scalar per row, as a one-column array: g2·V3 + c3. -/
theorem v39_at (r : Fin 32768) :
    val_main_v39 (F := Ideal) x0 x1 x2 x3 x4 x5 x6 x7 x8 x9 x10 x11 x12 (ix2 r (0 : Fin 1)) = vmR (inpOf x0 x1 x2 x3 x4 x5 x6 x7 x8 x9 x10 x11 x12) r := by
  rw [val_main_v39_apply, Ideal.addf_def, val_main_v36_apply, val_main_v38_apply, val_main_v37_apply]
  unfold vmR
  refine add_congr' (Finset.sum_congr rfl fun j _ => ?_) ?_
  · rw [show lidx_main_v36 (ix2 r (0 : Fin 1)) j = ix2 r j from ext2 rfl rfl,
      show ridx_main_v36 (ix2 r (0 : Fin 1)) j = ix2 j (0 : Fin 1) from ext2 rfl rfl, v32_at x0 x1 x2 x3 x4 x5 x6 x7 x8 x9 x10 x11 x12]
    rfl
  · exact congrArg x12 (ext1 rfl)

/-- The same scalar after the column is dropped. -/
theorem v40_at (r : Fin 32768) :
    val_main_v40 (F := Ideal) x0 x1 x2 x3 x4 x5 x6 x7 x8 x9 x10 x11 x12 (ix1 r) = vmR (inpOf x0 x1 x2 x3 x4 x5 x6 x7 x8 x9 x10 x11 x12) r := by
  rw [val_main_v40_apply,
    show idx_main_v40 (ix1 r) = ix2 r (0 : Fin 1) from ext2 (Fin.ext (Nat.div_one _)) rfl, v39_at x0 x1 x2 x3 x4 x5 x6 x7 x8 x9 x10 x11 x12]

/-- The squared norm of a row of z: the sum starts from 0. -/
theorem v42_at (r : Fin 32768) :
    val_main_v42 (F := Ideal) x0 x1 x2 x3 x4 x5 x6 (ix1 r) = ssq (inpOf x0 x1 x2 x3 x4 x5 x6 x7 x8 x9 x10 x11 x12) r := by
  rw [val_main_v42_apply, val_main_cst_7_apply, fzero, zero_add]
  unfold ssq
  refine Finset.sum_congr rfl fun d _ => ?_
  rw [show idx_main_v42 (ix1 r) d = ix2 r d from ext2 rfl rfl, val_main_v41_apply, Ideal.mulf_def, v19_at x0 x1 x2 x3 x4 x5 x6 x7 x8 x9 x10 x11 x12]

/-- e times the squared norm. -/
theorem v44_at (r : Fin 32768) :
    val_main_v44 (F := Ideal) x0 x1 x2 x3 x4 x5 x6 (ix1 r) = (inpOf x0 x1 x2 x3 x4 x5 x6 x7 x8 x9 x10 x11 x12).e * ssq (inpOf x0 x1 x2 x3 x4 x5 x6 x7 x8 x9 x10 x11 x12) r := by
  rw [val_main_v44_apply, Ideal.mulf_def, val_main_v43_apply, val_main_cst_8_apply, v42_at x0 x1 x2 x3 x4 x5 x6 x7 x8 x9 x10 x11 x12]
  rfl

/-- The Lyapunov candidate of a row. -/
theorem v45_at (r : Fin 32768) :
    val_main_v45 (F := Ideal) x0 x1 x2 x3 x4 x5 x6 x7 x8 x9 x10 x11 x12 (ix1 r) = lyapR (inpOf x0 x1 x2 x3 x4 x5 x6 x7 x8 x9 x10 x11 x12) r := by
  rw [val_main_v45_apply, Ideal.addf_def, v40_at x0 x1 x2 x3 x4 x5 x6 x7 x8 x9 x10 x11 x12, v44_at x0 x1 x2 x3 x4 x5 x6 x7 x8 x9 x10 x11 x12]
  rfl

/-! ### The cotangent walked back -/

/-- The cotangent of the candidate is 1, so e·1 is e. -/
theorem v49_at (r : Fin 32768) :
    val_main_v49 (F := Ideal) (ix1 r) = (inpOf x0 x1 x2 x3 x4 x5 x6 x7 x8 x9 x10 x11 x12).e := by
  rw [val_main_v49_apply, Ideal.mulf_def, val_main_v48_apply, val_main_cst_11_apply, val_main_v47_apply,
    val_main_cst_10_apply, fone, mul_one]
  rfl

/-- The same number along every column. -/
theorem v50_at (r : Fin 32768) (d : Fin 512) :
    val_main_v50 (F := Ideal) (ix2 r d) = (inpOf x0 x1 x2 x3 x4 x5 x6 x7 x8 x9 x10 x11 x12).e := by
  rw [val_main_v50_apply, show idx_main_v50 (ix2 r d) = ix1 r from ext1 rfl, v49_at x0 x1 x2 x3 x4 x5 x6 x7 x8 x9 x10 x11 x12]

/-- The cotangent of z from the term e·‖z‖²: z·e + e·z. -/
theorem v53_at (r : Fin 32768) (d : Fin 512) :
    val_main_v53 (F := Ideal) x0 x1 x2 x3 x4 x5 x6 (ix2 r d) = z (inpOf x0 x1 x2 x3 x4 x5 x6 x7 x8 x9 x10 x11 x12) r d * (inpOf x0 x1 x2 x3 x4 x5 x6 x7 x8 x9 x10 x11 x12).e + (inpOf x0 x1 x2 x3 x4 x5 x6 x7 x8 x9 x10 x11 x12).e * z (inpOf x0 x1 x2 x3 x4 x5 x6 x7 x8 x9 x10 x11 x12) r d := by
  rw [val_main_v53_apply, Ideal.addf_def, val_main_v51_apply, val_main_v52_apply, Ideal.mulf_def, Ideal.mulf_def,
    v19_at x0 x1 x2 x3 x4 x5 x6 x7 x8 x9 x10 x11 x12, v50_at x0 x1 x2 x3 x4 x5 x6 x7 x8 x9 x10 x11 x12]

/-- The cotangent 1 contracted with the column V3 over its one-element axis is V3. -/
theorem v55_at (r : Fin 32768) (j : Fin 64) :
    val_main_v55 (F := Ideal) x11 (ix2 r j) = (inpOf x0 x1 x2 x3 x4 x5 x6 x7 x8 x9 x10 x11 x12).V3 j := by
  rw [val_main_v55_apply]
  simp only [Fin.sum_univ_one]
  rw [val_main_v54_apply, val_main_v47_apply, val_main_cst_10_apply, fone, one_mul]
  exact congrArg x11 (ext2 rfl rfl)

/-- Through the second relu of the Lyapunov network: V3 where its pre-activation is positive. -/
theorem v57_at (r : Fin 32768) (j : Fin 64) :
    val_main_v57 (F := Ideal) x0 x1 x2 x3 x4 x5 x6 x7 x8 x9 x10 x11 (ix2 r j) = q2R (inpOf x0 x1 x2 x3 x4 x5 x6 x7 x8 x9 x10 x11 x12) r j := by
  rw [val_main_v57_apply, val_main_v34_apply, val_main_v33_apply, val_main_cst_5_apply, val_main_v56_apply,
    val_main_cst_12_apply, fzero, v31_at x0 x1 x2 x3 x4 x5 x6 x7 x8 x9 x10 x11 x12, v55_at x0 x1 x2 x3 x4 x5 x6 x7 x8 x9 x10 x11 x12]
  exact select_gt _ _ _ _ _

/-- Back through V2. -/
theorem v58_at (r : Fin 32768) (i : Fin 64) :
    val_main_v58 (F := Ideal) x0 x1 x2 x3 x4 x5 x6 x7 x8 x9 x10 x11 (ix2 r i) = ∑ j : Fin 64, q2R (inpOf x0 x1 x2 x3 x4 x5 x6 x7 x8 x9 x10 x11 x12) r j * (inpOf x0 x1 x2 x3 x4 x5 x6 x7 x8 x9 x10 x11 x12).V2 i j := by
  rw [val_main_v58_apply]
  refine Finset.sum_congr rfl fun j _ => ?_
  rw [show lidx_main_v58 (ix2 r i) j = ix2 r j from ext2 rfl rfl,
    show ridx_main_v58 (ix2 r i) j = ix2 i j from ext2 rfl rfl, v57_at x0 x1 x2 x3 x4 x5 x6 x7 x8 x9 x10 x11 x12]
  rfl

/-- Through the first relu of the Lyapunov network. -/
theorem v60_at (r : Fin 32768) (i : Fin 64) :
    val_main_v60 (F := Ideal) x0 x1 x2 x3 x4 x5 x6 x7 x8 x9 x10 x11 (ix2 r i) = q1R (inpOf x0 x1 x2 x3 x4 x5 x6 x7 x8 x9 x10 x11 x12) r i := by
  rw [val_main_v60_apply, val_main_v26_apply, val_main_v25_apply, val_main_cst_3_apply, val_main_v59_apply,
    val_main_cst_13_apply, fzero, v23_at x0 x1 x2 x3 x4 x5 x6 x7 x8 x9 x10 x11 x12, v58_at x0 x1 x2 x3 x4 x5 x6 x7 x8 x9 x10 x11 x12]
  exact select_gt _ _ _ _ _

/-- Back through V1. -/
theorem v61_at (r : Fin 32768) (d : Fin 512) :
    val_main_v61 (F := Ideal) x0 x1 x2 x3 x4 x5 x6 x7 x8 x9 x10 x11 (ix2 r d) = ∑ i : Fin 64, q1R (inpOf x0 x1 x2 x3 x4 x5 x6 x7 x8 x9 x10 x11 x12) r i * (inpOf x0 x1 x2 x3 x4 x5 x6 x7 x8 x9 x10 x11 x12).V1 d i := by
  rw [val_main_v61_apply]
  refine Finset.sum_congr rfl fun i _ => ?_
  rw [show lidx_main_v61 (ix2 r d) i = ix2 r i from ext2 rfl rfl,
    show ridx_main_v61 (ix2 r d) i = ix2 d i from ext2 rfl rfl, v60_at x0 x1 x2 x3 x4 x5 x6 x7 x8 x9 x10 x11 x12]
  rfl

/-- The whole cotangent of z. -/
theorem v62_at (r : Fin 32768) (d : Fin 512) :
    val_main_v62 (F := Ideal) x0 x1 x2 x3 x4 x5 x6 x7 x8 x9 x10 x11 (ix2 r d) = gzR (inpOf x0 x1 x2 x3 x4 x5 x6 x7 x8 x9 x10 x11 x12) r d := by
  rw [val_main_v62_apply, Ideal.addf_def, v53_at x0 x1 x2 x3 x4 x5 x6 x7 x8 x9 x10 x11 x12, v61_at x0 x1 x2 x3 x4 x5 x6 x7 x8 x9 x10 x11 x12]
  rfl

/-- Back through W3. -/
theorem v63_at (r : Fin 32768) (k : Fin 64) :
    val_main_v63 (F := Ideal) x0 x1 x2 x3 x4 x5 x6 x7 x8 x9 x10 x11 (ix2 r k) = ∑ d : Fin 512, gzR (inpOf x0 x1 x2 x3 x4 x5 x6 x7 x8 x9 x10 x11 x12) r d * (inpOf x0 x1 x2 x3 x4 x5 x6 x7 x8 x9 x10 x11 x12).W3 k d := by
  rw [val_main_v63_apply]
  refine Finset.sum_congr rfl fun d _ => ?_
  rw [show lidx_main_v63 (ix2 r k) d = ix2 r d from ext2 rfl rfl,
    show ridx_main_v63 (ix2 r k) d = ix2 k d from ext2 rfl rfl, v62_at x0 x1 x2 x3 x4 x5 x6 x7 x8 x9 x10 x11 x12]
  rfl

/-- Through the second relu of the dynamics network. -/
theorem v65_at (r : Fin 32768) (k : Fin 64) :
    val_main_v65 (F := Ideal) x0 x1 x2 x3 x4 x5 x6 x7 x8 x9 x10 x11 (ix2 r k) = gh2R (inpOf x0 x1 x2 x3 x4 x5 x6 x7 x8 x9 x10 x11 x12) r k := by
  rw [val_main_v65_apply, val_main_v14_apply, val_main_v13_apply, val_main_cst_1_apply, val_main_v64_apply,
    val_main_cst_14_apply, fzero, v11_at x0 x1 x2 x3 x4 x5 x6 x7 x8 x9 x10 x11 x12, v63_at x0 x1 x2 x3 x4 x5 x6 x7 x8 x9 x10 x11 x12]
  exact select_gt _ _ _ _ _

/-- Back through W2. -/
theorem v66_at (r : Fin 32768) (j : Fin 64) :
    val_main_v66 (F := Ideal) x0 x1 x2 x3 x4 x5 x6 x7 x8 x9 x10 x11 (ix2 r j) = ∑ k : Fin 64, gh2R (inpOf x0 x1 x2 x3 x4 x5 x6 x7 x8 x9 x10 x11 x12) r k * (inpOf x0 x1 x2 x3 x4 x5 x6 x7 x8 x9 x10 x11 x12).W2 j k := by
  rw [val_main_v66_apply]
  refine Finset.sum_congr rfl fun k _ => ?_
  rw [show lidx_main_v66 (ix2 r j) k = ix2 r k from ext2 rfl rfl,
    show ridx_main_v66 (ix2 r j) k = ix2 j k from ext2 rfl rfl, v65_at x0 x1 x2 x3 x4 x5 x6 x7 x8 x9 x10 x11 x12]
  rfl

/-- Through the first relu of the dynamics network. -/
theorem v68_at (r : Fin 32768) (j : Fin 64) :
    val_main_v68 (F := Ideal) x0 x1 x2 x3 x4 x5 x6 x7 x8 x9 x10 x11 (ix2 r j) = gh1R (inpOf x0 x1 x2 x3 x4 x5 x6 x7 x8 x9 x10 x11 x12) r j := by
  rw [val_main_v68_apply, val_main_v6_apply, val_main_v5_apply, val_main_cst_apply, val_main_v67_apply,
    val_main_cst_15_apply, fzero, v3_at x0 x1 x2 x3 x4 x5 x6 x7 x8 x9 x10 x11 x12, v66_at x0 x1 x2 x3 x4 x5 x6 x7 x8 x9 x10 x11 x12]
  exact select_gt _ _ _ _ _

/-- Back through W1: the gradient with respect to the input. -/
theorem v69_at (r : Fin 32768) (d : Fin 512) :
    val_main_v69 (F := Ideal) x0 x1 x2 x3 x4 x5 x6 x7 x8 x9 x10 x11 (ix2 r d) = gvR (inpOf x0 x1 x2 x3 x4 x5 x6 x7 x8 x9 x10 x11 x12) r d := by
  rw [val_main_v69_apply]
  unfold gvR
  refine Finset.sum_congr rfl fun j _ => ?_
  rw [show lidx_main_v69 (ix2 r d) j = ix2 r j from ext2 rfl rfl,
    show ridx_main_v69 (ix2 r d) j = ix2 d j from ext2 rfl rfl, v68_at x0 x1 x2 x3 x4 x5 x6 x7 x8 x9 x10 x11 x12]
  rfl

/-! ### The dynamics network once more -/

/-- The first pre-activation again. -/
theorem v73_at (r : Fin 32768) (k : Fin 64) :
    val_main_v73 (F := Ideal) x0 x1 x2 (ix2 r k) = a1 (inpOf x0 x1 x2 x3 x4 x5 x6 x7 x8 x9 x10 x11 x12) r k := by
  rw [val_main_v73_apply, Ideal.addf_def, val_main_v70_apply, val_main_v72_apply, val_main_v71_apply]
  unfold a1
  refine add_congr' (Finset.sum_congr rfl fun d _ => ?_) ?_
  · exact congrArg₂ (· * ·) (congrArg x0 (ext2 rfl rfl)) (congrArg x1 (ext2 rfl rfl))
  · exact congrArg x2 (ext1 rfl)

/-- The first hidden layer again. -/
theorem v74_at (r : Fin 32768) (k : Fin 64) :
    val_main_v74 (F := Ideal) x0 x1 x2 (ix2 r k) = h1 (inpOf x0 x1 x2 x3 x4 x5 x6 x7 x8 x9 x10 x11 x12) r k := by
  rw [val_main_v74_apply, Ideal.maximumf_def, val_main_call4_v0_apply, val_main_call4_cst_apply, fzero,
    v73_at x0 x1 x2 x3 x4 x5 x6 x7 x8 x9 x10 x11 x12]
  rfl

/-- The second pre-activation again. -/
theorem v78_at (r : Fin 32768) (k : Fin 64) :
    val_main_v78 (F := Ideal) x0 x1 x2 x3 x4 (ix2 r k) = a2 (inpOf x0 x1 x2 x3 x4 x5 x6 x7 x8 x9 x10 x11 x12) r k := by
  rw [val_main_v78_apply, Ideal.addf_def, val_main_v75_apply, val_main_v77_apply, val_main_v76_apply]
  unfold a2
  refine add_congr' (Finset.sum_congr rfl fun j _ => ?_) ?_
  · rw [show lidx_main_v75 (ix2 r k) j = ix2 r j from ext2 rfl rfl,
      show ridx_main_v75 (ix2 r k) j = ix2 j k from ext2 rfl rfl, v74_at x0 x1 x2 x3 x4 x5 x6 x7 x8 x9 x10 x11 x12]
    rfl
  · exact congrArg x4 (ext1 rfl)

/-- The second hidden layer again. -/
theorem v79_at (r : Fin 32768) (k : Fin 64) :
    val_main_v79 (F := Ideal) x0 x1 x2 x3 x4 (ix2 r k) = h2 (inpOf x0 x1 x2 x3 x4 x5 x6 x7 x8 x9 x10 x11 x12) r k := by
  rw [val_main_v79_apply, Ideal.maximumf_def, val_main_call5_v0_apply, val_main_call5_cst_apply, fzero,
    v78_at x0 x1 x2 x3 x4 x5 x6 x7 x8 x9 x10 x11 x12]
  rfl

/-- z again. -/
theorem v83_at (r : Fin 32768) (d : Fin 512) :
    val_main_v83 (F := Ideal) x0 x1 x2 x3 x4 x5 x6 (ix2 r d) = z (inpOf x0 x1 x2 x3 x4 x5 x6 x7 x8 x9 x10 x11 x12) r d := by
  rw [val_main_v83_apply, Ideal.addf_def, val_main_v80_apply, val_main_v82_apply, val_main_v81_apply]
  unfold z
  refine add_congr' (Finset.sum_congr rfl fun k _ => ?_) ?_
  · rw [show lidx_main_v80 (ix2 r d) k = ix2 r k from ext2 rfl rfl,
      show ridx_main_v80 (ix2 r d) k = ix2 k d from ext2 rfl rfl, v79_at x0 x1 x2 x3 x4 x5 x6 x7 x8 x9 x10 x11 x12]
    rfl
  · exact congrArg x6 (ext1 rfl)

/-! ### The sums of ‖gv‖², the quotient, the result -/

/-- The squared norm of a row of the gradient. -/
theorem v85_at (r : Fin 32768) :
    val_main_v85 (F := Ideal) x0 x1 x2 x3 x4 x5 x6 x7 x8 x9 x10 x11 (ix1 r) = dotR (inpOf x0 x1 x2 x3 x4 x5 x6 x7 x8 x9 x10 x11 x12) r := by
  rw [val_main_v85_apply, val_main_cst_16_apply, fzero, zero_add]
  unfold dotR
  refine Finset.sum_congr rfl fun d _ => ?_
  rw [show idx_main_v85 (ix1 r) d = ix2 r d from ext2 rfl rfl, val_main_v84_apply, Ideal.mulf_def, v69_at x0 x1 x2 x3 x4 x5 x6 x7 x8 x9 x10 x11 x12]

/-- The total over every row and column: a sum over all indices is the double sum over the coordinates. -/
theorem v87_at (i : S_.Idx) :
    val_main_v87 (F := Ideal) x0 x1 x2 x3 x4 x5 x6 x7 x8 x9 x10 x11 i = denR (inpOf x0 x1 x2 x3 x4 x5 x6 x7 x8 x9 x10 x11 x12) := by
  rw [val_main_v87_apply, val_main_cst_17_apply, fzero, zero_add, sum_idx2]
  unfold denR
  refine Finset.sum_congr rfl fun r _ => Finset.sum_congr rfl fun d _ => ?_
  rw [val_main_v86_apply, Ideal.mulf_def, v69_at x0 x1 x2 x3 x4 x5 x6 x7 x8 x9 x10 x11 x12]

/-- The numerator of a row: the larger of ‖gv‖² + a·V and 0. -/
theorem v91_at (r : Fin 32768) :
    val_main_v91 (F := Ideal) x0 x1 x2 x3 x4 x5 x6 x7 x8 x9 x10 x11 x12 (ix1 r) = numR (inpOf x0 x1 x2 x3 x4 x5 x6 x7 x8 x9 x10 x11 x12) r := by
  rw [val_main_v91_apply, Ideal.maximumf_def, val_main_v90_apply, Ideal.addf_def, val_main_v89_apply, Ideal.mulf_def,
    val_main_v88_apply, val_main_cst_18_apply, val_main_call6_v0_apply, val_main_call6_cst_apply, fzero,
    v85_at x0 x1 x2 x3 x4 x5 x6 x7 x8 x9 x10 x11 x12, v45_at x0 x1 x2 x3 x4 x5 x6 x7 x8 x9 x10 x11 x12]
  rfl

/-- The quotient of a row. -/
theorem v93_at (r : Fin 32768) :
    val_main_v93 (F := Ideal) x0 x1 x2 x3 x4 x5 x6 x7 x8 x9 x10 x11 x12 (ix1 r) = Ideal.div (numR (inpOf x0 x1 x2 x3 x4 x5 x6 x7 x8 x9 x10 x11 x12) r) (denR (inpOf x0 x1 x2 x3 x4 x5 x6 x7 x8 x9 x10 x11 x12)) := by
  rw [val_main_v93_apply, Ideal.hostDivf_def, val_main_v92_apply, v91_at x0 x1 x2 x3 x4 x5 x6 x7 x8 x9 x10 x11 x12, v87_at x0 x1 x2 x3 x4 x5 x6 x7 x8 x9 x10 x11 x12]

/-- The quotient along every column. -/
theorem v95_at (r : Fin 32768) (d : Fin 512) :
    val_main_v95 (F := Ideal) x0 x1 x2 x3 x4 x5 x6 x7 x8 x9 x10 x11 x12 (ix2 r d) = Ideal.div (numR (inpOf x0 x1 x2 x3 x4 x5 x6 x7 x8 x9 x10 x11 x12) r) (denR (inpOf x0 x1 x2 x3 x4 x5 x6 x7 x8 x9 x10 x11 x12)) := by
  rw [val_main_v95_apply, val_main_v94_apply,
    show idx_main_v94 (idx_main_v95 (ix2 r d)) = ix1 r from ext1 rfl, v93_at x0 x1 x2 x3 x4 x5 x6 x7 x8 x9 x10 x11 x12]

/-- The reference's last stage at row r, column d is the model's reference result there. -/
theorem ref_value (r : Fin 32768) (d : Fin 512) :
    val_main_v97 (F := Ideal) x0 x1 x2 x3 x4 x5 x6 x7 x8 x9 x10 x11 x12 (ix2 r d)
      = outR (inpOf x0 x1 x2 x3 x4 x5 x6 x7 x8 x9 x10 x11 x12) r d := by
  rw [val_main_v97_apply, Ideal.subf_def, val_main_v96_apply, Ideal.mulf_def, v83_at x0 x1 x2 x3 x4 x5 x6 x7 x8 x9 x10 x11 x12, v95_at x0 x1 x2 x3 x4 x5 x6 x7 x8 x9 x10 x11 x12,
    v69_at x0 x1 x2 x3 x4 x5 x6 x7 x8 x9 x10 x11 x12]
  rfl

end Cert.ReferenceIdeal.RefValue

end
-- ==== Proof.LibMatProd.lean ====
import Idealize.ShloMosaic.PureOps.Ideal
import Idealize.ShloMosaic.Lib.ValueIdx
import Mathlib.Data.EReal.Basic
import Mathlib.Algebra.BigOperators.Group.Finset.Basic

/-!
# A matrix product on extended reals, index by index

`mmP A B` is the product of an `M × K` and a `K × N` array of extended reals: entry `(r, s)` is the sum over the
contracted axis of `A (r, j) * B (j, s)`. Every tiled matrix product of the program is this function of its two operand
arrays, whatever the tiling.
-/

open Idealize.ShloMosaic Idealize.ShloMosaic.ValueIdx

namespace MatProd

/-- The `M × K` by `K × N` product on extended reals, as a function of the result's index. -/
noncomputable def mmP {M K N : ℕ} (A : (⟨2, ![M, K]⟩ : Shape).Idx → EReal) (B : (⟨2, ![K, N]⟩ : Shape).Idx → EReal) :
    (⟨2, ![M, N]⟩ : Shape).Idx → EReal :=
  fun idx => ∑ j : Fin K, A (ix2 (idx 0) j) * B (ix2 j (idx 1))

/-- Entry `(r, s)` of the product is the sum of the products along the contracted axis. -/
theorem mmP_apply {M K N : ℕ} (A : (⟨2, ![M, K]⟩ : Shape).Idx → EReal) (B : (⟨2, ![K, N]⟩ : Shape).Idx → EReal)
    (r : Fin M) (s : Fin N) : mmP A B (ix2 r s) = ∑ j : Fin K, A (ix2 r j) * B (ix2 j s) := rfl

end MatProd
-- ==== Proof.LibDotPlain.lean ====
/-
  A plain matrix product read index by index, for any extents: a contraction of an [M × K] by a [K × N] array whose
  dimension numbers contract the left operand's axis 1 with the right operand's axis 0, with no batch axis, is the
  matrix product `MatProd.mmP` — entry (r, s) the sum over j of l (r, j) · r (j, s) — both as the host's
  `dot_general` and as the matrix unit's product into a zero accumulator, at the exact-arithmetic instance.
-/
import Idealize.ShloMosaic.PureOps.Ideal
import Idealize.ShloMosaic.PureOps.Ideal.Laws
import Idealize.ShloMosaic.PureOps.Contract
import Idealize.ShloMosaic.Lib.ValueIdx
import proofs.«403450_j27376121545312_3_alg».proof.Proof.LibMatProd

noncomputable section

namespace Idealize.ShloMosaic.DotPlain

open Idealize.ShloMosaic Idealize.ShloMosaic.ValueIdx MatProd

variable {M K N : Nat} (d : DotDims ⟨2, ![M, K]⟩ ⟨2, ![K, N]⟩ ⟨2, ![M, N]⟩)

/-- The left operand's row is the result's row. -/
theorem lhs_axis0 (hlb : d.lhsBatch = []) (hln : d.lhsNonContracting = [0]) (j : (⟨2, ![M, N]⟩ : Shape).Idx) (k : d.contr.Idx) :
    (d.lhsIdx j k 0).val = (j 0).val := by
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  unfold DotDims.lhsIdx
  rw [dif_neg (by rw [hlb]; exact List.not_mem_nil), dif_pos (by rw [hln]; exact List.mem_singleton.mpr rfl)]
  simp only [Fin.val_cast]
  exact key _ _ _ _ (by simp [hlb, hln])

/-- The right operand's column is the result's column. -/
theorem rhs_axis1 (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  unfold DotDims.rhsIdx
  rw [dif_neg (by rw [hrb]; exact List.not_mem_nil), dif_pos (by rw [hrn]; exact List.mem_singleton.mpr rfl)]
  simp only [Fin.val_cast]
  exact key _ _ _ _ (by simp [hlb, hln, hrn])

/-- The contraction's sum, re-indexed by the contracted coordinate: the matrix product's entry. -/
theorem contr_sum (hlc : d.lhsContracting = [1]) (hrc : d.rhsContracting = [0]) (hln : d.lhsNonContracting = [0])
    (hrn : d.rhsNonContracting = [1]) (hlb : d.lhsBatch = []) (hrb : d.rhsBatch = [])
    (X : (⟨2, ![M, K]⟩ : Shape).Idx → EReal) (Y : (⟨2, ![K, N]⟩ : Shape).Idx → EReal) (j : (⟨2, ![M, N]⟩ : Shape).Idx) :
    ∑ k : d.contr.Idx, X (d.lhsIdx j k) * Y (d.rhsIdx j k) = mmP X Y j := by
  have hr : d.contr.rank = 1 := by rw [d.rank_contr, hlc]; rfl
  have hs : d.contr.size ⟨0, by omega⟩ = K := by
    rw [d.size_contr 0 (by rw [hlc]; exact Nat.one_pos)]
    simp [hlc]
  refine (Equiv.sum_comp (contrEquiv1 d K hr hs).symm _).symm.trans ?_
  unfold mmP
  refine Finset.sum_congr rfl fun kk _ => ?_
  have e1 : d.lhsIdx j ((contrEquiv1 d K hr hs).symm kk) = ix2 (j 0) kk := by
    funext a; apply Fin.ext
    match a with
    | ⟨0, _⟩ => exact lhs_axis0 d hlb hln j _
    | ⟨1, _⟩ => exact (d.lhsIdx_val_of_single hlc j _).trans (contrEquiv1_symm_val d K hr hs kk)
  have e2 : d.rhsIdx j ((contrEquiv1 d K hr hs).symm kk) = ix2 kk (j 1) := by
    funext a; apply Fin.ext
    match a with
    | ⟨0, _⟩ => exact (d.rhsIdx_val_of_single hrc j _).trans (contrEquiv1_symm_val d K hr hs kk)
    | ⟨1, _⟩ => exact rhs_axis1 d hlb hrb hln hrn j _
  exact congrArg₂ (· * ·) (congrArg X e1) (congrArg Y e2)

/-- The host's `dot_general` with these dimension numbers is the matrix product. -/
theorem dotGeneral_eq (hlc : d.lhsContracting = [1]) (hrc : d.rhsContracting = [0]) (hln : d.lhsNonContracting = [0])
    (hrn : d.rhsNonContracting = [1]) (hlb : d.lhsBatch = []) (hrb : d.rhsBatch = []) {φ₁ φ₂ : FTy}
    (prec : Option ContractPrecision) (sched : HostSchedule)
    (X : FVec Ideal ⟨2, ![M, K]⟩ φ₁) (Y : FVec Ideal ⟨2, ![K, N]⟩ φ₂) :
    FloatOps.dotGeneral d prec sched X Y = mmP X Y := by
  funext j
  rw [Ideal.dotGeneral_apply]
  exact contr_sum d hlc hrc hln hrn hlb hrb X Y j

/-- The matrix unit's product with these dimension numbers into a zero accumulator is the matrix product. -/
theorem matmul_zero_eq (hlc : d.lhsContracting = [1]) (hrc : d.rhsContracting = [0]) (hln : d.lhsNonContracting = [0])
    (hrn : d.rhsNonContracting = [1]) (hlb : d.lhsBatch = []) (hrb : d.rhsBatch = []) {φ₁ φ₂ : FTy}
    (prec : Option ContractPrecision) (X : FVec Ideal ⟨2, ![M, K]⟩ φ₁) (Y : FVec Ideal ⟨2, ![K, N]⟩ φ₂) :
    FloatOps.matmul d prec X Y (constant ⟨2, ![M, N]⟩ .f32 0x00000000#32) = mmP X Y := by
  funext j
  rw [Ideal.matmul_constant_zero_apply]
  exact contr_sum d hlc hrc hln hrn hlb hrb X Y j

end Idealize.ShloMosaic.DotPlain

end
-- ==== Proof.KHost.lean ====
/-
  The kernel program's host operations, read at an index against the model.
  Before the first kernel the host re-lays the weights: a change of float format (the identity at the ideal instance),
  [n] → [1,n] re-shapes, transposes, and the four weight products the kernel folds its two linear hops into —
  W3·V1, b3·V1 + c1, W3·W3ᵀ, b3·W3ᵀ (and the transpose of the first). Between the two kernels it takes entry [c,0,0] of
  each half's denominator block and adds the two. Everything is stated over an arbitrary buffer valuation W: the
  contents the stretch starts from.
-/
import proofs.«403450_j27376121545312_3_alg».proof.Proof.Gen.KernelIdeal.Launch
import proofs.«403450_j27376121545312_3_alg».proof.Proof.Inputs
import proofs.«403450_j27376121545312_3_alg».proof.Proof.LibDotPlain
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostValue

open Idealize.ShloMosaic Idealize.ShloMosaic.TcCoe Idealize.ShloMosaic.StableHlo Idealize.ShloMosaic.ValueIdx
open Cert.KernelIdeal Cert.KernelIdeal.Gen Cert.Lyap

variable (W : Valuation τ sig (Elt Ideal))

/-- The model's inputs read off a valuation's argument buffers. -/
def inpW : Inp EReal :=
  inpOf (W (Proc.devRef .tc main_arg0) : S32768x512.Idx → EReal) (W (Proc.devRef .tc main_arg1) : S512x64.Idx → EReal)
    (W (Proc.devRef .tc main_arg2) : S64.Idx → EReal) (W (Proc.devRef .tc main_arg3) : S64x64.Idx → EReal)
    (W (Proc.devRef .tc main_arg4) : S64.Idx → EReal) (W (Proc.devRef .tc main_arg5) : S64x512.Idx → EReal)
    (W (Proc.devRef .tc main_arg6) : S512.Idx → EReal) (W (Proc.devRef .tc main_arg7) : S512x64.Idx → EReal)
    (W (Proc.devRef .tc main_arg8) : S64.Idx → EReal) (W (Proc.devRef .tc main_arg9) : S64x64.Idx → EReal)
    (W (Proc.devRef .tc main_arg10) : S64.Idx → EReal) (W (Proc.devRef .tc main_arg11) : S64x1.Idx → EReal)
    (W (Proc.devRef .tc main_arg12) : S1.Idx → EReal)

/-- The contents after the first host stretch. -/
abbrev A0 : Valuation τ sig (Elt Ideal) := StableHlo.after (hostOps0 (F := Ideal)) W

/-! ### Re-shapes read at an index -/

theorem cast_n1_1n {n : Nat} (x : (⟨2, ![n, 1]⟩ : Shape).Idx → EReal) (h : (⟨2, ![n, 1]⟩ : Shape).ShapeCasts ⟨2, ![1, n]⟩) (k : Fin n) :
    shapeCast ⟨2, ![1, n]⟩ x h (ix2 0 k) = x (ix2 k 0) := by
  refine shapeCast_apply x h _ _ ?_
  rw [Shape.rowMajor_val_two, Shape.rowMajor_val_two]
  show (k : Nat) * 1 + (0 : Fin 1).val = (0 : Fin 1).val * n + (k : Nat)
  simp

/-- A sum over a rank-1 index set is the sum over its one coordinate. -/
theorem sum_idx1 {M : Type} [AddCommMonoid M] {n : Nat} (f : (⟨1, ![n]⟩ : Shape).Idx → M) :
    ∑ i, f i = ∑ a : Fin n, f (ix1 a) :=
  (Fintype.sum_equiv ⟨fun a : Fin n => (ix1 a : (⟨1, ![n]⟩ : Shape).Idx), fun i => i 0, fun _ => rfl, fun i => (eq_ix1 i).symm⟩ _ _
    fun _ => rfl).symm

/-! ### The first stretch -/

theorem host_x : A0 W (Proc.devRef .tc main_arg0) = W (Proc.devRef .tc main_arg0) := by
  after_results

theorem host_W1 (d : Fin 512) (k : Fin 64) :
    (A0 W (Proc.devRef .tc main_v10) : S512x64.Idx → EReal) (ix2 d k) = (inpW W).W1 d k := by
  after_results; rfl

theorem host_W2 (j k : Fin 64) : (A0 W (Proc.devRef .tc main_v11) : S64x64.Idx → EReal) (ix2 j k) = (inpW W).W2 j k := by
  after_results; rfl

theorem host_W3 (k : Fin 64) (d : Fin 512) :
    (A0 W (Proc.devRef .tc main_v12) : S64x512.Idx → EReal) (ix2 k d) = (inpW W).W3 k d := by
  after_results; rfl

theorem host_V2 (i j : Fin 64) : (A0 W (Proc.devRef .tc main_v13) : S64x64.Idx → EReal) (ix2 i j) = (inpW W).V2 i j := by
  after_results; rfl

theorem host_b1 (k : Fin 64) : (A0 W (Proc.devRef .tc main_v24) : S1x64.Idx → EReal) (ix2 0 k) = (inpW W).b1 k := by
  after_results
  exact shapeCast_a_1a_apply _ _ (0 : Fin 1) k

theorem host_b2 (k : Fin 64) : (A0 W (Proc.devRef .tc main_v25) : S1x64.Idx → EReal) (ix2 0 k) = (inpW W).b2 k := by
  after_results
  exact shapeCast_a_1a_apply _ _ (0 : Fin 1) k

theorem host_b3 (d : Fin 512) : (A0 W (Proc.devRef .tc main_v26) : S1x512.Idx → EReal) (ix2 0 d) = (inpW W).b3 d := by
  after_results
  exact shapeCast_a_1a_apply _ _ (0 : Fin 1) d

theorem host_c2 (j : Fin 64) : (A0 W (Proc.devRef .tc main_v27) : S1x64.Idx → EReal) (ix2 0 j) = (inpW W).c2 j := by
  after_results
  exact shapeCast_a_1a_apply _ _ (0 : Fin 1) j

theorem host_V3 (j : Fin 64) : (A0 W (Proc.devRef .tc main_v23) : S1x64.Idx → EReal) (ix2 0 j) = (inpW W).V3 j := by
  after_results
  exact cast_n1_1n _ _ j

theorem host_c3 : (A0 W (Proc.devRef .tc main_v28) : S1x1.Idx → EReal) (ix2 0 0) = (inpW W).c3 := by
  after_results
  exact shapeCast_a_1a_apply _ _ (0 : Fin 1) (0 : Fin 1)

/-! ### Transposes -/

theorem host_W1T (j : Fin 64) (d : Fin 512) :
    (A0 W (Proc.devRef .tc main_v15) : S64x512.Idx → EReal) (ix2 j d) = (inpW W).W1 d j := by
  after_results
  exact transpose_ix2_apply _ _ j d

theorem host_W2T (k j : Fin 64) : (A0 W (Proc.devRef .tc main_v17) : S64x64.Idx → EReal) (ix2 k j) = (inpW W).W2 j k := by
  after_results
  exact transpose_ix2_apply _ _ k j

theorem host_V2T (j i : Fin 64) : (A0 W (Proc.devRef .tc main_v19) : S64x64.Idx → EReal) (ix2 j i) = (inpW W).V2 i j := by
  after_results
  exact transpose_ix2_apply _ _ j i

/-! ### The four weight products -/

/-- A host contraction [M×K]·[K×N] at (r, s) is the sum over the contracted axis. -/
theorem dot_at {M K N : Nat} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![M, K]⟩ .f32) (Y : FVec Ideal ⟨2, ![K, N]⟩ .f32) (r : Fin M) (s : Fin N) :
    Host.dotGeneral d none X Y (ix2 r s) = ∑ q : Fin K, X (ix2 r q) * Y (ix2 q s) := by
  simp only [Host.dotGeneral]
  rw [DotPlain.dotGeneral_eq d hlc hrc hln hrn hlb hrb]
  rfl

theorem host_W3V1 (k j : Fin 64) : (A0 W (Proc.devRef .tc main_v20) : S64x64.Idx → EReal) (ix2 k j) = W3V1 (inpW W) k j := by
  after_results
  exact dot_at dot_S64x512_S512x64_S64x64_1_0_0_1_n_n rfl rfl rfl rfl rfl rfl _ _ k j

theorem host_W3V1T (i k : Fin 64) : (A0 W (Proc.devRef .tc main_v21) : S64x64.Idx → EReal) (ix2 i k) = W3V1 (inpW W) k i := by
  after_results
  refine (truncf_apply (φ := .f32) (ψ := .bf16) _ bitsLt_bf16_f32 (ix2 i k)).trans ?_
  refine (transpose_ix2_apply _ _ i k).trans ?_
  exact dot_at dot_S64x512_S512x64_S64x64_1_0_0_1_n_n rfl rfl rfl rfl rfl rfl _ _ k i

theorem host_W3W3T (k' k : Fin 64) :
    (A0 W (Proc.devRef .tc main_v22) : S64x64.Idx → EReal) (ix2 k' k) = W3W3T (inpW W) k' k := by
  after_results
  refine (dot_at dot_S64x512_S512x64_S64x64_1_0_0_1_n_n rfl rfl rfl rfl rfl rfl _ _ k' k).trans ?_
  unfold W3W3T
  refine Finset.sum_congr rfl fun d _ => ?_
  rw [transpose_ix2_apply]
  rfl

theorem host_bf (j : Fin 64) : (A0 W (Proc.devRef .tc main_v4) : S1x64.Idx → EReal) (ix2 0 j) = bfK (inpW W) j := by
  after_results
  unfold bfK
  show Host.dotGeneral dot_S1x512_S512x64_S1x64_1_0_0_1_n_n none _ _ (ix2 0 j) + shapeCast S1x64 _ shapeCasts_S64_S1x64 (ix2 0 j) = _
  rw [dot_at dot_S1x512_S512x64_S1x64_1_0_0_1_n_n rfl rfl rfl rfl rfl rfl, shapeCast_a_1a_apply]
  refine congrArg₂ (fun a b : EReal => a + b) (Finset.sum_congr rfl fun d _ => ?_) rfl
  exact congrArg₂ (fun a b : EReal => a * b) (shapeCast_a_1a_apply _ _ (0 : Fin 1) d) rfl

theorem host_b3W3T (k : Fin 64) : (A0 W (Proc.devRef .tc main_v9) : S1x64.Idx → EReal) (ix2 0 k) = b3W3T (inpW W) k := by
  after_results
  unfold b3W3T
  refine (dot_at dot_S1x512_S512x64_S1x64_1_0_0_1_n_n rfl rfl rfl rfl rfl rfl _ _ (0 : Fin 1) k).trans ?_
  refine Finset.sum_congr rfl fun d _ => ?_
  exact congrArg₂ (fun a b : EReal => a * b) (shapeCast_a_1a_apply _ _ (0 : Fin 1) d) (transpose_ix2_apply _ _ d k)

/-! ### Between the two kernels -/

/-- The contents after the second host stretch. -/
abbrev A1 : Valuation τ sig (Elt Ideal) := StableHlo.after (hostOps1 (F := Ideal)) W

theorem host1_f : A1 W (Proc.devRef .tc main_v29_0) = W (Proc.devRef .tc main_v29_0) := by
  after_results
theorem host1_gv : A1 W (Proc.devRef .tc main_v29_1) = W (Proc.devRef .tc main_v29_1) := by
  after_results
theorem host1_num : A1 W (Proc.devRef .tc main_v29_2) = W (Proc.devRef .tc main_v29_2) := by
  after_results

/-- The first kernel's denominator blocks, as an array of extended reals. -/
abbrev denBlk : S2x8x128.Idx → EReal := W (Proc.devRef .tc main_v29_3)

/-- The denominator the second kernel is given: entry [c,0,0] of each half's block, added (from 0). -/
theorem host1_den : (A1 W (Proc.devRef .tc main_v33) : S1x1.Idx → EReal) (ix2 0 0)
    = 0 + ∑ c : Fin 2, denBlk W (ix3 c 0 0) := by
  after_results
  show shapeCast S1x1 (Host.reduceAdd _ (constant (F := Ideal) S_ .f32 0x00000000#32) reducesTo_S2_S_d0 h_S_) shapeCasts_S_S1x1 (ix2 0 0) = _
  rw [shapeCast_apply _ shapeCasts_S_S1x1 (ix2 0 0) ix0 (by rw [Shape.rowMajor_val_two]; rfl)]
  simp only [Host.reduceAdd, Ideal.hostReduceAdd_def]
  rw [Ideal.hostReduceAdd_total reducesTo_S2_S_d0 (fun b => b.elim0), sum_idx1]
  refine congrArg₂ (fun a b : EReal => a + b) Consts.ofBits_zero (Finset.sum_congr rfl fun q _ => ?_)
  refine (shapeCast_apply _ shapeCasts_S2x1x1_S2 (ix1 q) (ix3 q 0 0) (by
    rw [Shape.rowMajor_val_three, Shape.rowMajor_val_one]
    show (q.val * 1 + 0) * 1 + 0 = q.val
    omega)).trans ?_
  exact extractStridedSlice_apply _ _ slices_S2x8x128_S2x1x1_0_0_0 (ix3 q 0 0) (ix3 q 0 0) fun a => by
    match a with
    | ⟨0, _⟩ => exact (Nat.zero_add _).symm
    | ⟨1, _⟩ => rfl
    | ⟨2, _⟩ => rfl

end Cert.KernelIdeal.HostValue

end
-- ==== Proof.KStored.lean ====
/-
  What the first kernel's body stores into its four output windows, as functions of the point's nineteen input
  blocks: named composites of the body's payload terms, in the order the body computes them.
-/
import proofs.«403450_j27376121545312_3_alg».proof.Proof.Gen.KernelIdeal.Skeleton

noncomputable section

namespace Cert.KernelIdeal.Region0

open Idealize.ShloMosaic Cert.KernelIdeal Cert.KernelIdeal.Gen

variable {F : FTy → Type} [FloatOps F]

/-! ### The stored values, as functions of the point's input blocks -/

section Stored
variable (x0 : Vec F S1024x512 .f32) (x1 : Vec F S512x64 .bf16) (x2 : Vec F S1x64 .f32) (x3 : Vec F S64x64 .bf16) (x4 : Vec F S1x64 .f32) (x5 : Vec F S64x512 .bf16) (x6 : Vec F S1x512 .f32) (x7 : Vec F S64x64 .bf16) (x8 : Vec F S1x64 .f32) (x9 : Vec F S64x64 .bf16) (x10 : Vec F S1x64 .f32) (x11 : Vec F S1x64 .f32) (x12 : Vec F S1x1 .f32) (x13 : Vec F S64x512 .bf16) (x14 : Vec F S64x64 .bf16) (x15 : Vec F S64x64 .bf16) (x16 : Vec F S64x64 .bf16) (x17 : Vec F S64x64 .bf16) (x18 : Vec F S1x64 .f32)

/-- relu(x·W1 + b1) of the tile. -/
def sH1 : FVec F S1024x64 .f32 := k0_pay26 x0 (k0_pay8 x1) (k0_pay9 x2)
/-- relu(h1·W2 + b2). -/
def sH2 : FVec F S1024x64 .f32 := k0_pay27 x0 (k0_pay8 x1) (k0_pay9 x2) (k0_pay10 x3) (k0_pay11 x4)
/-- The same, in the matrix unit's input format. -/
def sH2b : FVec F S1024x64 .bf16 := k0_pay28 x0 (k0_pay8 x1) (k0_pay9 x2) (k0_pay10 x3) (k0_pay11 x4)
/-- z = h2·W3 + b3. -/
def sZ : FVec F S1024x512 .f32 := k0_pay29 x0 (k0_pay8 x1) (k0_pay9 x2) (k0_pay10 x3) (k0_pay11 x4) (k0_pay12 x5) (k0_pay13 x6)
/-- The Lyapunov network's first layer. -/
def sG1 : FVec F S1024x64 .f32 := k0_pay30 x0 (k0_pay8 x1) (k0_pay9 x2) (k0_pay10 x3) (k0_pay11 x4) (k0_pay14 x7) (k0_pay15 x8)
/-- Its second layer. -/
def sG2 : FVec F S1024x64 .f32 :=
  k0_pay31 x0 (k0_pay8 x1) (k0_pay9 x2) (k0_pay10 x3) (k0_pay11 x4) (k0_pay14 x7) (k0_pay15 x8) (k0_pay16 x9) (k0_pay17 x10)
/-- V of each row. -/
def sLy : FVec F S1024x1 .f32 :=
  k0_pay33 (k0_pay19 x12) (sZ x0 x1 x2 x3 x4 x5 x6) (sG2 x0 x1 x2 x3 x4 x7 x8 x9 x10) (k0_pay32 (k0_pay18 x11))
/-- The cotangent of the first layer's pre-activation. -/
def sGh1 : FVec F S1024x64 .bf16 :=
  k0_pay34 (k0_pay18 x11) (k0_pay21 x14) (k0_pay22 x15) (k0_pay23 x16) (k0_pay24 x17) (k0_pay25 x18) (sH1 x0 x1 x2)
    (sH2 x0 x1 x2 x3 x4) (sH2b x0 x1 x2 x3 x4) (sG1 x0 x1 x2 x3 x4 x7 x8) (sG2 x0 x1 x2 x3 x4 x7 x8 x9 x10)
/-- The matrix unit's zero accumulator. -/
def cst0 : FVec F S1024x512 .f32 := constant S1024x512 .f32 0x00000000#32
/-- What is stored into the z window. -/
def st19 : FVec F S1024x512 .bf16 := k0_pay4 (sZ x0 x1 x2 x3 x4 x5 x6)
/-- What is stored into the gv window. -/
def st20 : FVec F S1024x512 .bf16 := k0_pay5 (k0_pay20 x13) (sGh1 x0 x1 x2 x3 x4 x7 x8 x9 x10 x11 x14 x15 x16 x17 x18) cst0
/-- What is stored into the numerator window. -/
def st21 : FVec F S1024x1 .f32 := k0_pay3 (k0_pay20 x13) (sLy x0 x1 x2 x3 x4 x5 x6 x7 x8 x9 x10 x11 x12) (sGh1 x0 x1 x2 x3 x4 x7 x8 x9 x10 x11 x14 x15 x16 x17 x18) cst0
/-- What is stored into the denominator window, over the block's earlier contents v. -/
def st22 (v : Vec F S1x8x128 .f32) : FVec F S1x8x128 .f32 := k0_pay6 (k0_pay20 x13) (sGh1 x0 x1 x2 x3 x4 x7 x8 x9 x10 x11 x14 x15 x16 x17 x18) cst0 v

end Stored

end Cert.KernelIdeal.Region0

end
-- ==== Proof.KRegion0.lean ====
/-
  The first kernel's region, point by point. What each case of the body leaves in the four output buffers is read
  off the run's found pieces: every output is one covering store, so its contents are that store's payload — z of the
  tile, gv of the tile, the tile's numerators, and the running denominator block with this tile's sum of ‖gv‖² added
  (onto zero at the first point of a half, where the block is reset first and read back).
-/
import proofs.«403450_j27376121545312_3_alg».proof.Proof.FrameKI
import proofs.«403450_j27376121545312_3_alg».proof.Proof.KStored
import Idealize.ShloMosaic.Lib.Pipeline.Value
import Idealize.ShloMosaic.Lib.Tactic

set_option maxRecDepth 16384

noncomputable section

namespace Cert.KernelIdeal.Region0

open Idealize.ShloMosaic Idealize.ShloMosaic.TcCoe Idealize.ShloMosaic.Tactic
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ### What each case leaves -/

theorem outA19 (c : Dev nD) (i : grid0.Coords) (arg2 : Memref sig .tc .vmem S1024x512 .f32) (harg2 : arg2.IsWhole) (arg3 : Memref sig .tc .vmem S512x64 .bf16) (harg3 : arg3.IsWhole) (arg4 : Memref sig .tc .vmem S1x64 .f32) (harg4 : arg4.IsWhole) (arg5 : Memref sig .tc .vmem S64x64 .bf16) (harg5 : arg5.IsWhole) (arg6 : Memref sig .tc .vmem S1x64 .f32) (harg6 : arg6.IsWhole) (arg7 : Memref sig .tc .vmem S64x512 .bf16) (harg7 : arg7.IsWhole) (arg8 : Memref sig .tc .vmem S1x512 .f32) (harg8 : arg8.IsWhole) (arg9 : Memref sig .tc .vmem S64x64 .bf16) (harg9 : arg9.IsWhole) (arg10 : Memref sig .tc .vmem S1x64 .f32) (harg10 : arg10.IsWhole) (arg11 : Memref sig .tc .vmem S64x64 .bf16) (harg11 : arg11.IsWhole) (arg12 : Memref sig .tc .vmem S1x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S64x512 .bf16) (harg15 : arg15.IsWhole) (arg16 : Memref sig .tc .vmem S64x64 .bf16) (harg16 : arg16.IsWhole) (arg17 : Memref sig .tc .vmem S64x64 .bf16) (harg17 : arg17.IsWhole) (arg18 : Memref sig .tc .vmem S64x64 .bf16) (harg18 : arg18.IsWhole) (arg19 : Memref sig .tc .vmem S64x64 .bf16) (harg19 : arg19.IsWhole) (arg20 : Memref sig .tc .vmem S1x64 .f32) (harg20 : arg20.IsWhole) (arg21 : Memref sig .tc .vmem S1024x512 .bf16) (harg21 : arg21.IsWhole) (arg22 : Memref sig .tc .vmem S1024x512 .bf16) (harg22 : arg22.IsWhole) (arg23 : Memref sig .tc .vmem S1024x1 .f32) (harg23 : arg23.IsWhole) (arg24 : Memref sig .tc .vmem S1x8x128 .f32) (harg24 : arg24.IsWhole) (hc0 : cond0_0 i) (x0 : Vec F S1024x512 .f32) (x1 : Vec F S512x64 .bf16) (x2 : Vec F S1x64 .f32) (x3 : Vec F S64x64 .bf16) (x4 : Vec F S1x64 .f32) (x5 : Vec F S64x512 .bf16) (x6 : Vec F S1x512 .f32) (x7 : Vec F S64x64 .bf16) (x8 : Vec F S1x64 .f32) (x9 : Vec F S64x64 .bf16) (x10 : Vec F S1x64 .f32) (x11 : Vec F S1x64 .f32) (x12 : Vec F S1x1 .f32) (x13 : Vec F S64x512 .bf16) (x14 : Vec F S64x64 .bf16) (x15 : Vec F S64x64 .bf16) (x16 : Vec F S64x64 .bf16) (x17 : Vec F S64x64 .bf16) (x18 : Vec F S1x64 .f32) :
    out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 = st19 x0 x1 x2 x3 x4 x5 x6 := by
  unfold out0_A_19
  rw [View.read_writes_eq_canon _ _ _ (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1024x512) hz2, View.ld_unit_zero (S := S512x64) hz2, View.ld_unit_zero (S := S1x64) hz2, View.ld_unit_zero (S := S64x64) hz2, View.ld_unit_zero (S := S64x512) hz2, View.ld_unit_zero (S := S1x512) hz2, View.ld_unit_zero (S := S1x1) hz2]
  rfl

theorem outA20 (c : Dev nD) (i : grid0.Coords) (arg2 : Memref sig .tc .vmem S1024x512 .f32) (harg2 : arg2.IsWhole) (arg3 : Memref sig .tc .vmem S512x64 .bf16) (harg3 : arg3.IsWhole) (arg4 : Memref sig .tc .vmem S1x64 .f32) (harg4 : arg4.IsWhole) (arg5 : Memref sig .tc .vmem S64x64 .bf16) (harg5 : arg5.IsWhole) (arg6 : Memref sig .tc .vmem S1x64 .f32) (harg6 : arg6.IsWhole) (arg7 : Memref sig .tc .vmem S64x512 .bf16) (harg7 : arg7.IsWhole) (arg8 : Memref sig .tc .vmem S1x512 .f32) (harg8 : arg8.IsWhole) (arg9 : Memref sig .tc .vmem S64x64 .bf16) (harg9 : arg9.IsWhole) (arg10 : Memref sig .tc .vmem S1x64 .f32) (harg10 : arg10.IsWhole) (arg11 : Memref sig .tc .vmem S64x64 .bf16) (harg11 : arg11.IsWhole) (arg12 : Memref sig .tc .vmem S1x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S64x512 .bf16) (harg15 : arg15.IsWhole) (arg16 : Memref sig .tc .vmem S64x64 .bf16) (harg16 : arg16.IsWhole) (arg17 : Memref sig .tc .vmem S64x64 .bf16) (harg17 : arg17.IsWhole) (arg18 : Memref sig .tc .vmem S64x64 .bf16) (harg18 : arg18.IsWhole) (arg19 : Memref sig .tc .vmem S64x64 .bf16) (harg19 : arg19.IsWhole) (arg20 : Memref sig .tc .vmem S1x64 .f32) (harg20 : arg20.IsWhole) (arg21 : Memref sig .tc .vmem S1024x512 .bf16) (harg21 : arg21.IsWhole) (arg22 : Memref sig .tc .vmem S1024x512 .bf16) (harg22 : arg22.IsWhole) (arg23 : Memref sig .tc .vmem S1024x1 .f32) (harg23 : arg23.IsWhole) (arg24 : Memref sig .tc .vmem S1x8x128 .f32) (harg24 : arg24.IsWhole) (hc0 : cond0_0 i) (x0 : Vec F S1024x512 .f32) (x1 : Vec F S512x64 .bf16) (x2 : Vec F S1x64 .f32) (x3 : Vec F S64x64 .bf16) (x4 : Vec F S1x64 .f32) (x5 : Vec F S64x512 .bf16) (x6 : Vec F S1x512 .f32) (x7 : Vec F S64x64 .bf16) (x8 : Vec F S1x64 .f32) (x9 : Vec F S64x64 .bf16) (x10 : Vec F S1x64 .f32) (x11 : Vec F S1x64 .f32) (x12 : Vec F S1x1 .f32) (x13 : Vec F S64x512 .bf16) (x14 : Vec F S64x64 .bf16) (x15 : Vec F S64x64 .bf16) (x16 : Vec F S64x64 .bf16) (x17 : Vec F S64x64 .bf16) (x18 : Vec F S1x64 .f32) :
    out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 = st20 x0 x1 x2 x3 x4 x7 x8 x9 x10 x11 x13 x14 x15 x16 x17 x18 := by
  unfold out0_A_20
  rw [View.read_writes_eq_canon _ _ _ (cover0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1024x512) hz2, View.ld_unit_zero (S := S512x64) hz2, View.ld_unit_zero (S := S1x64) hz2, View.ld_unit_zero (S := S64x64) hz2, View.ld_unit_zero (S := S64x512) hz2, View.ld_unit_zero (S := S1x512) hz2, View.ld_unit_zero (S := S1x1) hz2]
  rfl

theorem outA21 (c : Dev nD) (i : grid0.Coords) (arg2 : Memref sig .tc .vmem S1024x512 .f32) (harg2 : arg2.IsWhole) (arg3 : Memref sig .tc .vmem S512x64 .bf16) (harg3 : arg3.IsWhole) (arg4 : Memref sig .tc .vmem S1x64 .f32) (harg4 : arg4.IsWhole) (arg5 : Memref sig .tc .vmem S64x64 .bf16) (harg5 : arg5.IsWhole) (arg6 : Memref sig .tc .vmem S1x64 .f32) (harg6 : arg6.IsWhole) (arg7 : Memref sig .tc .vmem S64x512 .bf16) (harg7 : arg7.IsWhole) (arg8 : Memref sig .tc .vmem S1x512 .f32) (harg8 : arg8.IsWhole) (arg9 : Memref sig .tc .vmem S64x64 .bf16) (harg9 : arg9.IsWhole) (arg10 : Memref sig .tc .vmem S1x64 .f32) (harg10 : arg10.IsWhole) (arg11 : Memref sig .tc .vmem S64x64 .bf16) (harg11 : arg11.IsWhole) (arg12 : Memref sig .tc .vmem S1x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S64x512 .bf16) (harg15 : arg15.IsWhole) (arg16 : Memref sig .tc .vmem S64x64 .bf16) (harg16 : arg16.IsWhole) (arg17 : Memref sig .tc .vmem S64x64 .bf16) (harg17 : arg17.IsWhole) (arg18 : Memref sig .tc .vmem S64x64 .bf16) (harg18 : arg18.IsWhole) (arg19 : Memref sig .tc .vmem S64x64 .bf16) (harg19 : arg19.IsWhole) (arg20 : Memref sig .tc .vmem S1x64 .f32) (harg20 : arg20.IsWhole) (arg21 : Memref sig .tc .vmem S1024x512 .bf16) (harg21 : arg21.IsWhole) (arg22 : Memref sig .tc .vmem S1024x512 .bf16) (harg22 : arg22.IsWhole) (arg23 : Memref sig .tc .vmem S1024x1 .f32) (harg23 : arg23.IsWhole) (arg24 : Memref sig .tc .vmem S1x8x128 .f32) (harg24 : arg24.IsWhole) (hc0 : cond0_0 i) (x0 : Vec F S1024x512 .f32) (x1 : Vec F S512x64 .bf16) (x2 : Vec F S1x64 .f32) (x3 : Vec F S64x64 .bf16) (x4 : Vec F S1x64 .f32) (x5 : Vec F S64x512 .bf16) (x6 : Vec F S1x512 .f32) (x7 : Vec F S64x64 .bf16) (x8 : Vec F S1x64 .f32) (x9 : Vec F S64x64 .bf16) (x10 : Vec F S1x64 .f32) (x11 : Vec F S1x64 .f32) (x12 : Vec F S1x1 .f32) (x13 : Vec F S64x512 .bf16) (x14 : Vec F S64x64 .bf16) (x15 : Vec F S64x64 .bf16) (x16 : Vec F S64x64 .bf16) (x17 : Vec F S64x64 .bf16) (x18 : Vec F S1x64 .f32) :
    out0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 = st21 x0 x1 x2 x3 x4 x5 x6 x7 x8 x9 x10 x11 x12 x13 x14 x15 x16 x17 x18 := by
  unfold out0_A_21
  rw [View.read_writes_eq_canon _ _ _ (cover0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1024x512) hz2, View.ld_unit_zero (S := S512x64) hz2, View.ld_unit_zero (S := S1x64) hz2, View.ld_unit_zero (S := S64x64) hz2, View.ld_unit_zero (S := S64x512) hz2, View.ld_unit_zero (S := S1x512) hz2, View.ld_unit_zero (S := S1x1) hz2]
  rfl

theorem outA22 (c : Dev nD) (i : grid0.Coords) (arg2 : Memref sig .tc .vmem S1024x512 .f32) (harg2 : arg2.IsWhole) (arg3 : Memref sig .tc .vmem S512x64 .bf16) (harg3 : arg3.IsWhole) (arg4 : Memref sig .tc .vmem S1x64 .f32) (harg4 : arg4.IsWhole) (arg5 : Memref sig .tc .vmem S64x64 .bf16) (harg5 : arg5.IsWhole) (arg6 : Memref sig .tc .vmem S1x64 .f32) (harg6 : arg6.IsWhole) (arg7 : Memref sig .tc .vmem S64x512 .bf16) (harg7 : arg7.IsWhole) (arg8 : Memref sig .tc .vmem S1x512 .f32) (harg8 : arg8.IsWhole) (arg9 : Memref sig .tc .vmem S64x64 .bf16) (harg9 : arg9.IsWhole) (arg10 : Memref sig .tc .vmem S1x64 .f32) (harg10 : arg10.IsWhole) (arg11 : Memref sig .tc .vmem S64x64 .bf16) (harg11 : arg11.IsWhole) (arg12 : Memref sig .tc .vmem S1x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S64x512 .bf16) (harg15 : arg15.IsWhole) (arg16 : Memref sig .tc .vmem S64x64 .bf16) (harg16 : arg16.IsWhole) (arg17 : Memref sig .tc .vmem S64x64 .bf16) (harg17 : arg17.IsWhole) (arg18 : Memref sig .tc .vmem S64x64 .bf16) (harg18 : arg18.IsWhole) (arg19 : Memref sig .tc .vmem S64x64 .bf16) (harg19 : arg19.IsWhole) (arg20 : Memref sig .tc .vmem S1x64 .f32) (harg20 : arg20.IsWhole) (arg21 : Memref sig .tc .vmem S1024x512 .bf16) (harg21 : arg21.IsWhole) (arg22 : Memref sig .tc .vmem S1024x512 .bf16) (harg22 : arg22.IsWhole) (arg23 : Memref sig .tc .vmem S1024x1 .f32) (harg23 : arg23.IsWhole) (arg24 : Memref sig .tc .vmem S1x8x128 .f32) (harg24 : arg24.IsWhole) (hc0 : cond0_0 i) (x0 : Vec F S1024x512 .f32) (x1 : Vec F S512x64 .bf16) (x2 : Vec F S1x64 .f32) (x3 : Vec F S64x64 .bf16) (x4 : Vec F S1x64 .f32) (x5 : Vec F S64x512 .bf16) (x6 : Vec F S1x512 .f32) (x7 : Vec F S64x64 .bf16) (x8 : Vec F S1x64 .f32) (x9 : Vec F S64x64 .bf16) (x10 : Vec F S1x64 .f32) (x11 : Vec F S1x64 .f32) (x12 : Vec F S1x1 .f32) (x13 : Vec F S64x512 .bf16) (x14 : Vec F S64x64 .bf16) (x15 : Vec F S64x64 .bf16) (x16 : Vec F S64x64 .bf16) (x17 : Vec F S64x64 .bf16) (x18 : Vec F S1x64 .f32) :
    out0_A_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 = st22 x0 x1 x2 x3 x4 x7 x8 x9 x10 x11 x13 x14 x15 x16 x17 x18 (k0_pay7 (F := F)) := by
  unfold out0_A_22
  rw [View.read_writes_eq_canon _ _ _ (cover0_A_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1024x512) hz2, View.ld_unit_zero (S := S512x64) hz2, View.ld_unit_zero (S := S1x64) hz2, View.ld_unit_zero (S := S64x64) hz2, View.ld_unit_zero (S := S64x512) hz2, View.ld_unit_zero (S := S1x512) hz2, View.ld_unit_zero (S := S1x1) hz2, harg24.read_unread, View.ld_unit_zero (S := S1x8x128) hz3]
  rfl

theorem outB19 (c : Dev nD) (i : grid0.Coords) (arg2 : Memref sig .tc .vmem S1024x512 .f32) (harg2 : arg2.IsWhole) (arg3 : Memref sig .tc .vmem S512x64 .bf16) (harg3 : arg3.IsWhole) (arg4 : Memref sig .tc .vmem S1x64 .f32) (harg4 : arg4.IsWhole) (arg5 : Memref sig .tc .vmem S64x64 .bf16) (harg5 : arg5.IsWhole) (arg6 : Memref sig .tc .vmem S1x64 .f32) (harg6 : arg6.IsWhole) (arg7 : Memref sig .tc .vmem S64x512 .bf16) (harg7 : arg7.IsWhole) (arg8 : Memref sig .tc .vmem S1x512 .f32) (harg8 : arg8.IsWhole) (arg9 : Memref sig .tc .vmem S64x64 .bf16) (harg9 : arg9.IsWhole) (arg10 : Memref sig .tc .vmem S1x64 .f32) (harg10 : arg10.IsWhole) (arg11 : Memref sig .tc .vmem S64x64 .bf16) (harg11 : arg11.IsWhole) (arg12 : Memref sig .tc .vmem S1x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S64x512 .bf16) (harg15 : arg15.IsWhole) (arg16 : Memref sig .tc .vmem S64x64 .bf16) (harg16 : arg16.IsWhole) (arg17 : Memref sig .tc .vmem S64x64 .bf16) (harg17 : arg17.IsWhole) (arg18 : Memref sig .tc .vmem S64x64 .bf16) (harg18 : arg18.IsWhole) (arg19 : Memref sig .tc .vmem S64x64 .bf16) (harg19 : arg19.IsWhole) (arg20 : Memref sig .tc .vmem S1x64 .f32) (harg20 : arg20.IsWhole) (arg21 : Memref sig .tc .vmem S1024x512 .bf16) (harg21 : arg21.IsWhole) (arg22 : Memref sig .tc .vmem S1024x512 .bf16) (harg22 : arg22.IsWhole) (arg23 : Memref sig .tc .vmem S1024x1 .f32) (harg23 : arg23.IsWhole) (arg24 : Memref sig .tc .vmem S1x8x128 .f32) (harg24 : arg24.IsWhole) (hc0 : ¬cond0_0 i) (x0 : Vec F S1024x512 .f32) (x1 : Vec F S512x64 .bf16) (x2 : Vec F S1x64 .f32) (x3 : Vec F S64x64 .bf16) (x4 : Vec F S1x64 .f32) (x5 : Vec F S64x512 .bf16) (x6 : Vec F S1x512 .f32) (x7 : Vec F S64x64 .bf16) (x8 : Vec F S1x64 .f32) (x9 : Vec F S64x64 .bf16) (x10 : Vec F S1x64 .f32) (x11 : Vec F S1x64 .f32) (x12 : Vec F S1x1 .f32) (x13 : Vec F S64x512 .bf16) (x14 : Vec F S64x64 .bf16) (x15 : Vec F S64x64 .bf16) (x16 : Vec F S64x64 .bf16) (x17 : Vec F S64x64 .bf16) (x18 : Vec F S1x64 .f32) (xo22 : Vec F S1x8x128 .f32) :
    out0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 xo22 = st19 x0 x1 x2 x3 x4 x5 x6 := by
  unfold out0_B_19
  rw [View.read_writes_eq_canon _ _ _ (cover0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 xo22)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1024x512) hz2, View.ld_unit_zero (S := S512x64) hz2, View.ld_unit_zero (S := S1x64) hz2, View.ld_unit_zero (S := S64x64) hz2, View.ld_unit_zero (S := S64x512) hz2, View.ld_unit_zero (S := S1x512) hz2, View.ld_unit_zero (S := S1x1) hz2]
  rfl

theorem outB20 (c : Dev nD) (i : grid0.Coords) (arg2 : Memref sig .tc .vmem S1024x512 .f32) (harg2 : arg2.IsWhole) (arg3 : Memref sig .tc .vmem S512x64 .bf16) (harg3 : arg3.IsWhole) (arg4 : Memref sig .tc .vmem S1x64 .f32) (harg4 : arg4.IsWhole) (arg5 : Memref sig .tc .vmem S64x64 .bf16) (harg5 : arg5.IsWhole) (arg6 : Memref sig .tc .vmem S1x64 .f32) (harg6 : arg6.IsWhole) (arg7 : Memref sig .tc .vmem S64x512 .bf16) (harg7 : arg7.IsWhole) (arg8 : Memref sig .tc .vmem S1x512 .f32) (harg8 : arg8.IsWhole) (arg9 : Memref sig .tc .vmem S64x64 .bf16) (harg9 : arg9.IsWhole) (arg10 : Memref sig .tc .vmem S1x64 .f32) (harg10 : arg10.IsWhole) (arg11 : Memref sig .tc .vmem S64x64 .bf16) (harg11 : arg11.IsWhole) (arg12 : Memref sig .tc .vmem S1x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S64x512 .bf16) (harg15 : arg15.IsWhole) (arg16 : Memref sig .tc .vmem S64x64 .bf16) (harg16 : arg16.IsWhole) (arg17 : Memref sig .tc .vmem S64x64 .bf16) (harg17 : arg17.IsWhole) (arg18 : Memref sig .tc .vmem S64x64 .bf16) (harg18 : arg18.IsWhole) (arg19 : Memref sig .tc .vmem S64x64 .bf16) (harg19 : arg19.IsWhole) (arg20 : Memref sig .tc .vmem S1x64 .f32) (harg20 : arg20.IsWhole) (arg21 : Memref sig .tc .vmem S1024x512 .bf16) (harg21 : arg21.IsWhole) (arg22 : Memref sig .tc .vmem S1024x512 .bf16) (harg22 : arg22.IsWhole) (arg23 : Memref sig .tc .vmem S1024x1 .f32) (harg23 : arg23.IsWhole) (arg24 : Memref sig .tc .vmem S1x8x128 .f32) (harg24 : arg24.IsWhole) (hc0 : ¬cond0_0 i) (x0 : Vec F S1024x512 .f32) (x1 : Vec F S512x64 .bf16) (x2 : Vec F S1x64 .f32) (x3 : Vec F S64x64 .bf16) (x4 : Vec F S1x64 .f32) (x5 : Vec F S64x512 .bf16) (x6 : Vec F S1x512 .f32) (x7 : Vec F S64x64 .bf16) (x8 : Vec F S1x64 .f32) (x9 : Vec F S64x64 .bf16) (x10 : Vec F S1x64 .f32) (x11 : Vec F S1x64 .f32) (x12 : Vec F S1x1 .f32) (x13 : Vec F S64x512 .bf16) (x14 : Vec F S64x64 .bf16) (x15 : Vec F S64x64 .bf16) (x16 : Vec F S64x64 .bf16) (x17 : Vec F S64x64 .bf16) (x18 : Vec F S1x64 .f32) (xo22 : Vec F S1x8x128 .f32) :
    out0_B_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 xo22 = st20 x0 x1 x2 x3 x4 x7 x8 x9 x10 x11 x13 x14 x15 x16 x17 x18 := by
  unfold out0_B_20
  rw [View.read_writes_eq_canon _ _ _ (cover0_B_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 xo22)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1024x512) hz2, View.ld_unit_zero (S := S512x64) hz2, View.ld_unit_zero (S := S1x64) hz2, View.ld_unit_zero (S := S64x64) hz2, View.ld_unit_zero (S := S64x512) hz2, View.ld_unit_zero (S := S1x512) hz2, View.ld_unit_zero (S := S1x1) hz2]
  rfl

theorem outB21 (c : Dev nD) (i : grid0.Coords) (arg2 : Memref sig .tc .vmem S1024x512 .f32) (harg2 : arg2.IsWhole) (arg3 : Memref sig .tc .vmem S512x64 .bf16) (harg3 : arg3.IsWhole) (arg4 : Memref sig .tc .vmem S1x64 .f32) (harg4 : arg4.IsWhole) (arg5 : Memref sig .tc .vmem S64x64 .bf16) (harg5 : arg5.IsWhole) (arg6 : Memref sig .tc .vmem S1x64 .f32) (harg6 : arg6.IsWhole) (arg7 : Memref sig .tc .vmem S64x512 .bf16) (harg7 : arg7.IsWhole) (arg8 : Memref sig .tc .vmem S1x512 .f32) (harg8 : arg8.IsWhole) (arg9 : Memref sig .tc .vmem S64x64 .bf16) (harg9 : arg9.IsWhole) (arg10 : Memref sig .tc .vmem S1x64 .f32) (harg10 : arg10.IsWhole) (arg11 : Memref sig .tc .vmem S64x64 .bf16) (harg11 : arg11.IsWhole) (arg12 : Memref sig .tc .vmem S1x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S64x512 .bf16) (harg15 : arg15.IsWhole) (arg16 : Memref sig .tc .vmem S64x64 .bf16) (harg16 : arg16.IsWhole) (arg17 : Memref sig .tc .vmem S64x64 .bf16) (harg17 : arg17.IsWhole) (arg18 : Memref sig .tc .vmem S64x64 .bf16) (harg18 : arg18.IsWhole) (arg19 : Memref sig .tc .vmem S64x64 .bf16) (harg19 : arg19.IsWhole) (arg20 : Memref sig .tc .vmem S1x64 .f32) (harg20 : arg20.IsWhole) (arg21 : Memref sig .tc .vmem S1024x512 .bf16) (harg21 : arg21.IsWhole) (arg22 : Memref sig .tc .vmem S1024x512 .bf16) (harg22 : arg22.IsWhole) (arg23 : Memref sig .tc .vmem S1024x1 .f32) (harg23 : arg23.IsWhole) (arg24 : Memref sig .tc .vmem S1x8x128 .f32) (harg24 : arg24.IsWhole) (hc0 : ¬cond0_0 i) (x0 : Vec F S1024x512 .f32) (x1 : Vec F S512x64 .bf16) (x2 : Vec F S1x64 .f32) (x3 : Vec F S64x64 .bf16) (x4 : Vec F S1x64 .f32) (x5 : Vec F S64x512 .bf16) (x6 : Vec F S1x512 .f32) (x7 : Vec F S64x64 .bf16) (x8 : Vec F S1x64 .f32) (x9 : Vec F S64x64 .bf16) (x10 : Vec F S1x64 .f32) (x11 : Vec F S1x64 .f32) (x12 : Vec F S1x1 .f32) (x13 : Vec F S64x512 .bf16) (x14 : Vec F S64x64 .bf16) (x15 : Vec F S64x64 .bf16) (x16 : Vec F S64x64 .bf16) (x17 : Vec F S64x64 .bf16) (x18 : Vec F S1x64 .f32) (xo22 : Vec F S1x8x128 .f32) :
    out0_B_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 xo22 = st21 x0 x1 x2 x3 x4 x5 x6 x7 x8 x9 x10 x11 x12 x13 x14 x15 x16 x17 x18 := by
  unfold out0_B_21
  rw [View.read_writes_eq_canon _ _ _ (cover0_B_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 xo22)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1024x512) hz2, View.ld_unit_zero (S := S512x64) hz2, View.ld_unit_zero (S := S1x64) hz2, View.ld_unit_zero (S := S64x64) hz2, View.ld_unit_zero (S := S64x512) hz2, View.ld_unit_zero (S := S1x512) hz2, View.ld_unit_zero (S := S1x1) hz2]
  rfl

theorem outB22 (c : Dev nD) (i : grid0.Coords) (arg2 : Memref sig .tc .vmem S1024x512 .f32) (harg2 : arg2.IsWhole) (arg3 : Memref sig .tc .vmem S512x64 .bf16) (harg3 : arg3.IsWhole) (arg4 : Memref sig .tc .vmem S1x64 .f32) (harg4 : arg4.IsWhole) (arg5 : Memref sig .tc .vmem S64x64 .bf16) (harg5 : arg5.IsWhole) (arg6 : Memref sig .tc .vmem S1x64 .f32) (harg6 : arg6.IsWhole) (arg7 : Memref sig .tc .vmem S64x512 .bf16) (harg7 : arg7.IsWhole) (arg8 : Memref sig .tc .vmem S1x512 .f32) (harg8 : arg8.IsWhole) (arg9 : Memref sig .tc .vmem S64x64 .bf16) (harg9 : arg9.IsWhole) (arg10 : Memref sig .tc .vmem S1x64 .f32) (harg10 : arg10.IsWhole) (arg11 : Memref sig .tc .vmem S64x64 .bf16) (harg11 : arg11.IsWhole) (arg12 : Memref sig .tc .vmem S1x64 .f32) (harg12 : arg12.IsWhole) (arg13 : Memref sig .tc .vmem S1x64 .f32) (harg13 : arg13.IsWhole) (arg14 : Memref sig .tc .vmem S1x1 .f32) (harg14 : arg14.IsWhole) (arg15 : Memref sig .tc .vmem S64x512 .bf16) (harg15 : arg15.IsWhole) (arg16 : Memref sig .tc .vmem S64x64 .bf16) (harg16 : arg16.IsWhole) (arg17 : Memref sig .tc .vmem S64x64 .bf16) (harg17 : arg17.IsWhole) (arg18 : Memref sig .tc .vmem S64x64 .bf16) (harg18 : arg18.IsWhole) (arg19 : Memref sig .tc .vmem S64x64 .bf16) (harg19 : arg19.IsWhole) (arg20 : Memref sig .tc .vmem S1x64 .f32) (harg20 : arg20.IsWhole) (arg21 : Memref sig .tc .vmem S1024x512 .bf16) (harg21 : arg21.IsWhole) (arg22 : Memref sig .tc .vmem S1024x512 .bf16) (harg22 : arg22.IsWhole) (arg23 : Memref sig .tc .vmem S1024x1 .f32) (harg23 : arg23.IsWhole) (arg24 : Memref sig .tc .vmem S1x8x128 .f32) (harg24 : arg24.IsWhole) (hc0 : ¬cond0_0 i) (x0 : Vec F S1024x512 .f32) (x1 : Vec F S512x64 .bf16) (x2 : Vec F S1x64 .f32) (x3 : Vec F S64x64 .bf16) (x4 : Vec F S1x64 .f32) (x5 : Vec F S64x512 .bf16) (x6 : Vec F S1x512 .f32) (x7 : Vec F S64x64 .bf16) (x8 : Vec F S1x64 .f32) (x9 : Vec F S64x64 .bf16) (x10 : Vec F S1x64 .f32) (x11 : Vec F S1x64 .f32) (x12 : Vec F S1x1 .f32) (x13 : Vec F S64x512 .bf16) (x14 : Vec F S64x64 .bf16) (x15 : Vec F S64x64 .bf16) (x16 : Vec F S64x64 .bf16) (x17 : Vec F S64x64 .bf16) (x18 : Vec F S1x64 .f32) (xo22 : Vec F S1x8x128 .f32) :
    out0_B_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 xo22 = st22 x0 x1 x2 x3 x4 x7 x8 x9 x10 x11 x13 x14 x15 x16 x17 x18 xo22 := by
  unfold out0_B_22
  rw [View.read_writes_eq_canon _ _ _ (cover0_B_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 xo22)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S1024x512) hz2, View.ld_unit_zero (S := S512x64) hz2, View.ld_unit_zero (S := S1x64) hz2, View.ld_unit_zero (S := S64x64) hz2, View.ld_unit_zero (S := S64x512) hz2, View.ld_unit_zero (S := S1x512) hz2, View.ld_unit_zero (S := S1x1) hz2, harg24.read_unread, View.ld_unit_zero (S := S1x8x128) hz3]
  rfl

end Cert.KernelIdeal.Region0

end
-- ==== Proof.Tile.lean ====
/-
  Row rr of tile t of the batch is row t·1024 + rr; the model's row (c, i, rr) is row rr of tile 16c + i.
-/
import proofs.«403450_j27376121545312_3_alg».proof.Proof.Model

namespace Cert.Lyap

/-- Row t·1024 + rr: row rr of the t-th tile of 1024 rows. -/
def tileRow (t : Fin 32) (rr : Fin 1024) : Fin 32768 :=
  ⟨t.val * 1024 + rr.val, by have := t.isLt; have := rr.isLt; omega⟩

/-- Tile i of half c is tile 16c + i. -/
def tileOf (c : Fin 2) (i : Fin 16) : Fin 32 := ⟨c.val * 16 + i.val, by have := c.isLt; have := i.isLt; omega⟩

theorem row_eq_tileRow (c : Fin 2) (i : Fin 16) (rr : Fin 1024) : row c i rr = tileRow (tileOf c i) rr := rfl

end Cert.Lyap
-- ==== Proof.KBodyFwd.lean ====
/-
  The first kernel's body, forward half, read at an index at the ideal instance: given what each loaded block holds
  (the tile's rows of x; the weights, whole), each intermediate of the body at row rr of tile t is the model's quantity at
  row t·1024 + rr: the two hidden layers, z, the Lyapunov network's two layers (through the folded weight products) and V.
  A matrix-unit product into a zero accumulator is the plain sum over the contracted axis, a lane reduction the sum
  over the lanes (from 0), a broadcast of a [1,n] row its entry, a change of float format the identity.
-/
import proofs.«403450_j27376121545312_3_alg».proof.Proof.Gen.KernelIdeal.Skeleton
import proofs.«403450_j27376121545312_3_alg».proof.Proof.Tile
import proofs.«403450_j27376121545312_3_alg».proof.Proof.Consts
import proofs.«403450_j27376121545312_3_alg».proof.Proof.LibDotPlain
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Idealize.ShloMosaic Idealize.ShloMosaic.ValueIdx Cert.KernelIdeal Cert.KernelIdeal.Gen Cert.Lyap

variable (I : Inp EReal) (t : Fin 32)

/-! ### The loads' re-shapes are identities -/
theorem pay8_eq (v : Vec Ideal S512x64 .bf16) : k0_pay8 (F := Ideal) v = v := by
  unfold k0_pay8; exact shapeCast_self _ _
theorem pay9_eq (v : Vec Ideal S1x64 .f32) : k0_pay9 (F := Ideal) v = v := by
  unfold k0_pay9; exact shapeCast_self _ _
theorem pay10_eq (v : Vec Ideal S64x64 .bf16) : k0_pay10 (F := Ideal) v = v := by
  unfold k0_pay10; exact shapeCast_self _ _
theorem pay11_eq (v : Vec Ideal S1x64 .f32) : k0_pay11 (F := Ideal) v = v := by
  unfold k0_pay11; exact shapeCast_self _ _
theorem pay12_eq (v : Vec Ideal S64x512 .bf16) : k0_pay12 (F := Ideal) v = v := by
  unfold k0_pay12; exact shapeCast_self _ _
theorem pay13_eq (v : Vec Ideal S1x512 .f32) : k0_pay13 (F := Ideal) v = v := by
  unfold k0_pay13; exact shapeCast_self _ _
theorem pay14_eq (v : Vec Ideal S64x64 .bf16) : k0_pay14 (F := Ideal) v = v := by
  unfold k0_pay14; exact shapeCast_self _ _
theorem pay15_eq (v : Vec Ideal S1x64 .f32) : k0_pay15 (F := Ideal) v = v := by
  unfold k0_pay15; exact shapeCast_self _ _
theorem pay16_eq (v : Vec Ideal S64x64 .bf16) : k0_pay16 (F := Ideal) v = v := by
  unfold k0_pay16; exact shapeCast_self _ _
theorem pay17_eq (v : Vec Ideal S1x64 .f32) : k0_pay17 (F := Ideal) v = v := by
  unfold k0_pay17; exact shapeCast_self _ _
theorem pay18_eq (v : Vec Ideal S1x64 .f32) : k0_pay18 (F := Ideal) v = v := by
  unfold k0_pay18; exact shapeCast_self _ _
theorem pay19_eq (v : Vec Ideal S1x1 .f32) : k0_pay19 (F := Ideal) v = v := by
  unfold k0_pay19; exact shapeCast_self _ _
theorem pay20_eq (v : Vec Ideal S64x512 .bf16) : k0_pay20 (F := Ideal) v = v := by
  unfold k0_pay20; exact shapeCast_self _ _
theorem pay21_eq (v : Vec Ideal S64x64 .bf16) : k0_pay21 (F := Ideal) v = v := by
  unfold k0_pay21; exact shapeCast_self _ _
theorem pay22_eq (v : Vec Ideal S64x64 .bf16) : k0_pay22 (F := Ideal) v = v := by
  unfold k0_pay22; exact shapeCast_self _ _
theorem pay23_eq (v : Vec Ideal S64x64 .bf16) : k0_pay23 (F := Ideal) v = v := by
  unfold k0_pay23; exact shapeCast_self _ _
theorem pay24_eq (v : Vec Ideal S64x64 .bf16) : k0_pay24 (F := Ideal) v = v := by
  unfold k0_pay24; exact shapeCast_self _ _
theorem pay25_eq (v : Vec Ideal S1x64 .f32) : k0_pay25 (F := Ideal) v = v := by
  unfold k0_pay25; exact shapeCast_self _ _
theorem pay32_eq (v : FVec Ideal S1x64 .f32) : k0_pay32 (F := Ideal) v = v := by
  unfold k0_pay32; exact shapeCast_self _ _

/-! ### The operations that are not pointwise, read at an index -/

/-- An [a] array cast to [a, 1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane reduction of a [1024, 64] array along its second axis is, at row r, the sum over the 64 lanes. -/
theorem red64_apply (src : FVec Ideal S1024x64 .f32) (h : S1024x64.Reduces [1] S1024) (hφ : FKind.Formats .f32)
    (hacc : (0x00000000#32 : BitVec 32) = 0x00000000#32) (r : Fin 1024) :
    multiReduction .add [1] S1024 src 0x00000000#32 h hφ hacc (ix1 r) = ∑ k : Fin 64, src (ix2 r k) := by
  refine (Ideal.multiReduction_add_single src 0x00000000#32 h hφ hacc (ix1 r)).trans ?_
  refine Finset.sum_congr rfl fun k _ => congrArg src ?_
  funext a
  match a with
  | ⟨0, _⟩ => exact Fin.ext rfl
  | ⟨1, _⟩ => exact Fin.ext rfl

/-- A lane reduction of a [1024, 512] array along its second axis is, at row r, the sum over the 512 lanes. -/
theorem red512_apply (src : FVec Ideal S1024x512 .f32) (h : S1024x512.Reduces [1] S1024) (hφ : FKind.Formats .f32)
    (hacc : (0x00000000#32 : BitVec 32) = 0x00000000#32) (r : Fin 1024) :
    multiReduction .add [1] S1024 src 0x00000000#32 h hφ hacc (ix1 r) = ∑ k : Fin 512, src (ix2 r k) := by
  refine (Ideal.multiReduction_add_single src 0x00000000#32 h hφ hacc (ix1 r)).trans ?_
  refine Finset.sum_congr rfl fun k _ => congrArg src ?_
  funext a
  match a with
  | ⟨0, _⟩ => exact Fin.ext rfl
  | ⟨1, _⟩ => exact Fin.ext rfl

/-- The [1024 × 512]·[512 × 64] product into a zero accumulator, at (r, s): the sum over the contracted axis. -/
theorem mm_512_64_apply (X : FVec Ideal S1024x512 .bf16) (Y : FVec Ideal S512x64 .bf16) (r : Fin 1024) (s : Fin 64) :
    matmul dot_S1024x512_S512x64_S1024x64_1_0_0_1_n_n none X Y (constant (F := Ideal) S1024x64 .f32 0x00000000#32) (ix2 r s)
      = ∑ j : Fin 512, X (ix2 r j) * Y (ix2 j s) :=
  (congrFun (DotPlain.matmul_zero_eq dot_S1024x512_S512x64_S1024x64_1_0_0_1_n_n rfl rfl rfl rfl rfl rfl none X Y) (ix2 r s)).trans
    (MatProd.mmP_apply X Y r s)

/-- The [1024 × 64]·[64 × 64] product into a zero accumulator, at (r, s). -/
theorem mm_64_64_apply (X : FVec Ideal S1024x64 .bf16) (Y : FVec Ideal S64x64 .bf16) (r : Fin 1024) (s : Fin 64) :
    matmul dot_S1024x64_S64x64_S1024x64_1_0_0_1_n_n none X Y (constant (F := Ideal) S1024x64 .f32 0x00000000#32) (ix2 r s)
      = ∑ j : Fin 64, X (ix2 r j) * Y (ix2 j s) :=
  (congrFun (DotPlain.matmul_zero_eq dot_S1024x64_S64x64_S1024x64_1_0_0_1_n_n rfl rfl rfl rfl rfl rfl none X Y) (ix2 r s)).trans
    (MatProd.mmP_apply X Y r s)

/-- The [1024 × 64]·[64 × 512] product into a zero accumulator, at (r, s). -/
theorem mm_64_512_apply (X : FVec Ideal S1024x64 .bf16) (Y : FVec Ideal S64x512 .bf16) (r : Fin 1024) (s : Fin 512) :
    matmul dot_S1024x64_S64x512_S1024x512_1_0_0_1_n_n none X Y (constant (F := Ideal) S1024x512 .f32 0x00000000#32) (ix2 r s)
      = ∑ j : Fin 64, X (ix2 r j) * Y (ix2 j s) :=
  (congrFun (DotPlain.matmul_zero_eq dot_S1024x64_S64x512_S1024x512_1_0_0_1_n_n rfl rfl rfl rfl rfl rfl none X Y) (ix2 r s)).trans
    (MatProd.mmP_apply X Y r s)

/-- The scalar literal 0.0 is the real number 0. -/
theorem scalar_zero : (Scalar.ofBits .f32 0x00000000#32 : Ideal .f32) = 0 :=
  (show (Scalar.ofBits .f32 0x00000000#32 : Ideal .f32) = Ideal.ofBits .f32 0x00000000#32 from rfl).trans Consts.ofBits_zero

/-! ### The forward pass at row rr of tile t -/

variable (v3 : Vec Ideal S1024x512 .f32) (v5 : FVec Ideal S512x64 .bf16) (v7 : FVec Ideal S1x64 .f32)
  (v9 : FVec Ideal S64x64 .bf16) (v11 : FVec Ideal S1x64 .f32) (v13 : FVec Ideal S64x512 .bf16) (v15 : FVec Ideal S1x512 .f32)
  (v17 : FVec Ideal S64x64 .bf16) (v19 : FVec Ideal S1x64 .f32) (v21 : FVec Ideal S64x64 .bf16) (v23 : FVec Ideal S1x64 .f32)

/-- relu(x·W1 + b1). -/
theorem pay26_apply (h3 : ∀ (rr : Fin 1024) (d : Fin 512), v3 (ix2 rr d) = I.x (tileRow t rr) d)
    (h5 : ∀ (d : Fin 512) (k : Fin 64), v5 (ix2 d k) = I.W1 d k) (h7 : ∀ k : Fin 64, v7 (ix2 0 k) = I.b1 k)
    (rr : Fin 1024) (k : Fin 64) : k0_pay26 (F := Ideal) v3 v5 v7 (ix2 rr k) = h1 I (tileRow t rr) k := by
  unfold k0_pay26
  simp only [maximumf_apply, addf_apply, broadcast_apply, mm_512_64_apply, broadcastTo_1b_ab_apply, truncf_apply, h3, h5, h7,
    scalar_zero]
  rfl

/-- relu(h1·W2 + b2). -/
theorem pay27_apply (h3 : ∀ (rr : Fin 1024) (d : Fin 512), v3 (ix2 rr d) = I.x (tileRow t rr) d)
    (h5 : ∀ (d : Fin 512) (k : Fin 64), v5 (ix2 d k) = I.W1 d k) (h7 : ∀ k : Fin 64, v7 (ix2 0 k) = I.b1 k)
    (h9 : ∀ (j k : Fin 64), v9 (ix2 j k) = I.W2 j k) (h11 : ∀ k : Fin 64, v11 (ix2 0 k) = I.b2 k)
    (rr : Fin 1024) (k : Fin 64) : k0_pay27 (F := Ideal) v3 v5 v7 v9 v11 (ix2 rr k) = h2 I (tileRow t rr) k := by
  unfold k0_pay27
  simp only [maximumf_apply, addf_apply, broadcast_apply, mm_64_64_apply, broadcastTo_1b_ab_apply, truncf_apply,
    pay26_apply I t v3 v5 v7 h3 h5 h7, h9, h11, scalar_zero]
  rfl

/-- The same in the matrix unit's input format. -/
theorem pay28_apply (h3 : ∀ (rr : Fin 1024) (d : Fin 512), v3 (ix2 rr d) = I.x (tileRow t rr) d)
    (h5 : ∀ (d : Fin 512) (k : Fin 64), v5 (ix2 d k) = I.W1 d k) (h7 : ∀ k : Fin 64, v7 (ix2 0 k) = I.b1 k)
    (h9 : ∀ (j k : Fin 64), v9 (ix2 j k) = I.W2 j k) (h11 : ∀ k : Fin 64, v11 (ix2 0 k) = I.b2 k)
    (rr : Fin 1024) (k : Fin 64) : k0_pay28 (F := Ideal) v3 v5 v7 v9 v11 (ix2 rr k) = h2 I (tileRow t rr) k := by
  unfold k0_pay28
  rw [truncf_apply]
  exact pay27_apply I t v3 v5 v7 v9 v11 h3 h5 h7 h9 h11 rr k

/-- z = h2·W3 + b3. -/
theorem pay29_apply (h3 : ∀ (rr : Fin 1024) (d : Fin 512), v3 (ix2 rr d) = I.x (tileRow t rr) d)
    (h5 : ∀ (d : Fin 512) (k : Fin 64), v5 (ix2 d k) = I.W1 d k) (h7 : ∀ k : Fin 64, v7 (ix2 0 k) = I.b1 k)
    (h9 : ∀ (j k : Fin 64), v9 (ix2 j k) = I.W2 j k) (h11 : ∀ k : Fin 64, v11 (ix2 0 k) = I.b2 k)
    (h13 : ∀ (k : Fin 64) (d : Fin 512), v13 (ix2 k d) = I.W3 k d) (h15 : ∀ d : Fin 512, v15 (ix2 0 d) = I.b3 d)
    (rr : Fin 1024) (d : Fin 512) : k0_pay29 (F := Ideal) v3 v5 v7 v9 v11 v13 v15 (ix2 rr d) = z I (tileRow t rr) d := by
  unfold k0_pay29
  simp only [addf_apply, mm_64_512_apply, broadcastTo_1b_ab_apply,
    pay28_apply I t v3 v5 v7 v9 v11 h3 h5 h7 h9 h11, h13, h15]
  rfl

/-- relu(h2·(W3·V1) + (b3·V1 + c1)). -/
theorem pay30_apply (h3 : ∀ (rr : Fin 1024) (d : Fin 512), v3 (ix2 rr d) = I.x (tileRow t rr) d)
    (h5 : ∀ (d : Fin 512) (k : Fin 64), v5 (ix2 d k) = I.W1 d k) (h7 : ∀ k : Fin 64, v7 (ix2 0 k) = I.b1 k)
    (h9 : ∀ (j k : Fin 64), v9 (ix2 j k) = I.W2 j k) (h11 : ∀ k : Fin 64, v11 (ix2 0 k) = I.b2 k)
    (h17 : ∀ (k j : Fin 64), v17 (ix2 k j) = W3V1 I k j) (h19 : ∀ j : Fin 64, v19 (ix2 0 j) = bfK I j)
    (rr : Fin 1024) (j : Fin 64) : k0_pay30 (F := Ideal) v3 v5 v7 v9 v11 v17 v19 (ix2 rr j) = g1K I (tileRow t rr) j := by
  unfold k0_pay30
  simp only [maximumf_apply, addf_apply, broadcast_apply, mm_64_64_apply, broadcastTo_1b_ab_apply,
    pay28_apply I t v3 v5 v7 v9 v11 h3 h5 h7 h9 h11, h17, h19, scalar_zero]
  rfl

/-- relu(g1·V2 + c2). -/
theorem pay31_apply (h3 : ∀ (rr : Fin 1024) (d : Fin 512), v3 (ix2 rr d) = I.x (tileRow t rr) d)
    (h5 : ∀ (d : Fin 512) (k : Fin 64), v5 (ix2 d k) = I.W1 d k) (h7 : ∀ k : Fin 64, v7 (ix2 0 k) = I.b1 k)
    (h9 : ∀ (j k : Fin 64), v9 (ix2 j k) = I.W2 j k) (h11 : ∀ k : Fin 64, v11 (ix2 0 k) = I.b2 k)
    (h17 : ∀ (k j : Fin 64), v17 (ix2 k j) = W3V1 I k j) (h19 : ∀ j : Fin 64, v19 (ix2 0 j) = bfK I j)
    (h21 : ∀ (i j : Fin 64), v21 (ix2 i j) = I.V2 i j) (h23 : ∀ j : Fin 64, v23 (ix2 0 j) = I.c2 j)
    (rr : Fin 1024) (j : Fin 64) :
    k0_pay31 (F := Ideal) v3 v5 v7 v9 v11 v17 v19 v21 v23 (ix2 rr j) = g2K I (tileRow t rr) j := by
  unfold k0_pay31
  simp only [maximumf_apply, addf_apply, broadcast_apply, mm_64_64_apply, broadcastTo_1b_ab_apply, truncf_apply,
    pay30_apply I t v3 v5 v7 v9 v11 v17 v19 h3 h5 h7 h9 h11 h17 h19, h21, h23, scalar_zero]
  rfl

/-- V = g2·V3 + c3 + e·‖z‖², from the body's z and g2 and the row of V3. -/
theorem pay33_apply (v27 : FVec Ideal S1x1 .f32) (v55 : FVec Ideal S1024x512 .f32) (v66 : FVec Ideal S1024x64 .f32)
    (v67 : FVec Ideal S1x64 .f32)
    (h27 : v27 (ix2 0 0) = I.c3) (h55 : ∀ (rr : Fin 1024) (d : Fin 512), v55 (ix2 rr d) = z I (tileRow t rr) d)
    (h66 : ∀ (rr : Fin 1024) (j : Fin 64), v66 (ix2 rr j) = g2K I (tileRow t rr) j)
    (h67 : ∀ j : Fin 64, v67 (ix2 0 j) = I.V3 j) (he : I.e = Ideal.ofBits .f32 0x3A83126F#32)
    (rr : Fin 1024) : k0_pay33 (F := Ideal) v27 v55 v66 v67 (ix2 rr 0) = lyapK I (tileRow t rr) := by
  unfold k0_pay33
  simp only [addf_apply, mulf_apply, broadcast_apply, shapeCast_a_a1_apply, broadcastTo_1b_ab_apply, h27]
  refine (congrArg₂ (fun a b : EReal => a + I.c3 + Ideal.ofBits .f32 0x3A83126F#32 * b)
    (red64_apply _ _ _ _ rr) (red512_apply _ _ _ _ rr)).trans ?_
  simp only [mulf_apply, broadcastTo_1b_ab_apply, h55, h66, h67]
  rw [← he]
  rfl

end Cert.KernelIdeal.BodyValue

end
-- ==== Proof.KBodyBwd.lean ====
/-
  The first kernel's body, backward half, and the second kernel's body, read at an index at the ideal instance: the
  cotangent pushed back through the five layers (a select on "the relu's output is positive" is the model's 'if'), the
  gradient gv, its row sum of squares, the numerator relu(‖gv‖² + a·V), the tile's contribution to the denominator
  added into the running block, and the final combine z − (num·(1/den))·gv.
-/
import proofs.«403450_j27376121545312_3_alg».proof.Proof.Gen.KernelIdeal.Skeleton
import proofs.«403450_j27376121545312_3_alg».proof.Proof.Tile
import proofs.«403450_j27376121545312_3_alg».proof.Proof.Consts
import proofs.«403450_j27376121545312_3_alg».proof.Proof.LibDotPlain
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Idealize.ShloMosaic Idealize.ShloMosaic.ValueIdx Cert.KernelIdeal Cert.KernelIdeal.Gen Cert.Lyap

/-! ### Tools: a mask, the layout changes and the two reductions, read at an index -/

/-- A select on "v is positive" against the zero splat, read at an index, is the if-then-else on 0 < v. -/
private theorem sel_pos_apply {s : Shape} (v a : FVec Ideal s .f32) (i : s.Idx) :
    select (cmpf .ogt v (broadcast s (Scalar.ofBits (F := Ideal) .f32 0x00000000#32))) a
      (broadcast s (Scalar.ofBits (F := Ideal) .f32 0x00000000#32)) i = if 0 < v i then a i else 0 := by
  rw [select_apply, cmpf_apply, broadcast_apply]
  show Scalar.select (Ideal.cmp .ogt (v i) (Ideal.ofBits .f32 0x00000000#32)) (a i) (Ideal.ofBits .f32 0x00000000#32) = _
  rw [Ideal.ofBits_zero_f32]
  by_cases h : 0 < v i
  · rw [if_pos h]
    have hc : Ideal.cmp .ogt (v i) 0 = 1#1 := by simp [Ideal.cmp, h]
    rw [hc, select_one]
  · rw [if_neg h]
    have hc : Ideal.cmp .ogt (v i) 0 = 0#1 := by simp [Ideal.cmp, h]
    rw [hc, select_zero]

/-- An [a] array cast to [a, 1] reads, at (r, u), the operand at r. -/
private theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A [1, 1] array broadcast to [a, b] reads its one entry everywhere. -/
private theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- An [a, 1] column broadcast to [a, b] reads, at (p, c), the column's entry at p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index r with lane k put back is (r, k). -/
private theorem lift_lane {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The reduced index u with row k put back is (k, u). -/
private theorem lift_row {a b : ℕ} (h : (⟨2, ![a, b]⟩ : Shape).Reduces [0] (⟨1, ![b]⟩ : Shape)) (u : Fin b)
    (k : Fin ((⟨2, ![a, b]⟩ : Shape).size 0)) : h.lift (ix1 u) k = ix2 (⟨k.val, k.isLt⟩ : Fin a) u := by
  funext c; apply Fin.ext
  fin_cases c <;> rfl

/-- A lane sum from the zero pattern, read at row r: the sum over the lanes. -/
private theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  show (∑ k : Fin b, src (h.lift (ix1 r) k)) = _
  exact Finset.sum_congr rfl fun k _ => congrArg src (lift_lane h r k)

/-- A sum over the rows from the zero pattern, read at column u: the sum over the rows. -/
private theorem rowSum_apply {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (u : Fin b) :
    multiReduction (F := Ideal) .add [0] ⟨1, ![b]⟩ src 0x00000000#32 h hφ hacc (ix1 u) = ∑ k : Fin a, src (ix2 k u) := by
  refine (Ideal.multiReduction_add_single src 0x00000000#32 h hφ hacc (ix1 u)).trans ?_
  show (∑ k : Fin a, src (h.lift (ix1 u) k)) = _
  exact Finset.sum_congr rfl fun k _ => congrArg src (lift_row h u k)

/-- The matrix unit's [1024 × 64]·[64 × 64] product into the zero splat, read at (r, s): the sum over the contracted axis. -/
private theorem mm64_apply (X : FVec Ideal S1024x64 .bf16) (Y : FVec Ideal S64x64 .bf16) (r : Fin 1024) (s : Fin 64) :
    matmul dot_S1024x64_S64x64_S1024x64_1_0_0_1_n_n none X Y (constant (F := Ideal) S1024x64 .f32 0x00000000#32) (ix2 r s)
      = ∑ j : Fin 64, X (ix2 r j) * Y (ix2 j s) := by
  show FloatOps.matmul dot_S1024x64_S64x64_S1024x64_1_0_0_1_n_n none X Y
      (constant (F := Ideal) ⟨2, ![1024, 64]⟩ .f32 0x00000000#32) (ix2 r s) = _
  rw [DotPlain.matmul_zero_eq dot_S1024x64_S64x64_S1024x64_1_0_0_1_n_n rfl rfl rfl rfl rfl rfl none X Y]
  rfl

/-- The matrix unit's [1024 × 64]·[64 × 512] product into the zero splat, read at (r, s): the sum over the contracted axis. -/
private theorem mm512_apply (X : FVec Ideal S1024x64 .bf16) (Y : FVec Ideal S64x512 .bf16) (r : Fin 1024) (s : Fin 512) :
    matmul dot_S1024x64_S64x512_S1024x512_1_0_0_1_n_n none X Y (constant (F := Ideal) S1024x512 .f32 0x00000000#32) (ix2 r s)
      = ∑ j : Fin 64, X (ix2 r j) * Y (ix2 j s) := by
  show FloatOps.matmul dot_S1024x64_S64x512_S1024x512_1_0_0_1_n_n none X Y
      (constant (F := Ideal) ⟨2, ![1024, 512]⟩ .f32 0x00000000#32) (ix2 r s) = _
  rw [DotPlain.matmul_zero_eq dot_S1024x64_S64x512_S1024x512_1_0_0_1_n_n rfl rfl rfl rfl rfl rfl none X Y]
  rfl

variable (I : Inp EReal) (t : Fin 32)

variable (v25 : FVec Ideal S1x64 .f32) (v31 : FVec Ideal S64x64 .bf16) (v33 : FVec Ideal S64x64 .bf16)
  (v35 : FVec Ideal S64x64 .bf16) (v37 : FVec Ideal S64x64 .bf16) (v39 : FVec Ideal S1x64 .f32)
  (v45 : FVec Ideal S1024x64 .f32) (v51 : FVec Ideal S1024x64 .f32) (v52 : FVec Ideal S1024x64 .bf16)
  (v60 : FVec Ideal S1024x64 .f32) (v66 : FVec Ideal S1024x64 .f32)
  (v29 : FVec Ideal S64x512 .bf16) (v110 : FVec Ideal S1024x64 .bf16) (cst_62 : FVec Ideal S1024x512 .f32)

/-- The cotangent of the first hidden layer's pre-activation, in the matrix unit's input format. -/
theorem pay34_apply (h25 : ∀ j : Fin 64, v25 (ix2 0 j) = I.V3 j)
    (h31 : ∀ (k j : Fin 64), v31 (ix2 k j) = I.W2 j k) (h33 : ∀ (j i : Fin 64), v33 (ix2 j i) = I.V2 i j)
    (h35 : ∀ (i k : Fin 64), v35 (ix2 i k) = W3V1 I k i) (h37 : ∀ (k' k : Fin 64), v37 (ix2 k' k) = W3W3T I k' k)
    (h39 : ∀ k : Fin 64, v39 (ix2 0 k) = b3W3T I k)
    (h45 : ∀ (rr : Fin 1024) (k : Fin 64), v45 (ix2 rr k) = h1 I (tileRow t rr) k)
    (h51 : ∀ (rr : Fin 1024) (k : Fin 64), v51 (ix2 rr k) = h2 I (tileRow t rr) k)
    (h52 : ∀ (rr : Fin 1024) (k : Fin 64), v52 (ix2 rr k) = h2 I (tileRow t rr) k)
    (h60 : ∀ (rr : Fin 1024) (j : Fin 64), v60 (ix2 rr j) = g1K I (tileRow t rr) j)
    (h66 : ∀ (rr : Fin 1024) (j : Fin 64), v66 (ix2 rr j) = g2K I (tileRow t rr) j)
    (he2 : I.e2 = Ideal.ofBits .f32 0x3B03126F#32) (rr : Fin 1024) (j : Fin 64) :
    k0_pay34 (F := Ideal) v25 v31 v33 v35 v37 v39 v45 v51 v52 v60 v66 (ix2 rr j) = gh1K I (tileRow t rr) j := by
  unfold k0_pay34
  simp only [truncf_apply, sel_pos_apply, mm64_apply, addf_apply, mulf_apply, broadcast_apply,
    broadcastTo_1b_ab_apply, shapeCast_self, h25, h31, h33, h35, h37, h39, h45, h51, h52, h60, h66]
  unfold gh1K gh2K q1K q2K
  rw [he2]
  rfl

/-- gv = (that cotangent)·W1ᵀ. -/
theorem pay1_apply (h29 : ∀ (j : Fin 64) (d : Fin 512), v29 (ix2 j d) = I.W1 d j)
    (h110 : ∀ (rr : Fin 1024) (j : Fin 64), v110 (ix2 rr j) = gh1K I (tileRow t rr) j)
    (hc : cst_62 = constant (F := Ideal) S1024x512 .f32 0x00000000#32) (rr : Fin 1024) (d : Fin 512) :
    k0_pay1 (F := Ideal) v29 v110 cst_62 (ix2 rr d) = gvK I (tileRow t rr) d := by
  subst hc
  unfold k0_pay1
  simp only [mm512_apply, h29, h110]
  rfl

/-- The stored z: a change of float format. -/
theorem pay4_eq (v55 : FVec Ideal S1024x512 .f32) : k0_pay4 (F := Ideal) v55 = v55 := by
  rfl

/-- The stored gv: a change of float format. -/
theorem pay5_apply (h29 : ∀ (j : Fin 64) (d : Fin 512), v29 (ix2 j d) = I.W1 d j)
    (h110 : ∀ (rr : Fin 1024) (j : Fin 64), v110 (ix2 rr j) = gh1K I (tileRow t rr) j)
    (hc : cst_62 = constant (F := Ideal) S1024x512 .f32 0x00000000#32) (rr : Fin 1024) (d : Fin 512) :
    k0_pay5 (F := Ideal) v29 v110 cst_62 (ix2 rr d) = gvK I (tileRow t rr) d := by
  unfold k0_pay5
  rw [truncf_apply]
  exact pay1_apply I t v29 v110 cst_62 h29 h110 hc rr d

/-- ‖gv‖² of a row. -/
theorem pay2_apply (h29 : ∀ (j : Fin 64) (d : Fin 512), v29 (ix2 j d) = I.W1 d j)
    (h110 : ∀ (rr : Fin 1024) (j : Fin 64), v110 (ix2 rr j) = gh1K I (tileRow t rr) j)
    (hc : cst_62 = constant (F := Ideal) S1024x512 .f32 0x00000000#32) (rr : Fin 1024) :
    k0_pay2 (F := Ideal) v29 v110 cst_62 (ix2 rr 0) = dotK I (tileRow t rr) := by
  unfold k0_pay2
  dsimp only
  refine (shapeCast_a_a1_apply _ _ rr 0).trans ?_
  refine (laneSum_apply _ _ _ _ rr).trans ?_
  simp only [mulf_apply, pay1_apply I t v29 v110 cst_62 h29 h110 hc]
  rfl

/-- The numerator relu(‖gv‖² + a·V) of a row. -/
theorem pay3_apply (v79 : FVec Ideal S1024x1 .f32) (h29 : ∀ (j : Fin 64) (d : Fin 512), v29 (ix2 j d) = I.W1 d j)
    (h79 : ∀ rr : Fin 1024, v79 (ix2 rr 0) = lyapK I (tileRow t rr))
    (h110 : ∀ (rr : Fin 1024) (j : Fin 64), v110 (ix2 rr j) = gh1K I (tileRow t rr) j)
    (hc : cst_62 = constant (F := Ideal) S1024x512 .f32 0x00000000#32) (ha : I.a = Ideal.ofBits .f32 0x3F666666#32)
    (rr : Fin 1024) : k0_pay3 (F := Ideal) v29 v79 v110 cst_62 (ix2 rr 0) = numK I (tileRow t rr) := by
  unfold k0_pay3
  simp only [maximumf_apply, addf_apply, mulf_apply, broadcast_apply, Ideal.ofBits_def, Consts.ofBits_zero,
    pay2_apply I t v29 v110 cst_62 h29 h110 hc, h79, ← ha]
  rfl

/-- The running denominator block after this tile: what it held, plus the tile's 1024 row sums, at every entry. -/
theorem pay6_apply (v129 : Vec Ideal S1x8x128 .f32) (h29 : ∀ (j : Fin 64) (d : Fin 512), v29 (ix2 j d) = I.W1 d j)
    (h110 : ∀ (rr : Fin 1024) (j : Fin 64), v110 (ix2 rr j) = gh1K I (tileRow t rr) j)
    (hc : cst_62 = constant (F := Ideal) S1024x512 .f32 0x00000000#32) (i : Fin 8) (j : Fin 128) :
    k0_pay6 (F := Ideal) v29 v110 cst_62 v129 (ix3 0 i j) = v129 (ix3 0 i j) + ∑ rr : Fin 1024, dotK I (tileRow t rr) := by
  unfold k0_pay6
  dsimp only
  refine (shapeCast_ab_1ab_apply _ _ 0 i j).trans ?_
  rw [addf_apply]
  refine congrArg₂ (· + ·) (shapeCast_1ab_ab_apply _ _ i j) ?_
  refine (broadcastTo_11_ab_apply _ _ i j).trans ?_
  rw [shapeCast_self]
  refine (shapeCast_a_1a_apply _ _ 0 0).trans ?_
  refine (rowSum_apply _ _ _ _ 0).trans ?_
  exact Finset.sum_congr rfl fun k _ => pay2_apply I t v29 v110 cst_62 h29 h110 hc k

/-- The reset of the running denominator block: zero at every entry. -/
theorem pay7_apply (i : Fin 8) (j : Fin 128) : k0_pay7 (F := Ideal) (ix3 0 i j) = 0 := by
  unfold k0_pay7
  refine (shapeCast_ab_1ab_apply _ _ 0 i j).trans ?_
  rw [broadcast_apply]
  exact Consts.ofBits_zero

/-- The second kernel's body: z − (num·(1/den))·gv, entry by entry of a tile. -/
theorem k1_pay1_apply (v0 : Vec Ideal S1024x512 .bf16) (v3 : Vec Ideal S1024x512 .bf16) (v6 : Vec Ideal S1024x1 .f32)
    (v8 : Vec Ideal S1x1 .f32) (rr : Fin 1024) (d : Fin 512) :
    k1_pay1 (F := Ideal) v0 v3 v6 v8 (ix2 rr d)
      = v0 (ix2 rr d) - (v6 (ix2 rr 0) * Ideal.div 1 (v8 (ix2 0 0))) * v3 (ix2 rr d) := by
  unfold k1_pay1
  simp only [subf_apply, mulf_apply, extf_apply, shapeCast_self, broadcastTo_a1_ab_apply, broadcastTo_1b_ab_apply,
    divf_apply, broadcast_apply, Ideal.ofBits_def, Consts.ofBits_one]

end Cert.KernelIdeal.BodyValue

end
-- ==== Proof.KStoredValue.lean ====
/-
  What the first kernel's body stores, read at an index against the model: given what each of the point's nineteen input
  blocks holds (the tile's rows of x; the weights and the host's weight products, whole), the stored z, gv and numerator
  of row rr of tile t are the model's at row t·1024 + rr, and the stored denominator block is its earlier contents plus
  the tile's sum of ‖gv‖² at every entry.
-/
import proofs.«403450_j27376121545312_3_alg».proof.Proof.KStored
import proofs.«403450_j27376121545312_3_alg».proof.Proof.KBodyFwd
import proofs.«403450_j27376121545312_3_alg».proof.Proof.KBodyBwd

noncomputable section

namespace Cert.KernelIdeal.Region0

open Idealize.ShloMosaic Idealize.ShloMosaic.ValueIdx Cert.KernelIdeal Cert.KernelIdeal.Gen Cert.KernelIdeal.BodyValue Cert.Lyap

variable (I : Inp EReal) (t : Fin 32)
variable (x0 : Vec Ideal S1024x512 .f32) (x1 : Vec Ideal S512x64 .bf16) (x2 : Vec Ideal S1x64 .f32) (x3 : Vec Ideal S64x64 .bf16) (x4 : Vec Ideal S1x64 .f32) (x5 : Vec Ideal S64x512 .bf16) (x6 : Vec Ideal S1x512 .f32) (x7 : Vec Ideal S64x64 .bf16) (x8 : Vec Ideal S1x64 .f32) (x9 : Vec Ideal S64x64 .bf16) (x10 : Vec Ideal S1x64 .f32) (x11 : Vec Ideal S1x64 .f32) (x12 : Vec Ideal S1x1 .f32) (x13 : Vec Ideal S64x512 .bf16) (x14 : Vec Ideal S64x64 .bf16) (x15 : Vec Ideal S64x64 .bf16) (x16 : Vec Ideal S64x64 .bf16) (x17 : Vec Ideal S64x64 .bf16) (x18 : Vec Ideal S1x64 .f32)

theorem st19_apply (h0 : ∀ (rr : Fin 1024) (d : Fin 512), x0 (ix2 rr d) = I.x (tileRow t rr) d)
    (h1 : ∀ (d : Fin 512) (k : Fin 64), x1 (ix2 d k) = I.W1 d k)
    (h2 : ∀ k : Fin 64, x2 (ix2 0 k) = I.b1 k)
    (h3 : ∀ (j k : Fin 64), x3 (ix2 j k) = I.W2 j k)
    (h4 : ∀ k : Fin 64, x4 (ix2 0 k) = I.b2 k)
    (h5 : ∀ (k : Fin 64) (d : Fin 512), x5 (ix2 k d) = I.W3 k d)
    (h6 : ∀ d : Fin 512, x6 (ix2 0 d) = I.b3 d)
    (rr : Fin 1024) (d : Fin 512) : st19 (F := Ideal) x0 x1 x2 x3 x4 x5 x6 (ix2 rr d) = z I (tileRow t rr) d := by
  unfold st19 sZ
  simp only [pay4_eq, pay8_eq, pay9_eq, pay10_eq, pay11_eq, pay12_eq, pay13_eq, pay14_eq, pay15_eq, pay16_eq, pay17_eq, pay18_eq, pay19_eq,
    pay20_eq, pay21_eq, pay22_eq, pay23_eq, pay24_eq, pay25_eq, pay32_eq]
  exact pay29_apply I t x0 x1 x2 x3 x4 x5 x6 h0 h1 h2 h3 h4 h5 h6 rr d

theorem st20_apply (h0 : ∀ (rr : Fin 1024) (d : Fin 512), x0 (ix2 rr d) = I.x (tileRow t rr) d)
    (h1 : ∀ (d : Fin 512) (k : Fin 64), x1 (ix2 d k) = I.W1 d k)
    (h2 : ∀ k : Fin 64, x2 (ix2 0 k) = I.b1 k)
    (h3 : ∀ (j k : Fin 64), x3 (ix2 j k) = I.W2 j k)
    (h4 : ∀ k : Fin 64, x4 (ix2 0 k) = I.b2 k)
    (h7 : ∀ (k j : Fin 64), x7 (ix2 k j) = W3V1 I k j)
    (h8 : ∀ j : Fin 64, x8 (ix2 0 j) = bfK I j)
    (h9 : ∀ (i j : Fin 64), x9 (ix2 i j) = I.V2 i j)
    (h10 : ∀ j : Fin 64, x10 (ix2 0 j) = I.c2 j)
    (h11 : ∀ j : Fin 64, x11 (ix2 0 j) = I.V3 j)
    (h13 : ∀ (j : Fin 64) (d : Fin 512), x13 (ix2 j d) = I.W1 d j)
    (h14 : ∀ (k j : Fin 64), x14 (ix2 k j) = I.W2 j k)
    (h15 : ∀ (j i : Fin 64), x15 (ix2 j i) = I.V2 i j)
    (h16 : ∀ (i k : Fin 64), x16 (ix2 i k) = W3V1 I k i)
    (h17 : ∀ (k' k : Fin 64), x17 (ix2 k' k) = W3W3T I k' k)
    (h18 : ∀ k : Fin 64, x18 (ix2 0 k) = b3W3T I k)
    (he2 : I.e2 = Ideal.ofBits .f32 0x3B03126F#32)
    (rr : Fin 1024) (d : Fin 512) :
    st20 (F := Ideal) x0 x1 x2 x3 x4 x7 x8 x9 x10 x11 x13 x14 x15 x16 x17 x18 (ix2 rr d) = gvK I (tileRow t rr) d := by
  unfold st20 sGh1 sH1 sH2 sH2b sG1 sG2 cst0
  simp only [pay8_eq, pay9_eq, pay10_eq, pay11_eq, pay12_eq, pay13_eq, pay14_eq, pay15_eq, pay16_eq, pay17_eq, pay18_eq, pay19_eq,
    pay20_eq, pay21_eq, pay22_eq, pay23_eq, pay24_eq, pay25_eq, pay32_eq]
  exact pay5_apply I t x13 _ _ h13
    (fun rr j => pay34_apply I t x11 x14 x15 x16 x17 x18 _ _ _ _ _ h11 h14 h15 h16 h17 h18
      (pay26_apply I t x0 x1 x2 h0 h1 h2)
      (pay27_apply I t x0 x1 x2 x3 x4 h0 h1 h2 h3 h4)
      (pay28_apply I t x0 x1 x2 x3 x4 h0 h1 h2 h3 h4)
      (pay30_apply I t x0 x1 x2 x3 x4 x7 x8 h0 h1 h2 h3 h4 h7 h8)
      (pay31_apply I t x0 x1 x2 x3 x4 x7 x8 x9 x10 h0 h1 h2 h3 h4 h7 h8 h9 h10) he2 rr j)
    rfl rr d

theorem st21_apply (h0 : ∀ (rr : Fin 1024) (d : Fin 512), x0 (ix2 rr d) = I.x (tileRow t rr) d)
    (h1 : ∀ (d : Fin 512) (k : Fin 64), x1 (ix2 d k) = I.W1 d k)
    (h2 : ∀ k : Fin 64, x2 (ix2 0 k) = I.b1 k)
    (h3 : ∀ (j k : Fin 64), x3 (ix2 j k) = I.W2 j k)
    (h4 : ∀ k : Fin 64, x4 (ix2 0 k) = I.b2 k)
    (h5 : ∀ (k : Fin 64) (d : Fin 512), x5 (ix2 k d) = I.W3 k d)
    (h6 : ∀ d : Fin 512, x6 (ix2 0 d) = I.b3 d)
    (h7 : ∀ (k j : Fin 64), x7 (ix2 k j) = W3V1 I k j)
    (h8 : ∀ j : Fin 64, x8 (ix2 0 j) = bfK I j)
    (h9 : ∀ (i j : Fin 64), x9 (ix2 i j) = I.V2 i j)
    (h10 : ∀ j : Fin 64, x10 (ix2 0 j) = I.c2 j)
    (h11 : ∀ j : Fin 64, x11 (ix2 0 j) = I.V3 j)
    (h12 : x12 (ix2 0 0) = I.c3)
    (h13 : ∀ (j : Fin 64) (d : Fin 512), x13 (ix2 j d) = I.W1 d j)
    (h14 : ∀ (k j : Fin 64), x14 (ix2 k j) = I.W2 j k)
    (h15 : ∀ (j i : Fin 64), x15 (ix2 j i) = I.V2 i j)
    (h16 : ∀ (i k : Fin 64), x16 (ix2 i k) = W3V1 I k i)
    (h17 : ∀ (k' k : Fin 64), x17 (ix2 k' k) = W3W3T I k' k)
    (h18 : ∀ k : Fin 64, x18 (ix2 0 k) = b3W3T I k)
    (he : I.e = Ideal.ofBits .f32 0x3A83126F#32)
    (he2 : I.e2 = Ideal.ofBits .f32 0x3B03126F#32)
    (ha : I.a = Ideal.ofBits .f32 0x3F666666#32)
    (rr : Fin 1024) :
    st21 (F := Ideal) x0 x1 x2 x3 x4 x5 x6 x7 x8 x9 x10 x11 x12 x13 x14 x15 x16 x17 x18 (ix2 rr 0) = numK I (tileRow t rr) := by
  unfold st21 sLy sZ sGh1 sH1 sH2 sH2b sG1 sG2 cst0
  simp only [pay8_eq, pay9_eq, pay10_eq, pay11_eq, pay12_eq, pay13_eq, pay14_eq, pay15_eq, pay16_eq, pay17_eq, pay18_eq, pay19_eq,
    pay20_eq, pay21_eq, pay22_eq, pay23_eq, pay24_eq, pay25_eq, pay32_eq]
  exact pay3_apply I t x13 _ _ _ h13
    (fun rr => pay33_apply I t x12 _ _ x11 h12
      (pay29_apply I t x0 x1 x2 x3 x4 x5 x6 h0 h1 h2 h3 h4 h5 h6)
      (pay31_apply I t x0 x1 x2 x3 x4 x7 x8 x9 x10 h0 h1 h2 h3 h4 h7 h8 h9 h10) h11 he rr)
    (fun rr j => pay34_apply I t x11 x14 x15 x16 x17 x18 _ _ _ _ _ h11 h14 h15 h16 h17 h18
      (pay26_apply I t x0 x1 x2 h0 h1 h2)
      (pay27_apply I t x0 x1 x2 x3 x4 h0 h1 h2 h3 h4)
      (pay28_apply I t x0 x1 x2 x3 x4 h0 h1 h2 h3 h4)
      (pay30_apply I t x0 x1 x2 x3 x4 x7 x8 h0 h1 h2 h3 h4 h7 h8)
      (pay31_apply I t x0 x1 x2 x3 x4 x7 x8 x9 x10 h0 h1 h2 h3 h4 h7 h8 h9 h10) he2 rr j)
    rfl ha rr

theorem st22_apply (v : Vec Ideal S1x8x128 .f32)
    (h0 : ∀ (rr : Fin 1024) (d : Fin 512), x0 (ix2 rr d) = I.x (tileRow t rr) d)
    (h1 : ∀ (d : Fin 512) (k : Fin 64), x1 (ix2 d k) = I.W1 d k)
    (h2 : ∀ k : Fin 64, x2 (ix2 0 k) = I.b1 k)
    (h3 : ∀ (j k : Fin 64), x3 (ix2 j k) = I.W2 j k)
    (h4 : ∀ k : Fin 64, x4 (ix2 0 k) = I.b2 k)
    (h7 : ∀ (k j : Fin 64), x7 (ix2 k j) = W3V1 I k j)
    (h8 : ∀ j : Fin 64, x8 (ix2 0 j) = bfK I j)
    (h9 : ∀ (i j : Fin 64), x9 (ix2 i j) = I.V2 i j)
    (h10 : ∀ j : Fin 64, x10 (ix2 0 j) = I.c2 j)
    (h11 : ∀ j : Fin 64, x11 (ix2 0 j) = I.V3 j)
    (h13 : ∀ (j : Fin 64) (d : Fin 512), x13 (ix2 j d) = I.W1 d j)
    (h14 : ∀ (k j : Fin 64), x14 (ix2 k j) = I.W2 j k)
    (h15 : ∀ (j i : Fin 64), x15 (ix2 j i) = I.V2 i j)
    (h16 : ∀ (i k : Fin 64), x16 (ix2 i k) = W3V1 I k i)
    (h17 : ∀ (k' k : Fin 64), x17 (ix2 k' k) = W3W3T I k' k)
    (h18 : ∀ k : Fin 64, x18 (ix2 0 k) = b3W3T I k)
    (he2 : I.e2 = Ideal.ofBits .f32 0x3B03126F#32)
    (i : Fin 8) (j : Fin 128) :
    st22 (F := Ideal) x0 x1 x2 x3 x4 x7 x8 x9 x10 x11 x13 x14 x15 x16 x17 x18 v (ix3 0 i j)
      = v (ix3 0 i j) + ∑ rr : Fin 1024, dotK I (tileRow t rr) := by
  unfold st22 sGh1 sH1 sH2 sH2b sG1 sG2 cst0
  simp only [pay8_eq, pay9_eq, pay10_eq, pay11_eq, pay12_eq, pay13_eq, pay14_eq, pay15_eq, pay16_eq, pay17_eq, pay18_eq, pay19_eq,
    pay20_eq, pay21_eq, pay22_eq, pay23_eq, pay24_eq, pay25_eq, pay32_eq]
  exact pay6_apply I t x13 _ _ v h13
    (fun rr j => pay34_apply I t x11 x14 x15 x16 x17 x18 _ _ _ _ _ h11 h14 h15 h16 h17 h18
      (pay26_apply I t x0 x1 x2 h0 h1 h2)
      (pay27_apply I t x0 x1 x2 x3 x4 h0 h1 h2 h3 h4)
      (pay28_apply I t x0 x1 x2 x3 x4 h0 h1 h2 h3 h4)
      (pay30_apply I t x0 x1 x2 x3 x4 x7 x8 h0 h1 h2 h3 h4 h7 h8)
      (pay31_apply I t x0 x1 x2 x3 x4 x7 x8 x9 x10 h0 h1 h2 h3 h4 h7 h8 h9 h10) he2 rr j)
    rfl i j

end Cert.KernelIdeal.Region0

end
-- ==== Proof.KGrid0.lean ====
/-
  The first region's grid: 32 points; point t is tile t, in half t / 16.
-/
import proofs.«403450_j27376121545312_3_alg».proof.Proof.Gen.KernelIdeal.Launch

namespace Cert.KernelIdeal.Windows0

open Idealize.ShloMosaic Cert.KernelIdeal Cert.KernelIdeal.Gen

/-- A grid point as a tile number. -/
def pt (t : Fin cfg0.N) : Fin 32 := Fin.cast N_0 t

/-- The half a grid point belongs to. -/
def halfOf (t : Fin cfg0.N) : Fin 2 := ⟨(pt t).val / 16, by have := (pt t).isLt; omega⟩

end Cert.KernelIdeal.Windows0
-- ==== Proof.KWindows0.lean ====
/-
  The first kernel's region, its input windows. The grid is 2 × 16 points, point t = 16c + i handling tile t of 1024
  rows. An input block of x at point t is the array's rows t·1024 … t·1024 + 1023; the eighteen weight windows are whole
  arrays at every point: their block index is (0, 0) everywhere, so an entry of the block is the same entry of the array.
-/
import proofs.«403450_j27376121545312_3_alg».proof.Proof.FrameKI
import proofs.«403450_j27376121545312_3_alg».proof.Proof.Tile
import proofs.«403450_j27376121545312_3_alg».proof.Proof.KGrid0
import Idealize.ShloMosaic.Lib.ValueIdx
import Idealize.ShloMosaic.Lib.Pipeline.Value

set_option maxRecDepth 16384

noncomputable section

namespace Cert.KernelIdeal.Windows0

open Idealize.ShloMosaic Idealize.ShloMosaic.TcCoe Idealize.ShloMosaic.ValueIdx
open Idealize.ShloMosaic.Pipeline (Dat Cfg Window)
open Cert.KernelIdeal Cert.KernelIdeal.Gen Cert.Lyap

variable (V : (c : Dev nD) → (b : Ref sig .tc) → Buf (Elt Ideal) ((c : Thread nD τ).loc b)) (c : Dev nD)

/-! ### The block of x -/

/-- The x window's block index at point t is (t, 0). -/
private theorem idx_x : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The block of x at point t is the tile's rows. -/
theorem iblk_x (t : Fin cfg0.N) (rr : Fin 1024) (d : Fin 512) :
    (iblk0 (F := Ideal) V c 0 t : S1024x512.Idx → EReal) (ix2 rr d)
      = (V c main_arg0 : S32768x512.Idx → EReal) (ix2 (tileRow (pt t) rr) d) := by
  obtain ⟨e0, e1⟩ := idx_x t
  unfold iblk0
  rw [View.read_apply]
  refine congrArg (V c main_arg0 : S32768x512.Idx → EReal) ?_
  funext a; apply Fin.ext
  match a with
  | ⟨0, _⟩ =>
    show win0_0.index t (0 : Fin 2) * 1024 + 1 * rr.val = t.val * 1024 + rr.val
    rw [e0]; omega
  | ⟨1, _⟩ =>
    show win0_0.index t (1 : Fin 2) * 512 + 1 * d.val = d.val
    rw [e1]; omega

/-! ### The eighteen weight windows: each block is its whole array -/

/-- A rank-2 index whose coordinates are block index × block size + 1 × (p, q), at block index (0, 0), is (p, q). -/
private theorem emb_whole {n0 n1 : ℕ} (x : (⟨2, ![n0, n1]⟩ : Shape).Idx) (i0 i1 : ℕ) (h0 : i0 = 0) (h1 : i1 = 0)
    (p : Fin n0) (q : Fin n1) (hx0 : (x 0).val = i0 * n0 + 1 * p.val) (hx1 : (x 1).val = i1 * n1 + 1 * q.val) :
    x = ix2 p q := by
  funext a; apply Fin.ext
  match a with
  | ⟨0, _⟩ => show (x 0).val = p.val; rw [hx0, h0]; omega
  | ⟨1, _⟩ => show (x 1).val = q.val; rw [hx1, h1]; omega

/-- Window 1 (W1 in the matrix unit's format, [512, 64]). -/
theorem iblk_w1 (t : Fin cfg0.N) (d : Fin 512) (k : Fin 64) :
    (iblk0 (F := Ideal) V c 1 t : S512x64.Idx → EReal) (ix2 d k) = (V c main_v10 : S512x64.Idx → EReal) (ix2 d k) := by
  obtain ⟨e0, e1⟩ :=
    (by decide +kernel : ∀ t : Fin grid0.N, win0_1.index t (0 : Fin 2) = 0 ∧ win0_1.index t (1 : Fin 2) = 0) t
  unfold iblk0
  rw [View.read_apply]
  exact congrArg (V c main_v10 : S512x64.Idx → EReal) (emb_whole _ _ _ e0 e1 d k rfl rfl)

/-- Window 2 (b1 as a row, [1, 64]). -/
theorem iblk_w2 (t : Fin cfg0.N) (k : Fin 64) :
    (iblk0 (F := Ideal) V c 2 t : S1x64.Idx → EReal) (ix2 0 k) = (V c main_v24 : S1x64.Idx → EReal) (ix2 0 k) := by
  obtain ⟨e0, e1⟩ :=
    (by decide +kernel : ∀ t : Fin grid0.N, win0_2.index t (0 : Fin 2) = 0 ∧ win0_2.index t (1 : Fin 2) = 0) t
  unfold iblk0
  rw [View.read_apply]
  exact congrArg (V c main_v24 : S1x64.Idx → EReal) (emb_whole _ _ _ e0 e1 (0 : Fin 1) k rfl rfl)

/-- Window 3 (W2, [64, 64]). -/
theorem iblk_w3 (t : Fin cfg0.N) (j k : Fin 64) :
    (iblk0 (F := Ideal) V c 3 t : S64x64.Idx → EReal) (ix2 j k) = (V c main_v11 : S64x64.Idx → EReal) (ix2 j k) := by
  obtain ⟨e0, e1⟩ :=
    (by decide +kernel : ∀ t : Fin grid0.N, win0_3.index t (0 : Fin 2) = 0 ∧ win0_3.index t (1 : Fin 2) = 0) t
  unfold iblk0
  rw [View.read_apply]
  exact congrArg (V c main_v11 : S64x64.Idx → EReal) (emb_whole _ _ _ e0 e1 j k rfl rfl)

/-- Window 4 (b2 as a row, [1, 64]). -/
theorem iblk_w4 (t : Fin cfg0.N) (k : Fin 64) :
    (iblk0 (F := Ideal) V c 4 t : S1x64.Idx → EReal) (ix2 0 k) = (V c main_v25 : S1x64.Idx → EReal) (ix2 0 k) := by
  obtain ⟨e0, e1⟩ :=
    (by decide +kernel : ∀ t : Fin grid0.N, win0_4.index t (0 : Fin 2) = 0 ∧ win0_4.index t (1 : Fin 2) = 0) t
  unfold iblk0
  rw [View.read_apply]
  exact congrArg (V c main_v25 : S1x64.Idx → EReal) (emb_whole _ _ _ e0 e1 (0 : Fin 1) k rfl rfl)

/-- Window 5 (W3, [64, 512]). -/
theorem iblk_w5 (t : Fin cfg0.N) (k : Fin 64) (d : Fin 512) :
    (iblk0 (F := Ideal) V c 5 t : S64x512.Idx → EReal) (ix2 k d) = (V c main_v12 : S64x512.Idx → EReal) (ix2 k d) := by
  obtain ⟨e0, e1⟩ :=
    (by decide +kernel : ∀ t : Fin grid0.N, win0_5.index t (0 : Fin 2) = 0 ∧ win0_5.index t (1 : Fin 2) = 0) t
  unfold iblk0
  rw [View.read_apply]
  exact congrArg (V c main_v12 : S64x512.Idx → EReal) (emb_whole _ _ _ e0 e1 k d rfl rfl)

/-- Window 6 (b3 as a row, [1, 512]). -/
theorem iblk_w6 (t : Fin cfg0.N) (d : Fin 512) :
    (iblk0 (F := Ideal) V c 6 t : S1x512.Idx → EReal) (ix2 0 d) = (V c main_v26 : S1x512.Idx → EReal) (ix2 0 d) := by
  obtain ⟨e0, e1⟩ :=
    (by decide +kernel : ∀ t : Fin grid0.N, win0_6.index t (0 : Fin 2) = 0 ∧ win0_6.index t (1 : Fin 2) = 0) t
  unfold iblk0
  rw [View.read_apply]
  exact congrArg (V c main_v26 : S1x512.Idx → EReal) (emb_whole _ _ _ e0 e1 (0 : Fin 1) d rfl rfl)

/-- Window 7 (W3·V1, [64, 64]). -/
theorem iblk_w7 (t : Fin cfg0.N) (k j : Fin 64) :
    (iblk0 (F := Ideal) V c 7 t : S64x64.Idx → EReal) (ix2 k j) = (V c main_v20 : S64x64.Idx → EReal) (ix2 k j) := by
  obtain ⟨e0, e1⟩ :=
    (by decide +kernel : ∀ t : Fin grid0.N, win0_7.index t (0 : Fin 2) = 0 ∧ win0_7.index t (1 : Fin 2) = 0) t
  unfold iblk0
  rw [View.read_apply]
  exact congrArg (V c main_v20 : S64x64.Idx → EReal) (emb_whole _ _ _ e0 e1 k j rfl rfl)

/-- Window 8 (b3·V1 + c1 as a row, [1, 64]). -/
theorem iblk_w8 (t : Fin cfg0.N) (j : Fin 64) :
    (iblk0 (F := Ideal) V c 8 t : S1x64.Idx → EReal) (ix2 0 j) = (V c main_v4 : S1x64.Idx → EReal) (ix2 0 j) := by
  obtain ⟨e0, e1⟩ :=
    (by decide +kernel : ∀ t : Fin grid0.N, win0_8.index t (0 : Fin 2) = 0 ∧ win0_8.index t (1 : Fin 2) = 0) t
  unfold iblk0
  rw [View.read_apply]
  exact congrArg (V c main_v4 : S1x64.Idx → EReal) (emb_whole _ _ _ e0 e1 (0 : Fin 1) j rfl rfl)

/-- Window 9 (V2, [64, 64]). -/
theorem iblk_w9 (t : Fin cfg0.N) (i j : Fin 64) :
    (iblk0 (F := Ideal) V c 9 t : S64x64.Idx → EReal) (ix2 i j) = (V c main_v13 : S64x64.Idx → EReal) (ix2 i j) := by
  obtain ⟨e0, e1⟩ :=
    (by decide +kernel : ∀ t : Fin grid0.N, win0_9.index t (0 : Fin 2) = 0 ∧ win0_9.index t (1 : Fin 2) = 0) t
  unfold iblk0
  rw [View.read_apply]
  exact congrArg (V c main_v13 : S64x64.Idx → EReal) (emb_whole _ _ _ e0 e1 i j rfl rfl)

/-- Window 10 (c2 as a row, [1, 64]). -/
theorem iblk_w10 (t : Fin cfg0.N) (j : Fin 64) :
    (iblk0 (F := Ideal) V c 10 t : S1x64.Idx → EReal) (ix2 0 j) = (V c main_v27 : S1x64.Idx → EReal) (ix2 0 j) := by
  obtain ⟨e0, e1⟩ :=
    (by decide +kernel : ∀ t : Fin grid0.N, win0_10.index t (0 : Fin 2) = 0 ∧ win0_10.index t (1 : Fin 2) = 0) t
  unfold iblk0
  rw [View.read_apply]
  exact congrArg (V c main_v27 : S1x64.Idx → EReal) (emb_whole _ _ _ e0 e1 (0 : Fin 1) j rfl rfl)

/-- Window 11 (V3 as a row, [1, 64]). -/
theorem iblk_w11 (t : Fin cfg0.N) (j : Fin 64) :
    (iblk0 (F := Ideal) V c 11 t : S1x64.Idx → EReal) (ix2 0 j) = (V c main_v23 : S1x64.Idx → EReal) (ix2 0 j) := by
  obtain ⟨e0, e1⟩ :=
    (by decide +kernel : ∀ t : Fin grid0.N, win0_11.index t (0 : Fin 2) = 0 ∧ win0_11.index t (1 : Fin 2) = 0) t
  unfold iblk0
  rw [View.read_apply]
  exact congrArg (V c main_v23 : S1x64.Idx → EReal) (emb_whole _ _ _ e0 e1 (0 : Fin 1) j rfl rfl)

/-- Window 12 (c3, [1, 1]). -/
theorem iblk_w12 (t : Fin cfg0.N) :
    (iblk0 (F := Ideal) V c 12 t : S1x1.Idx → EReal) (ix2 0 0) = (V c main_v28 : S1x1.Idx → EReal) (ix2 0 0) := by
  obtain ⟨e0, e1⟩ :=
    (by decide +kernel : ∀ t : Fin grid0.N, win0_12.index t (0 : Fin 2) = 0 ∧ win0_12.index t (1 : Fin 2) = 0) t
  unfold iblk0
  rw [View.read_apply]
  exact congrArg (V c main_v28 : S1x1.Idx → EReal) (emb_whole _ _ _ e0 e1 (0 : Fin 1) (0 : Fin 1) rfl rfl)

/-- Window 13 (W1ᵀ, [64, 512]). -/
theorem iblk_w13 (t : Fin cfg0.N) (j : Fin 64) (d : Fin 512) :
    (iblk0 (F := Ideal) V c 13 t : S64x512.Idx → EReal) (ix2 j d) = (V c main_v15 : S64x512.Idx → EReal) (ix2 j d) := by
  obtain ⟨e0, e1⟩ :=
    (by decide +kernel : ∀ t : Fin grid0.N, win0_13.index t (0 : Fin 2) = 0 ∧ win0_13.index t (1 : Fin 2) = 0) t
  unfold iblk0
  rw [View.read_apply]
  exact congrArg (V c main_v15 : S64x512.Idx → EReal) (emb_whole _ _ _ e0 e1 j d rfl rfl)

/-- Window 14 (W2ᵀ, [64, 64]). -/
theorem iblk_w14 (t : Fin cfg0.N) (k j : Fin 64) :
    (iblk0 (F := Ideal) V c 14 t : S64x64.Idx → EReal) (ix2 k j) = (V c main_v17 : S64x64.Idx → EReal) (ix2 k j) := by
  obtain ⟨e0, e1⟩ :=
    (by decide +kernel : ∀ t : Fin grid0.N, win0_14.index t (0 : Fin 2) = 0 ∧ win0_14.index t (1 : Fin 2) = 0) t
  unfold iblk0
  rw [View.read_apply]
  exact congrArg (V c main_v17 : S64x64.Idx → EReal) (emb_whole _ _ _ e0 e1 k j rfl rfl)

/-- Window 15 (V2ᵀ, [64, 64]). -/
theorem iblk_w15 (t : Fin cfg0.N) (j i : Fin 64) :
    (iblk0 (F := Ideal) V c 15 t : S64x64.Idx → EReal) (ix2 j i) = (V c main_v19 : S64x64.Idx → EReal) (ix2 j i) := by
  obtain ⟨e0, e1⟩ :=
    (by decide +kernel : ∀ t : Fin grid0.N, win0_15.index t (0 : Fin 2) = 0 ∧ win0_15.index t (1 : Fin 2) = 0) t
  unfold iblk0
  rw [View.read_apply]
  exact congrArg (V c main_v19 : S64x64.Idx → EReal) (emb_whole _ _ _ e0 e1 j i rfl rfl)

/-- Window 16 ((W3·V1)ᵀ, [64, 64]). -/
theorem iblk_w16 (t : Fin cfg0.N) (i k : Fin 64) :
    (iblk0 (F := Ideal) V c 16 t : S64x64.Idx → EReal) (ix2 i k) = (V c main_v21 : S64x64.Idx → EReal) (ix2 i k) := by
  obtain ⟨e0, e1⟩ :=
    (by decide +kernel : ∀ t : Fin grid0.N, win0_16.index t (0 : Fin 2) = 0 ∧ win0_16.index t (1 : Fin 2) = 0) t
  unfold iblk0
  rw [View.read_apply]
  exact congrArg (V c main_v21 : S64x64.Idx → EReal) (emb_whole _ _ _ e0 e1 i k rfl rfl)

/-- Window 17 (W3·W3ᵀ, [64, 64]). -/
theorem iblk_w17 (t : Fin cfg0.N) (k' k : Fin 64) :
    (iblk0 (F := Ideal) V c 17 t : S64x64.Idx → EReal) (ix2 k' k) = (V c main_v22 : S64x64.Idx → EReal) (ix2 k' k) := by
  obtain ⟨e0, e1⟩ :=
    (by decide +kernel : ∀ t : Fin grid0.N, win0_17.index t (0 : Fin 2) = 0 ∧ win0_17.index t (1 : Fin 2) = 0) t
  unfold iblk0
  rw [View.read_apply]
  exact congrArg (V c main_v22 : S64x64.Idx → EReal) (emb_whole _ _ _ e0 e1 k' k rfl rfl)

/-- Window 18 (b3·W3ᵀ as a row, [1, 64]). -/
theorem iblk_w18 (t : Fin cfg0.N) (k : Fin 64) :
    (iblk0 (F := Ideal) V c 18 t : S1x64.Idx → EReal) (ix2 0 k) = (V c main_v9 : S1x64.Idx → EReal) (ix2 0 k) := by
  obtain ⟨e0, e1⟩ :=
    (by decide +kernel : ∀ t : Fin grid0.N, win0_18.index t (0 : Fin 2) = 0 ∧ win0_18.index t (1 : Fin 2) = 0) t
  unfold iblk0
  rw [View.read_apply]
  exact congrArg (V c main_v9 : S1x64.Idx → EReal) (emb_whole _ _ _ e0 e1 (0 : Fin 1) k rfl rfl)

end Cert.KernelIdeal.Windows0

end
-- ==== Proof.KEntry.lean ====
/-
  What the first region's nineteen input arrays hold on entry, against the model's inputs: the statement the host side
  supplies and the region's point-by-point reading consumes.
-/
import proofs.«403450_j27376121545312_3_alg».proof.Proof.Gen.KernelIdeal.Launch
import proofs.«403450_j27376121545312_3_alg».proof.Proof.Tile
import Idealize.ShloMosaic.Lib.ValueIdx

noncomputable section

namespace Cert.KernelIdeal.Region0

open Idealize.ShloMosaic Idealize.ShloMosaic.TcCoe Idealize.ShloMosaic.ValueIdx Cert.KernelIdeal Cert.Lyap

/-- The region's input arrays, index by index, are the model's inputs, the re-laid weights and the four folded weight
    products; and the model's three literals are the patterns the body spells. -/
structure Entry (V : (c : Dev nD) → (b : Ref sig .tc) → Buf (Elt Ideal) ((c : Thread nD τ).loc b)) (c : Dev nD)
    (I : Inp EReal) : Prop where
  hx : ∀ (r : Fin 32768) (d : Fin 512), (V c main_arg0 : S32768x512.Idx → EReal) (ix2 r d) = I.x r d
  hW1 : ∀ (d : Fin 512) (k : Fin 64), (V c main_v10 : S512x64.Idx → EReal) (ix2 d k) = I.W1 d k
  hb1 : ∀ (k : Fin 64), (V c main_v24 : S1x64.Idx → EReal) (ix2 0 k) = I.b1 k
  hW2 : ∀ (j k : Fin 64), (V c main_v11 : S64x64.Idx → EReal) (ix2 j k) = I.W2 j k
  hb2 : ∀ (k : Fin 64), (V c main_v25 : S1x64.Idx → EReal) (ix2 0 k) = I.b2 k
  hW3 : ∀ (k : Fin 64) (d : Fin 512), (V c main_v12 : S64x512.Idx → EReal) (ix2 k d) = I.W3 k d
  hb3 : ∀ (d : Fin 512), (V c main_v26 : S1x512.Idx → EReal) (ix2 0 d) = I.b3 d
  hW3V1 : ∀ (k j : Fin 64), (V c main_v20 : S64x64.Idx → EReal) (ix2 k j) = W3V1 I k j
  hbf : ∀ (j : Fin 64), (V c main_v4 : S1x64.Idx → EReal) (ix2 0 j) = bfK I j
  hV2 : ∀ (i j : Fin 64), (V c main_v13 : S64x64.Idx → EReal) (ix2 i j) = I.V2 i j
  hc2 : ∀ (j : Fin 64), (V c main_v27 : S1x64.Idx → EReal) (ix2 0 j) = I.c2 j
  hV3 : ∀ (j : Fin 64), (V c main_v23 : S1x64.Idx → EReal) (ix2 0 j) = I.V3 j
  hc3 : (V c main_v28 : S1x1.Idx → EReal) (ix2 0 0) = I.c3
  hW1T : ∀ (j : Fin 64) (d : Fin 512), (V c main_v15 : S64x512.Idx → EReal) (ix2 j d) = I.W1 d j
  hW2T : ∀ (k j : Fin 64), (V c main_v17 : S64x64.Idx → EReal) (ix2 k j) = I.W2 j k
  hV2T : ∀ (j i : Fin 64), (V c main_v19 : S64x64.Idx → EReal) (ix2 j i) = I.V2 i j
  hW3V1T : ∀ (i k : Fin 64), (V c main_v21 : S64x64.Idx → EReal) (ix2 i k) = W3V1 I k i
  hW3W3T : ∀ (k' k : Fin 64), (V c main_v22 : S64x64.Idx → EReal) (ix2 k' k) = W3W3T I k' k
  hb3W3T : ∀ (k : Fin 64), (V c main_v9 : S1x64.Idx → EReal) (ix2 0 k) = b3W3T I k
  he : I.e = Ideal.ofBits .f32 0x3A83126F#32
  he2 : I.e2 = Ideal.ofBits .f32 0x3B03126F#32
  ha : I.a = Ideal.ofBits .f32 0x3F666666#32

end Cert.KernelIdeal.Region0

end
-- ==== Proof.Accum.lean ====
/-
  A running block that is reset to 0 + P at every 16th point and has that point's P added at every other point holds,
  after the last point of a half (point 16c + 15), the sum of the sixteen P's of that half — whatever the entry looked at.
-/
import Idealize.ShloMosaic.Lib.Pipeline.Value
import Mathlib.Data.EReal.Basic
import Mathlib.Algebra.BigOperators.Group.Finset.Basic
import Mathlib.Algebra.BigOperators.Intervals

noncomputable section

namespace Cert.Lyap

open Idealize.ShloMosaic

/-- The fold over one half of a 32-point grid. -/
theorem fold_half {ι : Type} (f : (n : ℕ) → n < 32 → ι → EReal) (P : ℕ → EReal)
    (h0 : ∀ (n : ℕ) (h : n < 32), n % 16 = 0 → ∀ y, f n h y = 0 + P n)
    (hs : ∀ (n : ℕ) (h : n + 1 < 32), ¬(n + 1) % 16 = 0 → ∀ y, f (n + 1) h y = f n (Nat.lt_of_succ_lt h) y + P (n + 1))
    (c : Fin 2) (y : ι) :
    f (16 * c.val + 15) (by have := c.isLt; omega) y = ∑ i : Fin 16, P (16 * c.val + i.val) := by
  have hc := c.isLt
  have same : ∀ (a b : ℕ) (ha : a < 32) (hb : b < 32), a = b → f a ha y = f b hb y := by
    intro a b ha hb e; subst e; rfl
  -- after the (j+1)-th point of the half the block holds the sum of the first j+1 terms
  have key : ∀ (j : ℕ), j < 16 → ∀ (h : 16 * c.val + j < 32),
      f (16 * c.val + j) h y = ∑ i ∈ Finset.range (j + 1), P (16 * c.val + i) := by
    intro j
    induction j with
    | zero =>
      intro _ h
      rw [h0 (16 * c.val + 0) h (by omega) y, Finset.sum_range_succ, Finset.sum_range_zero]
    | succ j ih =>
      intro hj h
      have h' : (16 * c.val + j) + 1 < 32 := by omega
      rw [same (16 * c.val + (j + 1)) ((16 * c.val + j) + 1) h h' (by omega),
        hs (16 * c.val + j) h' (by omega) y, ih (by omega) (by omega), Finset.sum_range_succ _ (j + 1)]
      rfl
  refine (key 15 (by omega) _).trans ?_
  exact Finset.sum_range (fun i => P (16 * c.val + i))

end Cert.Lyap

end
-- ==== Proof.KPoints0.lean ====
/-
  What every point of the first region leaves in the four output buffers, against the model. Given what the region's
  input arrays hold on entry, point t (tile t) leaves z, gv and the numerators of the tile's rows, and in the denominator
  block its earlier contents plus the tile's sum of ‖gv‖² — earlier contents that are zero at the first point of a half.
  So after the last point of half c the block holds, at every entry, the sum of the sixteen tiles' sums.
-/
import proofs.«403450_j27376121545312_3_alg».proof.Proof.KRegion0
import proofs.«403450_j27376121545312_3_alg».proof.Proof.KStoredValue
import proofs.«403450_j27376121545312_3_alg».proof.Proof.KWindows0
import proofs.«403450_j27376121545312_3_alg».proof.Proof.KEntry
import proofs.«403450_j27376121545312_3_alg».proof.Proof.Accum

set_option maxRecDepth 16384

noncomputable section

namespace Cert.KernelIdeal.Region0

open Idealize.ShloMosaic Idealize.ShloMosaic.TcCoe Idealize.ShloMosaic.ValueIdx
open Cert.KernelIdeal Cert.KernelIdeal.Gen Cert.KernelIdeal.Windows0 Cert.KernelIdeal.BodyValue Cert.Lyap

variable (V : (c : Dev nD) → (b : Ref sig .tc) → Buf (Elt Ideal) ((c : Thread nD τ).loc b)) (c : Dev nD)
  (I : Inp EReal) (E : Entry V c I)
include E

/-! ### The point's input blocks against the model -/

theorem blk0 (t : Fin cfg0.N) (rr : Fin 1024) (d : Fin 512) :
    (iblk0 (F := Ideal) V c 0 t : S1024x512.Idx → EReal) (ix2 rr d) = I.x (tileRow (pt t) rr) d :=
  (iblk_x V c t rr d).trans (E.hx _ d)
theorem blk1 (t : Fin cfg0.N) (d : Fin 512) (k : Fin 64) :
    (iblk0 (F := Ideal) V c 1 t : S512x64.Idx → EReal) (ix2 d k) = I.W1 d k :=
  (iblk_w1 V c t d k).trans (E.hW1 d k)
theorem blk2 (t : Fin cfg0.N) (k : Fin 64) :
    (iblk0 (F := Ideal) V c 2 t : S1x64.Idx → EReal) (ix2 0 k) = I.b1 k :=
  (iblk_w2 V c t k).trans (E.hb1 k)
theorem blk3 (t : Fin cfg0.N) (j k : Fin 64) :
    (iblk0 (F := Ideal) V c 3 t : S64x64.Idx → EReal) (ix2 j k) = I.W2 j k :=
  (iblk_w3 V c t j k).trans (E.hW2 j k)
theorem blk4 (t : Fin cfg0.N) (k : Fin 64) :
    (iblk0 (F := Ideal) V c 4 t : S1x64.Idx → EReal) (ix2 0 k) = I.b2 k :=
  (iblk_w4 V c t k).trans (E.hb2 k)
theorem blk5 (t : Fin cfg0.N) (k : Fin 64) (d : Fin 512) :
    (iblk0 (F := Ideal) V c 5 t : S64x512.Idx → EReal) (ix2 k d) = I.W3 k d :=
  (iblk_w5 V c t k d).trans (E.hW3 k d)
theorem blk6 (t : Fin cfg0.N) (d : Fin 512) :
    (iblk0 (F := Ideal) V c 6 t : S1x512.Idx → EReal) (ix2 0 d) = I.b3 d :=
  (iblk_w6 V c t d).trans (E.hb3 d)
theorem blk7 (t : Fin cfg0.N) (k j : Fin 64) :
    (iblk0 (F := Ideal) V c 7 t : S64x64.Idx → EReal) (ix2 k j) = W3V1 I k j :=
  (iblk_w7 V c t k j).trans (E.hW3V1 k j)
theorem blk8 (t : Fin cfg0.N) (j : Fin 64) :
    (iblk0 (F := Ideal) V c 8 t : S1x64.Idx → EReal) (ix2 0 j) = bfK I j :=
  (iblk_w8 V c t j).trans (E.hbf j)
theorem blk9 (t : Fin cfg0.N) (i j : Fin 64) :
    (iblk0 (F := Ideal) V c 9 t : S64x64.Idx → EReal) (ix2 i j) = I.V2 i j :=
  (iblk_w9 V c t i j).trans (E.hV2 i j)
theorem blk10 (t : Fin cfg0.N) (j : Fin 64) :
    (iblk0 (F := Ideal) V c 10 t : S1x64.Idx → EReal) (ix2 0 j) = I.c2 j :=
  (iblk_w10 V c t j).trans (E.hc2 j)
theorem blk11 (t : Fin cfg0.N) (j : Fin 64) :
    (iblk0 (F := Ideal) V c 11 t : S1x64.Idx → EReal) (ix2 0 j) = I.V3 j :=
  (iblk_w11 V c t j).trans (E.hV3 j)
theorem blk12 (t : Fin cfg0.N)  :
    (iblk0 (F := Ideal) V c 12 t : S1x1.Idx → EReal) (ix2 0 0) = I.c3 :=
  (iblk_w12 V c t).trans (E.hc3)
theorem blk13 (t : Fin cfg0.N) (j : Fin 64) (d : Fin 512) :
    (iblk0 (F := Ideal) V c 13 t : S64x512.Idx → EReal) (ix2 j d) = I.W1 d j :=
  (iblk_w13 V c t j d).trans (E.hW1T j d)
theorem blk14 (t : Fin cfg0.N) (k j : Fin 64) :
    (iblk0 (F := Ideal) V c 14 t : S64x64.Idx → EReal) (ix2 k j) = I.W2 j k :=
  (iblk_w14 V c t k j).trans (E.hW2T k j)
theorem blk15 (t : Fin cfg0.N) (j i : Fin 64) :
    (iblk0 (F := Ideal) V c 15 t : S64x64.Idx → EReal) (ix2 j i) = I.V2 i j :=
  (iblk_w15 V c t j i).trans (E.hV2T j i)
theorem blk16 (t : Fin cfg0.N) (i k : Fin 64) :
    (iblk0 (F := Ideal) V c 16 t : S64x64.Idx → EReal) (ix2 i k) = W3V1 I k i :=
  (iblk_w16 V c t i k).trans (E.hW3V1T i k)
theorem blk17 (t : Fin cfg0.N) (k' k : Fin 64) :
    (iblk0 (F := Ideal) V c 17 t : S64x64.Idx → EReal) (ix2 k' k) = W3W3T I k' k :=
  (iblk_w17 V c t k' k).trans (E.hW3W3T k' k)
theorem blk18 (t : Fin cfg0.N) (k : Fin 64) :
    (iblk0 (F := Ideal) V c 18 t : S1x64.Idx → EReal) (ix2 0 k) = b3W3T I k :=
  (iblk_w18 V c t k).trans (E.hb3W3T k)

/-! ### The three per-tile outputs -/

theorem point19 (t : Fin cfg0.N) (rr : Fin 1024) (d : Fin 512) :
    (outsAt0 (F := Ideal) V c t.val t.isLt).1 (ix2 rr d) = z I (tileRow (pt t) rr) d := by
  by_cases h : t.val % 16 = 0
  · rw [outsAt0_A V c t h]; dsimp only; rw [outA19]
    exact st19_apply I (pt t) (iblk0 V c 0 t) (iblk0 V c 1 t) (iblk0 V c 2 t) (iblk0 V c 3 t) (iblk0 V c 4 t) (iblk0 V c 5 t) (iblk0 V c 6 t) (blk0 V c I E t) (blk1 V c I E t) (blk2 V c I E t) (blk3 V c I E t) (blk4 V c I E t) (blk5 V c I E t) (blk6 V c I E t) rr d
  · rw [outsAt0_B V c t h]; dsimp only; rw [outB19]
    exact st19_apply I (pt t) (iblk0 V c 0 t) (iblk0 V c 1 t) (iblk0 V c 2 t) (iblk0 V c 3 t) (iblk0 V c 4 t) (iblk0 V c 5 t) (iblk0 V c 6 t) (blk0 V c I E t) (blk1 V c I E t) (blk2 V c I E t) (blk3 V c I E t) (blk4 V c I E t) (blk5 V c I E t) (blk6 V c I E t) rr d

theorem point20 (t : Fin cfg0.N) (rr : Fin 1024) (d : Fin 512) :
    (outsAt0 (F := Ideal) V c t.val t.isLt).2.1 (ix2 rr d) = gvK I (tileRow (pt t) rr) d := by
  by_cases h : t.val % 16 = 0
  · rw [outsAt0_A V c t h]; dsimp only; rw [outA20]
    exact st20_apply I (pt t) (iblk0 V c 0 t) (iblk0 V c 1 t) (iblk0 V c 2 t) (iblk0 V c 3 t) (iblk0 V c 4 t) (iblk0 V c 7 t) (iblk0 V c 8 t) (iblk0 V c 9 t) (iblk0 V c 10 t) (iblk0 V c 11 t) (iblk0 V c 13 t) (iblk0 V c 14 t) (iblk0 V c 15 t) (iblk0 V c 16 t) (iblk0 V c 17 t) (iblk0 V c 18 t) (blk0 V c I E t) (blk1 V c I E t) (blk2 V c I E t) (blk3 V c I E t) (blk4 V c I E t) (blk7 V c I E t) (blk8 V c I E t) (blk9 V c I E t) (blk10 V c I E t) (blk11 V c I E t) (blk13 V c I E t) (blk14 V c I E t) (blk15 V c I E t) (blk16 V c I E t) (blk17 V c I E t) (blk18 V c I E t) E.he2 rr d
  · rw [outsAt0_B V c t h]; dsimp only; rw [outB20]
    exact st20_apply I (pt t) (iblk0 V c 0 t) (iblk0 V c 1 t) (iblk0 V c 2 t) (iblk0 V c 3 t) (iblk0 V c 4 t) (iblk0 V c 7 t) (iblk0 V c 8 t) (iblk0 V c 9 t) (iblk0 V c 10 t) (iblk0 V c 11 t) (iblk0 V c 13 t) (iblk0 V c 14 t) (iblk0 V c 15 t) (iblk0 V c 16 t) (iblk0 V c 17 t) (iblk0 V c 18 t) (blk0 V c I E t) (blk1 V c I E t) (blk2 V c I E t) (blk3 V c I E t) (blk4 V c I E t) (blk7 V c I E t) (blk8 V c I E t) (blk9 V c I E t) (blk10 V c I E t) (blk11 V c I E t) (blk13 V c I E t) (blk14 V c I E t) (blk15 V c I E t) (blk16 V c I E t) (blk17 V c I E t) (blk18 V c I E t) E.he2 rr d

theorem point21 (t : Fin cfg0.N) (rr : Fin 1024) :
    (outsAt0 (F := Ideal) V c t.val t.isLt).2.2.1 (ix2 rr 0) = numK I (tileRow (pt t) rr) := by
  by_cases h : t.val % 16 = 0
  · rw [outsAt0_A V c t h]; dsimp only; rw [outA21]
    exact st21_apply I (pt t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (blk0 V c I E t) (blk1 V c I E t) (blk2 V c I E t) (blk3 V c I E t) (blk4 V c I E t) (blk5 V c I E t) (blk6 V c I E t) (blk7 V c I E t) (blk8 V c I E t) (blk9 V c I E t) (blk10 V c I E t) (blk11 V c I E t) (blk12 V c I E t) (blk13 V c I E t) (blk14 V c I E t) (blk15 V c I E t) (blk16 V c I E t) (blk17 V c I E t) (blk18 V c I E t) E.he E.he2 E.ha rr
  · rw [outsAt0_B V c t h]; dsimp only; rw [outB21]
    exact st21_apply I (pt t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (blk0 V c I E t) (blk1 V c I E t) (blk2 V c I E t) (blk3 V c I E t) (blk4 V c I E t) (blk5 V c I E t) (blk6 V c I E t) (blk7 V c I E t) (blk8 V c I E t) (blk9 V c I E t) (blk10 V c I E t) (blk11 V c I E t) (blk12 V c I E t) (blk13 V c I E t) (blk14 V c I E t) (blk15 V c I E t) (blk16 V c I E t) (blk17 V c I E t) (blk18 V c I E t) E.he E.he2 E.ha rr

/-! ### The running denominator block -/

/-- Tile t's sum of the rows' ‖gv‖². -/
def tileDen (t : Fin 32) : EReal := ∑ rr : Fin 1024, dotK I (tileRow t rr)

/-- At the first point of a half the block is reset, then the tile's sum added. -/
theorem point22_A (t : Fin cfg0.N) (h : t.val % 16 = 0) (i : Fin 8) (j : Fin 128) :
    (outsAt0 (F := Ideal) V c t.val t.isLt).2.2.2 (ix3 0 i j) = 0 + tileDen I (pt t) := by
  rw [outsAt0_A V c t h]; dsimp only; rw [outA22]
  rw [st22_apply I (pt t) (iblk0 V c 0 t) (iblk0 V c 1 t) (iblk0 V c 2 t) (iblk0 V c 3 t) (iblk0 V c 4 t) (iblk0 V c 7 t) (iblk0 V c 8 t) (iblk0 V c 9 t) (iblk0 V c 10 t) (iblk0 V c 11 t) (iblk0 V c 13 t) (iblk0 V c 14 t) (iblk0 V c 15 t) (iblk0 V c 16 t) (iblk0 V c 17 t) (iblk0 V c 18 t) _ (blk0 V c I E t) (blk1 V c I E t) (blk2 V c I E t) (blk3 V c I E t) (blk4 V c I E t) (blk7 V c I E t) (blk8 V c I E t) (blk9 V c I E t) (blk10 V c I E t) (blk11 V c I E t) (blk13 V c I E t) (blk14 V c I E t) (blk15 V c I E t) (blk16 V c I E t) (blk17 V c I E t) (blk18 V c I E t) E.he2 i j, pay7_apply]
  rfl

/-- At every other point the tile's sum is added to what the point before left. -/
theorem point22_B (t : Fin cfg0.N) (h : ¬t.val % 16 = 0) (i : Fin 8) (j : Fin 128) :
    (outsAt0 (F := Ideal) V c t.val t.isLt).2.2.2 (ix3 0 i j)
      = (outsAt0 (F := Ideal) V c (t.val - 1) (Nat.lt_of_le_of_lt (Nat.sub_le _ _) t.isLt)).2.2.2 (ix3 0 i j) + tileDen I (pt t) := by
  rw [outsAt0_B V c t h]; dsimp only; rw [outB22]
  rw [st22_apply I (pt t) (iblk0 V c 0 t) (iblk0 V c 1 t) (iblk0 V c 2 t) (iblk0 V c 3 t) (iblk0 V c 4 t) (iblk0 V c 7 t) (iblk0 V c 8 t) (iblk0 V c 9 t) (iblk0 V c 10 t) (iblk0 V c 11 t) (iblk0 V c 13 t) (iblk0 V c 14 t) (iblk0 V c 15 t) (iblk0 V c 16 t) (iblk0 V c 17 t) (iblk0 V c 18 t) _ (blk0 V c I E t) (blk1 V c I E t) (blk2 V c I E t) (blk3 V c I E t) (blk4 V c I E t) (blk7 V c I E t) (blk8 V c I E t) (blk9 V c I E t) (blk10 V c I E t) (blk11 V c I E t) (blk13 V c I E t) (blk14 V c I E t) (blk15 V c I E t) (blk16 V c I E t) (blk17 V c I E t) (blk18 V c I E t) E.he2 i j]
  rfl

end Cert.KernelIdeal.Region0

end
-- ==== Proof.KRegion1.lean ====
/-
  The second kernel's region: a grid of 32 tiles of 1024 rows, each point reading its tile of f, gv, num and the one
  denominator entry, and writing its tile of the result. Point t's written block is the body's payload of the point's
  input blocks; an input block at t is the array's rows t·1024 … t·1024 + 1023; the 32 blocks tile the output array. So
  the output array after the region is, at (r, d):  f(r,d) − (num(r) · (1 / den)) · gv(r,d), of the arrays the region
  is entered with.
-/
import proofs.«403450_j27376121545312_3_alg».proof.Proof.FrameKI
import proofs.«403450_j27376121545312_3_alg».proof.Proof.KBodyBwd
import Idealize.ShloMosaic.Lib.ValueIdx
import Idealize.ShloMosaic.Lib.Pipeline.Value

set_option maxRecDepth 16384

noncomputable section

namespace Cert.KernelIdeal.Region1

open Idealize.ShloMosaic Idealize.ShloMosaic.TcCoe Idealize.ShloMosaic.ValueIdx
open Idealize.ShloMosaic.Pipeline (Dat Cfg Window)
open Cert.KernelIdeal Cert.KernelIdeal.Gen Cert.Lyap

variable (V : (c : Dev nD) → (b : Ref sig .tc) → Buf (Elt Ideal) ((c : Thread nD τ).loc b)) (c : Dev nD)

/-- The arrays the region is entered with, as arrays of extended reals. -/
abbrev fArr : S32768x512.Idx → EReal := V c main_v29_0
abbrev gArr : S32768x512.Idx → EReal := V c main_v29_1
abbrev nArr : S32768x1.Idx → EReal := V c main_v29_2
abbrev dArr : S1x1.Idx → EReal := V c main_v33

/-! ### The tile's blocks, and the result as one function of the four arrays -/

/-- Zero offsets on both axes. -/
theorem off_zero : (![0, 0] : Fin 2 → Nat) = fun _ => 0 := funext fun a => by
  match a with
  | ⟨0, _⟩ => rfl
  | ⟨1, _⟩ => rfl

/-- Tile t of f, of gv, of num, and the one denominator entry, as the region finds them. -/
abbrev fBlk (t : Fin cfg1.N) : Vec Ideal S1024x512 .bf16 := iblk1 (F := Ideal) V c 0 t
abbrev gBlk (t : Fin cfg1.N) : Vec Ideal S1024x512 .bf16 := iblk1 (F := Ideal) V c 1 t
abbrev nBlk (t : Fin cfg1.N) : Vec Ideal S1024x1 .f32 := iblk1 (F := Ideal) V c 2 t
abbrev dBlk (t : Fin cfg1.N) : Vec Ideal S1x1 .f32 := iblk1 (F := Ideal) V c 3 t

/-- The result, index by index: f − (num · (1 / den)) · gv, num read at the index's row. -/
def res : S32768x512.Idx → EReal := fun i =>
  fArr V c i - (nArr V c (ix2 (i 0) 0) * Ideal.div 1 (dArr V c (ix2 0 0))) * gArr V c i

/-- The five index maps over the 32 points: the row-tiled windows sit at block (t, 0), the denominator's at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (rr, dd) of tile t of f is entry (t·1024 + rr, dd) of f. -/
theorem fBlk_apply (t : Fin cfg1.N) (rr : Fin 1024) (dd : Fin 512) (i : S32768x512.Idx)
    (h0 : (i 0).val = t.val * 1024 + rr.val) (h1 : (i 1).val = dd.val) :
    fBlk V c t (ix2 rr dd) = fArr V c i := by
  obtain ⟨e00, e01, -, -, -, -, -, -, -, -⟩ := idx_facts t
  show V c main_v29_0 (((cfg1.win 0).blk t).view.emb (ix2 rr dd)) = V c main_v29_0 i
  congr 1
  funext a; apply Fin.ext
  match a with
  | ⟨0, _⟩ => show win1_0.index t (0 : Fin 2) * 1024 + 1 * rr.val = (i 0).val; omega
  | ⟨1, _⟩ => show win1_0.index t (1 : Fin 2) * 512 + 1 * dd.val = (i 1).val; omega

/-- Entry (rr, dd) of tile t of gv is entry (t·1024 + rr, dd) of gv. -/
theorem gBlk_apply (t : Fin cfg1.N) (rr : Fin 1024) (dd : Fin 512) (i : S32768x512.Idx)
    (h0 : (i 0).val = t.val * 1024 + rr.val) (h1 : (i 1).val = dd.val) :
    gBlk V c t (ix2 rr dd) = gArr V c i := by
  obtain ⟨-, -, e10, e11, -, -, -, -, -, -⟩ := idx_facts t
  show V c main_v29_1 (((cfg1.win 1).blk t).view.emb (ix2 rr dd)) = V c main_v29_1 i
  congr 1
  funext a; apply Fin.ext
  match a with
  | ⟨0, _⟩ => show win1_1.index t (0 : Fin 2) * 1024 + 1 * rr.val = (i 0).val; omega
  | ⟨1, _⟩ => show win1_1.index t (1 : Fin 2) * 512 + 1 * dd.val = (i 1).val; omega

/-- Entry rr of tile t of num is entry t·1024 + rr of num. -/
theorem nBlk_apply (t : Fin cfg1.N) (rr : Fin 1024) (q : Fin 1) (k : S32768x1.Idx)
    (h0 : (k 0).val = t.val * 1024 + rr.val) :
    nBlk V c t (ix2 rr q) = nArr V c k := by
  obtain ⟨-, -, -, -, e20, e21, -, -, -, -⟩ := idx_facts t
  have hq : q.val < 1 := q.isLt
  have hk : (k 1).val < 1 := (k 1).isLt
  show V c main_v29_2 (((cfg1.win 2).blk t).view.emb (ix2 rr q)) = V c main_v29_2 k
  congr 1
  funext a; apply Fin.ext
  match a with
  | ⟨0, _⟩ => show win1_2.index t (0 : Fin 2) * 1024 + 1 * rr.val = (k 0).val; omega
  | ⟨1, _⟩ => show win1_2.index t (1 : Fin 2) * 1 + 1 * q.val = (k 1).val; omega

/-- The denominator's block is its one entry, at every point. -/
theorem dBlk_apply (t : Fin cfg1.N) (p q : Fin 1) (k : S1x1.Idx) :
    dBlk V c t (ix2 p q) = dArr V c k := by
  obtain ⟨-, -, -, -, -, -, e30, e31, -, -⟩ := idx_facts t
  have hp : p.val < 1 := p.isLt
  have hq : q.val < 1 := q.isLt
  have hk0 : (k 0).val < 1 := (k 0).isLt
  have hk1 : (k 1).val < 1 := (k 1).isLt
  show V c main_v33 (((cfg1.win 3).blk t).view.emb (ix2 p q)) = V c main_v33 k
  congr 1
  funext a; apply Fin.ext
  match a with
  | ⟨0, _⟩ => show win1_3.index t (0 : Fin 2) * 1 + 1 * p.val = (k 0).val; omega
  | ⟨1, _⟩ => show win1_3.index t (1 : Fin 2) * 1 + 1 * q.val = (k 1).val; omega

/-- The body's payload of tile t's blocks, at entry (rr, dd), is the result at (t·1024 + rr, dd). -/
theorem pay_at (t : Fin cfg1.N) (rr : Fin 1024) (dd : Fin 512) (i : S32768x512.Idx)
    (h0 : (i 0).val = t.val * 1024 + rr.val) (h1 : (i 1).val = dd.val) :
    k1_pay1 (F := Ideal) (fBlk V c t) (gBlk V c t) (nBlk V c t) (dBlk V c t) (ix2 rr dd) = res V c i := by
  refine (BodyValue.k1_pay1_apply (fBlk V c t) (gBlk V c t) (nBlk V c t) (dBlk V c t) rr dd).trans ?_
  rw [fBlk_apply V c t rr dd i h0 h1, gBlk_apply V c t rr dd i h0 h1,
    nBlk_apply V c t rr 0 (ix2 (i 0) 0) h0, dBlk_apply V c t 0 0 (ix2 0 0)]
  rfl

/-- What point t writes back is tile t of the result. -/
theorem flushed_eq (t : Fin cfg1.N) :
    (dat1 (F := Ideal) V c).flushed 4 t = ((cfg1.win 4).blk t).view.read (Elt Ideal) (res V c) := by
  show (cfg1.win 4).cut (grid1.coords t) ((dat1 (F := Ideal) V c).after 4 t) = _
  rw [after1_4]
  unfold out1_4
  rw [View.canon_unit_zero off_zero]
  simp only [View.ld_unit_zero (S := S1024x512) off_zero, View.ld_unit_zero (S := S1024x1) off_zero,
    View.ld_unit_zero (S := S1x1) off_zero]
  obtain ⟨-, -, -, -, -, -, -, -, e40, e41⟩ := idx_facts t
  refine funext fun (y : S1024x512.Idx) => ?_
  obtain ⟨rr, dd, rfl⟩ : ∃ (rr : Fin 1024) (dd : Fin 512), y = ix2 rr dd := ⟨y 0, y 1, eq_ix2 y⟩
  show k1_pay1 (F := Ideal) (fBlk V c t) (gBlk V c t) (nBlk V c t) (dBlk V c t) (ix2 rr dd)
      = res V c (((cfg1.win 4).blk t).view.emb (ix2 rr dd))
  refine pay_at V c t rr dd _ ?_ ?_
  · show win1_4.index t (0 : Fin 2) * 1024 + 1 * rr.val = t.val * 1024 + rr.val; omega
  · show win1_4.index t (1 : Fin 2) * 512 + 1 * dd.val = dd.val; omega

/-- An index is in point t's tile iff each coordinate is in the tile's range on its axis. -/
theorem mem_blk (t : Fin cfg1.N) (i : S32768x512.Idx) :
    i ∈ ((cfg1.win 4).blk t).view.set ↔
      ∀ a : Fin 2, win1_4.index t a * S1024x512.size a ≤ (i a).val
        ∧ (i a).val < win1_4.index t a * S1024x512.size a + S1024x512.size a := by
  show i ∈ ((View.whole main_v34).slice (win1_4.rect t)).set ↔ _
  rw [View.set_slice_whole, Rect.mem_set_unit]
  exact Iff.rfl

/-- The 32 tiles cover the array: row r is in tile r / 1024. -/
theorem cover (i : S32768x512.Idx) :
    ∃ t : Fin cfg1.N, (cfg1.win 4).flush t = true ∧ i ∈ ((cfg1.win 4).blk t).view.set := by
  have hi0 : (i 0).val < 32768 := (i 0).isLt
  have hi1 : (i 1).val < 512 := (i 1).isLt
  have hN : grid1.N = 32 := N_1
  have ht : (i 0).val / 1024 < cfg1.N := by show _ < grid1.N; omega
  obtain ⟨-, -, -, -, -, -, -, -, e40, e41⟩ := idx_facts ⟨(i 0).val / 1024, ht⟩
  have e40' : win1_4.index ⟨(i 0).val / 1024, ht⟩ (0 : Fin 2) = (i 0).val / 1024 := e40
  refine ⟨⟨(i 0).val / 1024, ht⟩, flush1_4 _, ?_⟩
  rw [mem_blk]
  intro a
  match a with
  | ⟨0, _⟩ =>
    show win1_4.index ⟨(i 0).val / 1024, ht⟩ (0 : Fin 2) * 1024 ≤ (i 0).val
      ∧ (i 0).val < win1_4.index ⟨(i 0).val / 1024, ht⟩ (0 : Fin 2) * 1024 + 1024
    omega
  | ⟨1, _⟩ =>
    show win1_4.index ⟨(i 0).val / 1024, ht⟩ (1 : Fin 2) * 512 ≤ (i 1).val
      ∧ (i 1).val < win1_4.index ⟨(i 0).val / 1024, ht⟩ (1 : Fin 2) * 512 + 512
    omega

/-- The result array after the region is the result function. -/
theorem arr_final : (dat1 (F := Ideal) V c).arrAt 4 cfg1.N = res V c :=
  (dat1 (F := Ideal) V c).arrAt_eq_of_cover 4 (res V c) (fun t _ => flushed_eq V c t) cover

/-- The result array after the region, entry by entry. -/
theorem region1_final (r : Fin 32768) (d : Fin 512) :
    ((dat1 (F := Ideal) V c).arrAt 4 cfg1.N : S32768x512.Idx → EReal) (ix2 r d)
      = fArr V c (ix2 r d) - (nArr V c (ix2 r 0) * Ideal.div 1 (dArr V c (ix2 0 0))) * gArr V c (ix2 r d) := by
  refine (congrFun (arr_final V c) (ix2 r d)).trans ?_
  rfl

end Cert.KernelIdeal.Region1

end
-- ==== Proof.KArrays0.lean ====
/-
  The first region's four output arrays. The three per-tile outputs (z, gv, num) are written back at every point,
  block t of the array, and the 32 blocks tile the arrays, so each array ends as the function whose tile t is what
  point t left. The denominator window's block c (of 2) is written back only at the last point of each half
  (t mod 16 = 15), so entry (c, ·, ·) of its array ends at what point 16c + 15 left.
-/
import proofs.«403450_j27376121545312_3_alg».proof.Proof.FrameKI
import proofs.«403450_j27376121545312_3_alg».proof.Proof.KGrid0
import proofs.«403450_j27376121545312_3_alg».proof.Proof.Tile
import Idealize.ShloMosaic.Lib.ValueIdx
import Idealize.ShloMosaic.Lib.Pipeline.Value

set_option maxRecDepth 16384

noncomputable section

namespace Cert.KernelIdeal.Windows0

open Idealize.ShloMosaic Idealize.ShloMosaic.TcCoe Idealize.ShloMosaic.ValueIdx
open Idealize.ShloMosaic.Pipeline (Dat Cfg Window)
open Cert.KernelIdeal Cert.KernelIdeal.Gen Cert.Lyap

variable (V : (c : Dev nD) → (b : Ref sig .tc) → Buf (Elt Ideal) ((c : Thread nD τ).loc b)) (c : Dev nD)

/-! ### Where the four output windows' blocks sit, and the two roads from blocks to an array -/

/-- The four output index maps over the 32 points: the row-tiled windows sit at block (t, 0), the denominator
    window at block (t / 16, 0, 0). -/
theorem outWin_index : ∀ t : Fin cfg0.N,
    win0_19.index t (0 : Fin 2) = t.val ∧ win0_19.index t (1 : Fin 2) = 0
    ∧ win0_20.index t (0 : Fin 2) = t.val ∧ win0_20.index t (1 : Fin 2) = 0
    ∧ win0_21.index t (0 : Fin 2) = t.val ∧ win0_21.index t (1 : Fin 2) = 0
    ∧ win0_22.index t (0 : Fin 3) = t.val / 16 ∧ win0_22.index t (1 : Fin 3) = 0
    ∧ win0_22.index t (2 : Fin 3) = 0 :=
  (by decide +kernel : ∀ t : Fin grid0.N, _)

/-- A tile's contents X, agreeing with G at the tile's rows, is block t of G (window 19). -/
theorem cut19_of (t : Fin cfg0.N) (X : Vec Ideal S1024x512 .bf16) (G : S32768x512.Idx → EReal)
    (hX : ∀ (rr : Fin 1024) (d : Fin 512), X (ix2 rr d) = G (ix2 (tileRow (pt t) rr) d)) :
    (cfg0.win 19).cut (grid0.coords t) X = ((cfg0.win 19).blk t).view.read (Elt Ideal) G := by
  obtain ⟨e0, e1, -, -, -, -, -, -, -⟩ := outWin_index t
  refine funext fun (y : S1024x512.Idx) => ?_
  obtain ⟨rr, dd, rfl⟩ : ∃ (rr : Fin 1024) (dd : Fin 512), y = ix2 rr dd := ⟨y 0, y 1, eq_ix2 y⟩
  show X (ix2 rr dd) = G (((cfg0.win 19).blk t).view.emb (ix2 rr dd))
  rw [hX rr dd]
  congr 1
  funext a; apply Fin.ext
  match a with
  | ⟨0, _⟩ => show t.val * 1024 + rr.val = win0_19.index t (0 : Fin 2) * 1024 + 1 * rr.val; omega
  | ⟨1, _⟩ => show dd.val = win0_19.index t (1 : Fin 2) * 512 + 1 * dd.val; omega

/-- The same for window 20. -/
theorem cut20_of (t : Fin cfg0.N) (X : Vec Ideal S1024x512 .bf16) (G : S32768x512.Idx → EReal)
    (hX : ∀ (rr : Fin 1024) (d : Fin 512), X (ix2 rr d) = G (ix2 (tileRow (pt t) rr) d)) :
    (cfg0.win 20).cut (grid0.coords t) X = ((cfg0.win 20).blk t).view.read (Elt Ideal) G := by
  obtain ⟨-, -, e0, e1, -, -, -, -, -⟩ := outWin_index t
  refine funext fun (y : S1024x512.Idx) => ?_
  obtain ⟨rr, dd, rfl⟩ : ∃ (rr : Fin 1024) (dd : Fin 512), y = ix2 rr dd := ⟨y 0, y 1, eq_ix2 y⟩
  show X (ix2 rr dd) = G (((cfg0.win 20).blk t).view.emb (ix2 rr dd))
  rw [hX rr dd]
  congr 1
  funext a; apply Fin.ext
  match a with
  | ⟨0, _⟩ => show t.val * 1024 + rr.val = win0_20.index t (0 : Fin 2) * 1024 + 1 * rr.val; omega
  | ⟨1, _⟩ => show dd.val = win0_20.index t (1 : Fin 2) * 512 + 1 * dd.val; omega

/-- The same for the one-column window 21. -/
theorem cut21_of (t : Fin cfg0.N) (X : Vec Ideal S1024x1 .f32) (G : S32768x1.Idx → EReal)
    (hX : ∀ (rr : Fin 1024), X (ix2 rr 0) = G (ix2 (tileRow (pt t) rr) 0)) :
    (cfg0.win 21).cut (grid0.coords t) X = ((cfg0.win 21).blk t).view.read (Elt Ideal) G := by
  obtain ⟨-, -, -, -, e0, e1, -, -, -⟩ := outWin_index t
  refine funext fun (y : S1024x1.Idx) => ?_
  obtain ⟨rr, q, rfl⟩ : ∃ (rr : Fin 1024) (q : Fin 1), y = ix2 rr q := ⟨y 0, y 1, eq_ix2 y⟩
  obtain rfl : q = 0 := Subsingleton.elim _ _
  show X (ix2 rr 0) = G (((cfg0.win 21).blk t).view.emb (ix2 rr 0))
  rw [hX rr]
  congr 1
  funext a; apply Fin.ext
  match a with
  | ⟨0, _⟩ => show t.val * 1024 + rr.val = win0_21.index t (0 : Fin 2) * 1024 + 1 * rr.val; omega
  | ⟨1, _⟩ => show 0 = win0_21.index t (1 : Fin 2) * 1 + 1 * 0; omega

/-- The denominator array as one function: entry (h, ·, ·) is the half's value. -/
def halfFn (Gd : Fin 2 → EReal) : S2x8x128.Idx → EReal := fun k => Gd (k 0)

/-- A denominator block constantly the half's value is the half's block of that function (window 22). -/
theorem cut22_of (t : Fin cfg0.N) (X : Vec Ideal S1x8x128 .f32) (Gd : Fin 2 → EReal)
    (hX : ∀ (i : Fin 8) (j : Fin 128), X (ix3 0 i j) = Gd (halfOf t)) :
    (cfg0.win 22).cut (grid0.coords t) X = ((cfg0.win 22).blk t).view.read (Elt Ideal) (halfFn Gd) := by
  obtain ⟨-, -, -, -, -, -, e0, e1, e2⟩ := outWin_index t
  refine funext fun (y : S1x8x128.Idx) => ?_
  obtain ⟨p, i, j, rfl⟩ : ∃ (p : Fin 1) (i : Fin 8) (j : Fin 128), y = ix3 p i j := ⟨y 0, y 1, y 2, eq_ix3 y⟩
  obtain rfl : p = 0 := Subsingleton.elim _ _
  show X (ix3 0 i j) = Gd ((((cfg0.win 22).blk t).view.emb (ix3 0 i j)) 0)
  rw [hX i j]
  congr 1
  apply Fin.ext
  show t.val / 16 = win0_22.index t (0 : Fin 3) * 1 + 1 * 0
  omega

/-! ### Membership in a block, and the covers -/

theorem mem_blk19 (t : Fin cfg0.N) (i : S32768x512.Idx) :
    i ∈ ((cfg0.win 19).blk t).view.set ↔
      ∀ a : Fin 2, win0_19.index t a * S1024x512.size a ≤ (i a).val
        ∧ (i a).val < win0_19.index t a * S1024x512.size a + S1024x512.size a := by
  show i ∈ ((View.whole main_v29_0).slice (win0_19.rect t)).set ↔ _
  rw [View.set_slice_whole, Rect.mem_set_unit]
  exact Iff.rfl

theorem mem_blk20 (t : Fin cfg0.N) (i : S32768x512.Idx) :
    i ∈ ((cfg0.win 20).blk t).view.set ↔
      ∀ a : Fin 2, win0_20.index t a * S1024x512.size a ≤ (i a).val
        ∧ (i a).val < win0_20.index t a * S1024x512.size a + S1024x512.size a := by
  show i ∈ ((View.whole main_v29_1).slice (win0_20.rect t)).set ↔ _
  rw [View.set_slice_whole, Rect.mem_set_unit]
  exact Iff.rfl

theorem mem_blk21 (t : Fin cfg0.N) (i : S32768x1.Idx) :
    i ∈ ((cfg0.win 21).blk t).view.set ↔
      ∀ a : Fin 2, win0_21.index t a * S1024x1.size a ≤ (i a).val
        ∧ (i a).val < win0_21.index t a * S1024x1.size a + S1024x1.size a := by
  show i ∈ ((View.whole main_v29_2).slice (win0_21.rect t)).set ↔ _
  rw [View.set_slice_whole, Rect.mem_set_unit]
  exact Iff.rfl

theorem mem_blk22 (t : Fin cfg0.N) (k : S2x8x128.Idx) :
    k ∈ ((cfg0.win 22).blk t).view.set ↔
      ∀ a : Fin 3, win0_22.index t a * S1x8x128.size a ≤ (k a).val
        ∧ (k a).val < win0_22.index t a * S1x8x128.size a + S1x8x128.size a := by
  show k ∈ ((View.whole main_v29_3).slice (win0_22.rect t)).set ↔ _
  rw [View.set_slice_whole, Rect.mem_set_unit]
  exact Iff.rfl

/-- Row r is in tile r / 1024 (window 19). -/
theorem cover19 (i : S32768x512.Idx) :
    ∃ t : Fin cfg0.N, (cfg0.win 19).flush t = true ∧ i ∈ ((cfg0.win 19).blk t).view.set := by
  have hi0 : (i 0).val < 32768 := (i 0).isLt
  have hi1 : (i 1).val < 512 := (i 1).isLt
  have hN : grid0.N = 32 := N_0
  have ht : (i 0).val / 1024 < cfg0.N := by show _ < grid0.N; omega
  obtain ⟨e0, e1, -, -, -, -, -, -, -⟩ := outWin_index ⟨(i 0).val / 1024, ht⟩
  have e0' : win0_19.index ⟨(i 0).val / 1024, ht⟩ (0 : Fin 2) = (i 0).val / 1024 := e0
  refine ⟨⟨(i 0).val / 1024, ht⟩, flush0_19 _, ?_⟩
  rw [mem_blk19]
  intro a
  match a with
  | ⟨0, _⟩ =>
    show win0_19.index ⟨(i 0).val / 1024, ht⟩ (0 : Fin 2) * 1024 ≤ (i 0).val
      ∧ (i 0).val < win0_19.index ⟨(i 0).val / 1024, ht⟩ (0 : Fin 2) * 1024 + 1024
    omega
  | ⟨1, _⟩ =>
    show win0_19.index ⟨(i 0).val / 1024, ht⟩ (1 : Fin 2) * 512 ≤ (i 1).val
      ∧ (i 1).val < win0_19.index ⟨(i 0).val / 1024, ht⟩ (1 : Fin 2) * 512 + 512
    omega

/-- Row r is in tile r / 1024 (window 20). -/
theorem cover20 (i : S32768x512.Idx) :
    ∃ t : Fin cfg0.N, (cfg0.win 20).flush t = true ∧ i ∈ ((cfg0.win 20).blk t).view.set := by
  have hi0 : (i 0).val < 32768 := (i 0).isLt
  have hi1 : (i 1).val < 512 := (i 1).isLt
  have hN : grid0.N = 32 := N_0
  have ht : (i 0).val / 1024 < cfg0.N := by show _ < grid0.N; omega
  obtain ⟨-, -, e0, e1, -, -, -, -, -⟩ := outWin_index ⟨(i 0).val / 1024, ht⟩
  have e0' : win0_20.index ⟨(i 0).val / 1024, ht⟩ (0 : Fin 2) = (i 0).val / 1024 := e0
  refine ⟨⟨(i 0).val / 1024, ht⟩, flush0_20 _, ?_⟩
  rw [mem_blk20]
  intro a
  match a with
  | ⟨0, _⟩ =>
    show win0_20.index ⟨(i 0).val / 1024, ht⟩ (0 : Fin 2) * 1024 ≤ (i 0).val
      ∧ (i 0).val < win0_20.index ⟨(i 0).val / 1024, ht⟩ (0 : Fin 2) * 1024 + 1024
    omega
  | ⟨1, _⟩ =>
    show win0_20.index ⟨(i 0).val / 1024, ht⟩ (1 : Fin 2) * 512 ≤ (i 1).val
      ∧ (i 1).val < win0_20.index ⟨(i 0).val / 1024, ht⟩ (1 : Fin 2) * 512 + 512
    omega

/-- Row r is in tile r / 1024 (window 21). -/
theorem cover21 (i : S32768x1.Idx) :
    ∃ t : Fin cfg0.N, (cfg0.win 21).flush t = true ∧ i ∈ ((cfg0.win 21).blk t).view.set := by
  have hi0 : (i 0).val < 32768 := (i 0).isLt
  have hi1 : (i 1).val < 1 := (i 1).isLt
  have hN : grid0.N = 32 := N_0
  have ht : (i 0).val / 1024 < cfg0.N := by show _ < grid0.N; omega
  obtain ⟨-, -, -, -, e0, e1, -, -, -⟩ := outWin_index ⟨(i 0).val / 1024, ht⟩
  have e0' : win0_21.index ⟨(i 0).val / 1024, ht⟩ (0 : Fin 2) = (i 0).val / 1024 := e0
  refine ⟨⟨(i 0).val / 1024, ht⟩, flush0_21 _, ?_⟩
  rw [mem_blk21]
  intro a
  match a with
  | ⟨0, _⟩ =>
    show win0_21.index ⟨(i 0).val / 1024, ht⟩ (0 : Fin 2) * 1024 ≤ (i 0).val
      ∧ (i 0).val < win0_21.index ⟨(i 0).val / 1024, ht⟩ (0 : Fin 2) * 1024 + 1024
    omega
  | ⟨1, _⟩ =>
    show win0_21.index ⟨(i 0).val / 1024, ht⟩ (1 : Fin 2) * 1 ≤ (i 1).val
      ∧ (i 1).val < win0_21.index ⟨(i 0).val / 1024, ht⟩ (1 : Fin 2) * 1 + 1
    omega

/-- Entry (h, i, j) is in the block of point 16h + 15, the last point of half h, which writes back. -/
theorem cover22 (k : S2x8x128.Idx) :
    ∃ t : Fin cfg0.N, (cfg0.win 22).flush t = true ∧ k ∈ ((cfg0.win 22).blk t).view.set := by
  have hk0 : (k 0).val < 2 := (k 0).isLt
  have hk1 : (k 1).val < 8 := (k 1).isLt
  have hk2 : (k 2).val < 128 := (k 2).isLt
  have hN : grid0.N = 32 := N_0
  have ht : 16 * (k 0).val + 15 < cfg0.N := by show _ < grid0.N; omega
  obtain ⟨-, -, -, -, -, -, e0, e1, e2⟩ := outWin_index ⟨16 * (k 0).val + 15, ht⟩
  have e0' : win0_22.index ⟨16 * (k 0).val + 15, ht⟩ (0 : Fin 3) = (16 * (k 0).val + 15) / 16 := e0
  refine ⟨⟨16 * (k 0).val + 15, ht⟩, (flush0_22 _).mpr (by show (16 * (k 0).val + 15) % 16 = 15; omega), ?_⟩
  rw [mem_blk22]
  intro a
  match a with
  | ⟨0, _⟩ =>
    show win0_22.index ⟨16 * (k 0).val + 15, ht⟩ (0 : Fin 3) * 1 ≤ (k 0).val
      ∧ (k 0).val < win0_22.index ⟨16 * (k 0).val + 15, ht⟩ (0 : Fin 3) * 1 + 1
    omega
  | ⟨1, _⟩ =>
    show win0_22.index ⟨16 * (k 0).val + 15, ht⟩ (1 : Fin 3) * 8 ≤ (k 1).val
      ∧ (k 1).val < win0_22.index ⟨16 * (k 0).val + 15, ht⟩ (1 : Fin 3) * 8 + 8
    omega
  | ⟨2, _⟩ =>
    show win0_22.index ⟨16 * (k 0).val + 15, ht⟩ (2 : Fin 3) * 128 ≤ (k 2).val
      ∧ (k 2).val < win0_22.index ⟨16 * (k 0).val + 15, ht⟩ (2 : Fin 3) * 128 + 128
    omega

/-! ### Output arrays -/

/-- z's array: tile t is what point t left in window 19's buffer. -/
theorem arr19 (G : S32768x512.Idx → EReal)
    (hpt : ∀ (t : Fin cfg0.N) (rr : Fin 1024) (d : Fin 512),
      (outsAt0 (F := Ideal) V c t.val t.isLt).1 (ix2 rr d) = G (ix2 (tileRow (pt t) rr) d))
    (r : Fin 32768) (d : Fin 512) :
    ((dat0 (F := Ideal) V c).arrAt 19 cfg0.N : S32768x512.Idx → EReal) (ix2 r d) = G (ix2 r d) := by
  have hfl : ∀ t, (cfg0.win 19).flush t = true →
      (dat0 (F := Ideal) V c).flushed 19 t = ((cfg0.win 19).blk t).view.read (Elt Ideal) G := by
    intro t _
    show (cfg0.win 19).cut (grid0.coords t) ((dat0 (F := Ideal) V c).after 19 t) = _
    rw [after0_19]
    exact cut19_of t _ G (hpt t)
  exact congrFun ((dat0 (F := Ideal) V c).arrAt_eq_of_cover 19 G hfl cover19) (ix2 r d)

/-- gv's array, likewise (window 20). -/
theorem arr20 (G : S32768x512.Idx → EReal)
    (hpt : ∀ (t : Fin cfg0.N) (rr : Fin 1024) (d : Fin 512),
      (outsAt0 (F := Ideal) V c t.val t.isLt).2.1 (ix2 rr d) = G (ix2 (tileRow (pt t) rr) d))
    (r : Fin 32768) (d : Fin 512) :
    ((dat0 (F := Ideal) V c).arrAt 20 cfg0.N : S32768x512.Idx → EReal) (ix2 r d) = G (ix2 r d) := by
  have hfl : ∀ t, (cfg0.win 20).flush t = true →
      (dat0 (F := Ideal) V c).flushed 20 t = ((cfg0.win 20).blk t).view.read (Elt Ideal) G := by
    intro t _
    show (cfg0.win 20).cut (grid0.coords t) ((dat0 (F := Ideal) V c).after 20 t) = _
    rw [after0_20]
    exact cut20_of t _ G (hpt t)
  exact congrFun ((dat0 (F := Ideal) V c).arrAt_eq_of_cover 20 G hfl cover20) (ix2 r d)

/-- num's array, likewise (window 21, one column). -/
theorem arr21 (G : S32768x1.Idx → EReal)
    (hpt : ∀ (t : Fin cfg0.N) (rr : Fin 1024),
      (outsAt0 (F := Ideal) V c t.val t.isLt).2.2.1 (ix2 rr 0) = G (ix2 (tileRow (pt t) rr) 0))
    (r : Fin 32768) :
    ((dat0 (F := Ideal) V c).arrAt 21 cfg0.N : S32768x1.Idx → EReal) (ix2 r 0) = G (ix2 r 0) := by
  have hfl : ∀ t, (cfg0.win 21).flush t = true →
      (dat0 (F := Ideal) V c).flushed 21 t = ((cfg0.win 21).blk t).view.read (Elt Ideal) G := by
    intro t _
    show (cfg0.win 21).cut (grid0.coords t) ((dat0 (F := Ideal) V c).after 21 t) = _
    rw [after0_21]
    exact cut21_of t _ G (hpt t)
  exact congrFun ((dat0 (F := Ideal) V c).arrAt_eq_of_cover 21 G hfl cover21) (ix2 r 0)

/-- The denominator blocks' array: entry (h, i, j) is what the last point of half h left at (0, i, j). -/
theorem arr22 (Gd : Fin 2 → EReal)
    (hpt : ∀ (t : Fin cfg0.N), t.val % 16 = 15 → ∀ (i : Fin 8) (j : Fin 128),
      (outsAt0 (F := Ideal) V c t.val t.isLt).2.2.2 (ix3 0 i j) = Gd (halfOf t))
    (h : Fin 2) (i : Fin 8) (j : Fin 128) :
    ((dat0 (F := Ideal) V c).arrAt 22 cfg0.N : S2x8x128.Idx → EReal) (ix3 h i j) = Gd h := by
  have hfl : ∀ t, (cfg0.win 22).flush t = true →
      (dat0 (F := Ideal) V c).flushed 22 t = ((cfg0.win 22).blk t).view.read (Elt Ideal) (halfFn Gd) := by
    intro t hf
    show (cfg0.win 22).cut (grid0.coords t) ((dat0 (F := Ideal) V c).after 22 t) = _
    rw [after0_22]
    exact cut22_of t _ Gd (hpt t ((flush0_22 t).mp hf))
  exact congrFun ((dat0 (F := Ideal) V c).arrAt_eq_of_cover 22 (halfFn Gd) hfl cover22) (ix3 h i j)

end Cert.KernelIdeal.Windows0

end
-- ==== Proof.KFinal.lean ====
/-
  The kernel program's result: the result array after the second region — the last boundary's contents of the result
  buffer — is, entry by entry, the model's kernel-side result outK of the launch memory's argument arrays. The run's
  boundaries are walked in order: the host's weight preparation gives the first region its Entry; the first region
  leaves z, gv, the numerators and the two halves' denominator sums; the host adds the two; the second region combines.
-/
import proofs.«403450_j27376121545312_3_alg».proof.Proof.FrameKI
import proofs.«403450_j27376121545312_3_alg».proof.Proof.KHost
import proofs.«403450_j27376121545312_3_alg».proof.Proof.KPoints0
import proofs.«403450_j27376121545312_3_alg».proof.Proof.KRegion1
import proofs.«403450_j27376121545312_3_alg».proof.Proof.Inputs
import proofs.«403450_j27376121545312_3_alg».proof.Proof.Accum
import proofs.«403450_j27376121545312_3_alg».proof.Proof.KArrays0

set_option maxRecDepth 16384

noncomputable section

namespace Cert.KernelIdeal.Final

open Idealize.ShloMosaic Idealize.ShloMosaic.TcCoe Idealize.ShloMosaic.ValueIdx
open Cert.KernelIdeal Cert.KernelIdeal.Gen Cert.Lyap

variable (m : (ℓ : Loc nD τ sig) → Buf (Elt Ideal) ℓ) (ρ : Dev nD → PrngReg) (c : Dev nD)

/-- The model's inputs read off the launch memory. -/
def inpM : Inp EReal :=
  inpOf (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))

theorem inpM_eq : HostValue.inpW (W0 m ρ c) = inpM m c := rfl

/-- After the host's weight preparation the first region's input arrays hold what the model's inputs say. -/
theorem entry : Region0.Entry (V1 m ρ) c (inpM m c) where
  hx := fun r d => congrFun (HostValue.host_x (W0 m ρ c)) (ix2 r d)
  hW1 := fun d k => HostValue.host_W1 (W0 m ρ c) d k
  hb1 := fun k => HostValue.host_b1 (W0 m ρ c) k
  hW2 := fun j k => HostValue.host_W2 (W0 m ρ c) j k
  hb2 := fun k => HostValue.host_b2 (W0 m ρ c) k
  hW3 := fun k d => HostValue.host_W3 (W0 m ρ c) k d
  hb3 := fun d => HostValue.host_b3 (W0 m ρ c) d
  hW3V1 := fun k j => HostValue.host_W3V1 (W0 m ρ c) k j
  hbf := fun j => HostValue.host_bf (W0 m ρ c) j
  hV2 := fun i j => HostValue.host_V2 (W0 m ρ c) i j
  hc2 := fun j => HostValue.host_c2 (W0 m ρ c) j
  hV3 := fun j => HostValue.host_V3 (W0 m ρ c) j
  hc3 := HostValue.host_c3 (W0 m ρ c)
  hW1T := fun j d => HostValue.host_W1T (W0 m ρ c) j d
  hW2T := fun k j => HostValue.host_W2T (W0 m ρ c) k j
  hV2T := fun j i => HostValue.host_V2T (W0 m ρ c) j i
  hW3V1T := fun i k => HostValue.host_W3V1T (W0 m ρ c) i k
  hW3W3T := fun k' k => HostValue.host_W3W3T (W0 m ρ c) k' k
  hb3W3T := fun k => HostValue.host_b3W3T (W0 m ρ c) k
  he := rfl
  he2 := rfl
  ha := rfl

/-! ### After the first region -/

/-- z's array. -/
theorem after0_f (r : Fin 32768) (d : Fin 512) :
    (W2 m ρ c (Proc.devRef .tc main_v29_0) : S32768x512.Idx → EReal) (ix2 r d) = z (inpM m c) r d := by
  rw [show W2 m ρ c (Proc.devRef .tc main_v29_0) = (dat0 (V1 m ρ) c).arrAt 19 cfg0.N from W2_arr m ρ c 19]
  exact Windows0.arr19 (V1 m ρ) c (fun y => z (inpM m c) (y 0) (y 1))
    (fun t rr d => Region0.point19 (V1 m ρ) c (inpM m c) (entry m ρ c) t rr d) r d

/-- gv's array. -/
theorem after0_gv (r : Fin 32768) (d : Fin 512) :
    (W2 m ρ c (Proc.devRef .tc main_v29_1) : S32768x512.Idx → EReal) (ix2 r d) = gvK (inpM m c) r d := by
  rw [show W2 m ρ c (Proc.devRef .tc main_v29_1) = (dat0 (V1 m ρ) c).arrAt 20 cfg0.N from W2_arr m ρ c 20]
  exact Windows0.arr20 (V1 m ρ) c (fun y => gvK (inpM m c) (y 0) (y 1))
    (fun t rr d => Region0.point20 (V1 m ρ) c (inpM m c) (entry m ρ c) t rr d) r d

/-- The numerators' array. -/
theorem after0_num (r : Fin 32768) :
    (W2 m ρ c (Proc.devRef .tc main_v29_2) : S32768x1.Idx → EReal) (ix2 r 0) = numK (inpM m c) r := by
  rw [show W2 m ρ c (Proc.devRef .tc main_v29_2) = (dat0 (V1 m ρ) c).arrAt 21 cfg0.N from W2_arr m ρ c 21]
  exact Windows0.arr21 (V1 m ρ) c (fun y => numK (inpM m c) (y 0))
    (fun t rr => Region0.point21 (V1 m ρ) c (inpM m c) (entry m ρ c) t rr) r

/-- A half's sixteen tiles' sums. -/
def halfDen (I : Inp EReal) (h : Fin 2) : EReal := ∑ i : Fin 16, Region0.tileDen I (tileOf h i)

/-- What the last point of a half leaves in the denominator block, at every entry: the half's sum. -/
theorem last_of_half (t : Fin cfg0.N) (ht : t.val % 16 = 15) (i : Fin 8) (j : Fin 128) :
    (outsAt0 (F := Ideal) (V1 m ρ) c t.val t.isLt).2.2.2 (ix3 0 i j) = halfDen (inpM m c) (Windows0.halfOf t) := by
  have hN : cfg0.N = 32 := N_0
  have key := fold_half (ι := Fin 8 × Fin 128)
    (fun n h y => (outsAt0 (F := Ideal) (V1 m ρ) c n (hN ▸ h)).2.2.2 (ix3 0 y.1 y.2))
    (fun n => if h : n < 32 then Region0.tileDen (inpM m c) ⟨n, h⟩ else 0)
    (fun n h h0 y => by
      have := Region0.point22_A (V1 m ρ) c (inpM m c) (entry m ρ c) ⟨n, hN ▸ h⟩ h0 y.1 y.2
      rw [dif_pos h]; exact this)
    (fun n h hne y => by
      have := Region0.point22_B (V1 m ρ) c (inpM m c) (entry m ρ c) ⟨n + 1, hN ▸ h⟩ hne y.1 y.2
      rw [dif_pos h]; exact this)
    (Windows0.halfOf t) (i, j)
  have ht' : t.val = 16 * (Windows0.halfOf t).val + 15 := by
    show t.val = 16 * (t.val / 16) + 15
    omega
  have same : ∀ (a b : ℕ) (ha : a < cfg0.N) (hb : b < cfg0.N), a = b →
      (outsAt0 (F := Ideal) (V1 m ρ) c a ha).2.2.2 (ix3 0 i j) = (outsAt0 (F := Ideal) (V1 m ρ) c b hb).2.2.2 (ix3 0 i j) := by
    intro a b ha hb e; subst e; rfl
  have hb : 16 * (Windows0.halfOf t).val + 15 < cfg0.N := by rw [hN]; have := (Windows0.halfOf t).isLt; omega
  refine (same _ _ t.isLt hb ht').trans (key.trans ?_)
  unfold halfDen
  refine Finset.sum_congr rfl fun q _ => ?_
  have hq : 16 * (Windows0.halfOf t).val + q.val < 32 := by have := (Windows0.halfOf t).isLt; have := q.isLt; omega
  rw [dif_pos hq]
  exact congrArg (Region0.tileDen (inpM m c)) (Fin.ext (by show 16 * _ + _ = _ * 16 + _; omega))

/-- The denominator blocks' array. -/
theorem after0_den (h : Fin 2) (i : Fin 8) (j : Fin 128) :
    (W2 m ρ c (Proc.devRef .tc main_v29_3) : S2x8x128.Idx → EReal) (ix3 h i j) = halfDen (inpM m c) h := by
  rw [show W2 m ρ c (Proc.devRef .tc main_v29_3) = (dat0 (V1 m ρ) c).arrAt 22 cfg0.N from W2_arr m ρ c 22]
  exact Windows0.arr22 (V1 m ρ) c (halfDen (inpM m c)) (fun t ht i j => last_of_half m ρ c t ht i j) h i j

/-- The two halves' sums are the kernel's denominator. -/
theorem den_eq : (0 : EReal) + ∑ h : Fin 2, halfDen (inpM m c) h = denK (inpM m c) := by
  rw [zero_add]
  unfold denK halfDen Region0.tileDen
  refine Finset.sum_congr rfl fun h _ => Finset.sum_congr rfl fun i _ => Finset.sum_congr rfl fun rr _ => ?_
  rw [row_eq_tileRow]

/-! ### After the second region -/

/-- The result array, entry by entry, is the model's kernel-side result. -/
theorem kernel_value (r : Fin 32768) (d : Fin 512) :
    (W4 (F := Ideal) m ρ c (Proc.devRef .tc main_v34) : S32768x512.Idx → EReal) (ix2 r d) = outK (inpM m c) r d := by
  rw [show W4 m ρ c (Proc.devRef .tc main_v34) = (dat1 (V3 m ρ) c).arrAt 4 cfg1.N from W4_arr m ρ c 4]
  rw [Region1.region1_final (V3 m ρ) c r d]
  have hf : Region1.fArr (V3 m ρ) c (ix2 r d) = z (inpM m c) r d := by
    exact (congrFun (HostValue.host1_f (W2 m ρ c)) (ix2 r d)).trans (after0_f m ρ c r d)
  have hg : Region1.gArr (V3 m ρ) c (ix2 r d) = gvK (inpM m c) r d := by
    exact (congrFun (HostValue.host1_gv (W2 m ρ c)) (ix2 r d)).trans (after0_gv m ρ c r d)
  have hn : Region1.nArr (V3 m ρ) c (ix2 r 0) = numK (inpM m c) r := by
    exact (congrFun (HostValue.host1_num (W2 m ρ c)) (ix2 r 0)).trans (after0_num m ρ c r)
  have hd : Region1.dArr (V3 m ρ) c (ix2 0 0) = denK (inpM m c) := by
    refine (HostValue.host1_den (W2 m ρ c)).trans ?_
    rw [← den_eq m c]
    refine congrArg (fun s : EReal => 0 + s) (Finset.sum_congr rfl fun h _ => ?_)
    exact after0_den m ρ c h 0 0
  rw [hf, hg, hn, hd]
  rfl

end Cert.KernelIdeal.Final

end
-- ==== Proof.lean ====
/-
  The proof of `Cert.Claim` (Defs.lean): the five claims of this certificate, behind the witnesses of the programs' stated
  facts.

  The three frames. Each kernel program runs — every weakly fair execution terminates, nothing faulting — and leaves its
  thirteen argument arrays as launched (Proof/FrameK.lean at the bit-exact instance, Proof/FrameKI.lean on the extended
  reals); the reference's frame is its run (Proof/Gen/ReferenceIdeal/Run.lean) with the result dropped.

  preserves. The idealized kernel is the kernel's own text read on the extended reals: no operation was rewritten, and the
  claim is `True`.

  algebraic. On the extended reals, from memories that agree on the thirteen arguments and satisfy the precondition (every
  entry of every argument has absolute value below +∞), both programs run and end with the same result array:
    • the kernel's run ends with its result at the last boundary's contents of the result buffer (Proof/RunValue.lean),
      which entry by entry is the model's kernel-side result `outK` of the launch arrays (Proof/KFinal.lean);
    • the reference's run ends with its result at its last stage (Run.lean, Read.lean), which entry by entry is the
      model's reference result `outR` of its arrays (Proof/RefValue.lean);
    • the precondition makes every entry of every array a real number (Proof/Finite.lean), and for real arrays
      `outK = outR` (Proof/Model.lean, restated for arrays in Proof/Inputs.lean): distributivity and the exchange of two
      finite sums fold the two linear hops around z into products of weights, the tiles of the batch regroup one sum,
      the literal 0.002 is exactly twice 0.001, and where the denominator vanishes every entry of the gradient is 0, so
      both results are z whatever the two quotients are.
-/
import proofs.«403450_j27376121545312_3_alg».proof.Defs
import proofs.«403450_j27376121545312_3_alg».proof.Proof.Gen.Kernel
import proofs.«403450_j27376121545312_3_alg».proof.Proof.Gen.Kernel.Skeleton
import proofs.«403450_j27376121545312_3_alg».proof.Proof.Gen.Kernel.Launch
import proofs.«403450_j27376121545312_3_alg».proof.Proof.Gen.Kernel.Points
import proofs.«403450_j27376121545312_3_alg».proof.Proof.FrameK
import proofs.«403450_j27376121545312_3_alg».proof.Proof.Gen.KernelIdeal
import proofs.«403450_j27376121545312_3_alg».proof.Proof.Gen.KernelIdeal.Skeleton
import proofs.«403450_j27376121545312_3_alg».proof.Proof.Gen.KernelIdeal.Launch
import proofs.«403450_j27376121545312_3_alg».proof.Proof.Gen.KernelIdeal.Points
import proofs.«403450_j27376121545312_3_alg».proof.Proof.FrameKI
import proofs.«403450_j27376121545312_3_alg».proof.Proof.Gen.ReferenceIdeal
import proofs.«403450_j27376121545312_3_alg».proof.Proof.Gen.ReferenceIdeal.Run
import proofs.«403450_j27376121545312_3_alg».proof.Proof.Gen.ReferenceIdeal.Read
import proofs.«403450_j27376121545312_3_alg».proof.Proof.Gen.Pre_finite_inputs
import proofs.«403450_j27376121545312_3_alg».proof.Proof.Inputs
import proofs.«403450_j27376121545312_3_alg».proof.Proof.Finite
import proofs.«403450_j27376121545312_3_alg».proof.Proof.RefValue
import proofs.«403450_j27376121545312_3_alg».proof.Proof.RunValue
import proofs.«403450_j27376121545312_3_alg».proof.Proof.KFinal
import Idealize.ShloMosaic.Adequacy
import Idealize.ShloMosaic.Init

noncomputable section

/-! ## For real argument arrays the reference's result is the model's kernel-side result -/

namespace Cert.Proof

open Idealize.ShloMosaic Idealize.SL.Sem

/-- The reference's last stage, entry by entry, is the model's reference result (the stages read in order), and for
    arrays of real numbers that is the model's kernel-side result (the law of the model). -/
theorem value_eq (x0 : (⟨Cert.ReferenceIdeal.S32768x512, .f32⟩ : BufTy).Contents (Elt Ideal)) (x1 : (⟨Cert.ReferenceIdeal.S512x64, .f32⟩ : BufTy).Contents (Elt Ideal)) (x2 : (⟨Cert.ReferenceIdeal.S64, .f32⟩ : BufTy).Contents (Elt Ideal)) (x3 : (⟨Cert.ReferenceIdeal.S64x64, .f32⟩ : BufTy).Contents (Elt Ideal)) (x4 : (⟨Cert.ReferenceIdeal.S64, .f32⟩ : BufTy).Contents (Elt Ideal)) (x5 : (⟨Cert.ReferenceIdeal.S64x512, .f32⟩ : BufTy).Contents (Elt Ideal)) (x6 : (⟨Cert.ReferenceIdeal.S512, .f32⟩ : BufTy).Contents (Elt Ideal)) (x7 : (⟨Cert.ReferenceIdeal.S512x64, .f32⟩ : BufTy).Contents (Elt Ideal)) (x8 : (⟨Cert.ReferenceIdeal.S64, .f32⟩ : BufTy).Contents (Elt Ideal)) (x9 : (⟨Cert.ReferenceIdeal.S64x64, .f32⟩ : BufTy).Contents (Elt Ideal)) (x10 : (⟨Cert.ReferenceIdeal.S64, .f32⟩ : BufTy).Contents (Elt Ideal)) (x11 : (⟨Cert.ReferenceIdeal.S64x1, .f32⟩ : BufTy).Contents (Elt Ideal)) (x12 : (⟨Cert.ReferenceIdeal.S1, .f32⟩ : BufTy).Contents (Elt Ideal))
    (h0 : Cert.Lyap.RealArr (s := Cert.ReferenceIdeal.S32768x512) x0) (h1 : Cert.Lyap.RealArr (s := Cert.ReferenceIdeal.S512x64) x1) (h2 : Cert.Lyap.RealArr (s := Cert.ReferenceIdeal.S64) x2) (h3 : Cert.Lyap.RealArr (s := Cert.ReferenceIdeal.S64x64) x3) (h4 : Cert.Lyap.RealArr (s := Cert.ReferenceIdeal.S64) x4) (h5 : Cert.Lyap.RealArr (s := Cert.ReferenceIdeal.S64x512) x5) (h6 : Cert.Lyap.RealArr (s := Cert.ReferenceIdeal.S512) x6) (h7 : Cert.Lyap.RealArr (s := Cert.ReferenceIdeal.S512x64) x7) (h8 : Cert.Lyap.RealArr (s := Cert.ReferenceIdeal.S64) x8) (h9 : Cert.Lyap.RealArr (s := Cert.ReferenceIdeal.S64x64) x9) (h10 : Cert.Lyap.RealArr (s := Cert.ReferenceIdeal.S64) x10) (h11 : Cert.Lyap.RealArr (s := Cert.ReferenceIdeal.S64x1) x11) (h12 : Cert.Lyap.RealArr (s := Cert.ReferenceIdeal.S1) x12)
    (r : Fin 32768) (d : Fin 512) :
    Cert.ReferenceIdeal.Read.val_main_v97 (F := Ideal) x0 x1 x2 x3 x4 x5 x6 x7 x8 x9 x10 x11 x12 (ValueIdx.ix2 r d) = Cert.Lyap.outK (Cert.Lyap.inpOf x0 x1 x2 x3 x4 x5 x6 x7 x8 x9 x10 x11 x12) r d :=
  (Cert.ReferenceIdeal.RefValue.ref_value x0 x1 x2 x3 x4 x5 x6 x7 x8 x9 x10 x11 x12 r d).trans
    (Cert.Lyap.outK_eq_outR_of_real x0 x1 x2 x3 x4 x5 x6 x7 x8 x9 x10 x11 x12 h0 h1 h2 h3 h4 h5 h6 h7 h8 h9 h10 h11 h12 r d).symm

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealizing pass rewrote no operation: there is nothing to state. -/
theorem preserves : Cert.preserves_Kernel_KernelIdeal := trivial

/-- Both programs run; the kernel's result array ends at the last boundary's contents of its buffer, which entry by entry
    is the model's kernel-side result of the launch arrays; the reference's ends at its last stage of arrays that agree
    with those, which are real because the precondition holds: the same entries. -/
theorem algebraic : Cert.algebraic_KernelIdeal_ReferenceIdeal := by
  intro m ρ m' ρ' hpre hagree
  refine ⟨fun c => Cert.KernelIdeal.Gen.W4 m ρ c (Proc.devRef .tc Cert.KernelIdeal.main_v34), Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v97_eq, (hagree c).1,
    (hagree c).2.1,
    (hagree c).2.2.1,
    (hagree c).2.2.2.1,
    (hagree c).2.2.2.2.1,
    (hagree c).2.2.2.2.2.1,
    (hagree c).2.2.2.2.2.2.1,
    (hagree c).2.2.2.2.2.2.2.1,
    (hagree c).2.2.2.2.2.2.2.2.1,
    (hagree c).2.2.2.2.2.2.2.2.2.1,
    (hagree c).2.2.2.2.2.2.2.2.2.2.1,
    (hagree c).2.2.2.2.2.2.2.2.2.2.2.1,
    (hagree c).2.2.2.2.2.2.2.2.2.2.2.2]
  show (Cert.ReferenceIdeal.Read.val_main_v97 (F := Ideal) _ _ _ _ _ _ _ _ _ _ _ _ _ : Cert.ReferenceIdeal.S32768x512.Idx → EReal) = _
  funext y
  obtain ⟨r, d, rfl⟩ : ∃ (r : Fin 32768) (d : Fin 512), y = ValueIdx.ix2 r d := ⟨y 0, y 1, ValueIdx.eq_ix2 y⟩
  obtain ⟨h0, h1, h2, h3, h4, h5, h6, h7, h8, h9, h10, h11, h12⟩ := Cert.Proof.Finite.real_of_fn _ _ _ _ _ _ _ _ _ _ _ _ _ (hpre c)
  exact (value_eq _ _ _ _ _ _ _ _ _ _ _ _ _ h0 h1 h2 h3 h4 h5 h6 h7 h8 h9 h10 h11 h12 r d).trans (Cert.KernelIdeal.Final.kernel_value m ρ c r d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
